-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x600000 : Shape := ⟨2, ![2, 600000]⟩
abbrev S600000 : Shape := ⟨1, ![600000]⟩
abbrev S16x128 : Shape := ⟨2, ![16, 128]⟩
abbrev S3x4x128x128 : Shape := ⟨4, ![3, 4, 128, 128]⟩
abbrev S3x128x128 : Shape := ⟨3, ![3, 128, 128]⟩
abbrev S3x128 : Shape := ⟨2, ![3, 128]⟩
abbrev S_ : Shape := ⟨0, ![]⟩
abbrev S1x600000 : Shape := ⟨2, ![1, 600000]⟩

class Facts : Prop where
  bcast_S_S16x128 : S_.BroadcastsInDim S16x128 (![] : Fin 0 → Fin S16x128.rank)
  reducesTo_S16x128_S_d0_1 : S16x128.ReducesTo [0, 1] S_
  h_S_ : 0 < S_.numel
  bcast_S_S3x4x128x128 : S_.BroadcastsInDim S3x4x128x128 (![] : Fin 0 → Fin S3x4x128x128.rank)
  reducesTo_S3x4x128x128_S_d0_1_2_3 : S3x4x128x128.ReducesTo [0, 1, 2, 3] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S50000 : S_.BroadcastsInDim S50000 (![] : Fin 0 → Fin S50000.rank)
  reducesTo_S50000_S_d0 : S50000.ReducesTo [0] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part2 {F : FTy → Type} [FloatOps F] (main_v32 : IVec S_ 1) (main_v33 : IVec S1x600000 32) : IVec S_ 1 :=
  let main_v34 : IVec S600000 32 := shapeCast S600000 main_v33 shapeCasts_S1x600000_S600000
  let main_c_12 : IVec S_ 32 := constantI S_ 32 50000#32
  let main_v35 : IVec S600000 32 := broadcastInDim S600000 ![] bcast_S_S600000 main_c_12
  let main_v36 : IVec S600000 1 := cmpi .slt main_v34 main_v35
  let main_c_13 : IVec S_ 1 := constantI S_ 1 1#1
  let main_v37 : IVec S_ 1 := (fun x v => Host.reduce IntOp.andi x v reducesTo_S600000_S_d0 h_S_) main_v36 main_c_13
  let main_v38 : IVec S_ 1 := andi main_v32 main_v37
  main_v38

def fn_part1 {F : FTy → Type} [FloatOps F] (main_arg0 : IVec S50000 32) (main_arg1 : IVec S2x600000 32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_c_6 : IVec S_ 32 := constantI S_ 32 0#32
  let main_v19 : IVec S50000 32 := broadcastInDim S50000 ![] bcast_S_S50000 main_c_6
  let main_v20 : IVec S50000 1 := cmpi .sge main_arg0 main_v19
  let main_c_7 : IVec S_ 1 := constantI S_ 1 1#1
  let main_v21 : IVec S_ 1 := (fun x v => Host.reduce IntOp.andi x v reducesTo_S50000_S_d0 h_S_) main_v20 main_c_7
  let main_v22 : IVec S_ 1 := andi main_v18 main_v21
  let main_c_8 : IVec S_ 32 := constantI S_ 32 16#32
  let main_v23 : IVec S50000 32 := broadcastInDim S50000 ![] bcast_S_S50000 main_c_8
  let main_v24 : IVec S50000 1 := cmpi .slt main_arg0 main_v23
  let main_c_9 : IVec S_ 1 := constantI S_ 1 1#1
  let main_v25 : IVec S_ 1 := (fun x v => Host.reduce IntOp.andi x v reducesTo_S50000_S_d0 h_S_) main_v24 main_c_9
  let main_v26 : IVec S_ 1 := andi main_v22 main_v25
  let main_v27 : IVec S1x600000 32 := (extractStridedSlice S1x600000 ![0, 0] · slices_S2x600000_S1x600000_0_0) main_arg1
  let main_v28 : IVec S600000 32 := shapeCast S600000 main_v27 shapeCasts_S1x600000_S600000
  let main_c_10 : IVec S_ 32 := constantI S_ 32 0#32
  let main_v29 : IVec S600000 32 := broadcastInDim S600000 ![] bcast_S_S600000 main_c_10
  let main_v30 : IVec S600000 1 := cmpi .sge main_v28 main_v29
  let main_c_11 : IVec S_ 1 := constantI S_ 1 1#1
  let main_v31 : IVec S_ 1 := (fun x v => Host.reduce IntOp.andi x v reducesTo_S600000_S_d0 h_S_) main_v30 main_c_11
  let main_v32 : IVec S_ 1 := andi main_v26 main_v31
  let main_v33 : IVec S1x600000 32 := (extractStridedSlice S1x600000 ![0, 0] · slices_S2x600000_S1x600000_0_0) main_arg1
  fn_part2 (F := F) main_v32 main_v33

def fn {F : FTy → Type} [FloatOps F] (main_arg0 : IVec S50000 32) (main_arg1 : IVec S2x600000 32) (main_arg2 : IVec S600000 32) (main_arg3 : FVec F S16x128 .f32) (main_arg4 : FVec F S3x4x128x128 .f32) (main_arg5 : FVec F S3x128x128 .f32) (main_arg6 : FVec F S3x128 .f32) : IVec S_ 1 :=
  let main_v0 : FVec F S16x128 .f32 := Host.absf main_arg3
  let main_cst : FVec F S_ .f32 := constant S_ .f32 0x7F800000#32
  let main_v1 : FVec F S16x128 .f32 := broadcastInDim S16x128 ![] bcast_S_S16x128 main_cst
  let main_v2 : IVec S16x128 1 := cmpf .olt main_v0 main_v1
  let main_c : IVec S_ 1 := constantI S_ 1 1#1
  let main_v3 : IVec S_ 1 := (fun x v => Host.reduce IntOp.andi x v reducesTo_S16x128_S_d0_1 h_S_) main_v2 main_c
  let main_v4 : FVec F S3x4x128x128 .f32 := Host.absf main_arg4
  let main_cst_0 : FVec F S_ .f32 := constant S_ .f32 0x7F800000#32
  let main_v5 : FVec F S3x4x128x128 .f32 := broadcastInDim S3x4x128x128 ![] bcast_S_S3x4x128x128 main_cst_0
  let main_v6 : IVec S3x4x128x128 1 := cmpf .olt main_v4 main_v5
  let main_c_1 : IVec S_ 1 := constantI S_ 1 1#1
  let main_v7 : IVec S_ 1 := (fun x v => Host.reduce IntOp.andi x v reducesTo_S3x4x128x128_S_d0_1_2_3 h_S_) main_v6 main_c_1
  let main_v8 : IVec S_ 1 := andi main_v3 main_v7
  let main_v9 : FVec F S3x128x128 .f32 := Host.absf main_arg5
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg6
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg0 main_arg1 main_v13 main_v16
-- ==== Kernel.lean ====
abbrev S50000 : Shape := ⟨1, ![50000]⟩
abbrev S2x600000 : Shape := ⟨2, ![2, 600000]⟩
abbrev S600000 : Shape := ⟨1, ![600000]⟩
abbrev S16x128 : Shape := ⟨2, ![16, 128]⟩
abbrev S3x4x128x128 : Shape := ⟨4, ![3, 4, 128, 128]⟩
abbrev S3x128x128 : Shape := ⟨3, ![3, 128, 128]⟩
abbrev S3x128 : Shape := ⟨2, ![3, 128]⟩
abbrev S50000x1 : Shape := ⟨2, ![50000, 1]⟩
abbrev S1x600000 : Shape := ⟨2, ![1, 600000]⟩
abbrev S600000x1 : Shape := ⟨2, ![600000, 1]⟩
abbrev S50000x128 : Shape := ⟨2, ![50000, 128]⟩
abbrev S5000x1 : Shape := ⟨2, ![5000, 1]⟩
abbrev S5000x128 : Shape := ⟨2, ![5000, 128]⟩
abbrev S5000x16 : Shape := ⟨2, ![5000, 16]⟩
abbrev S_ : Shape := ⟨0, ![]⟩
abbrev S1 : Shape := ⟨1, ![1]⟩
abbrev S1x1 : Shape := ⟨2, ![1, 1]⟩
abbrev S600000x128 : Shape := ⟨2, ![600000, 128]⟩
abbrev S1x4x128x128 : Shape := ⟨4, ![1, 4, 128, 128]⟩
abbrev S4x128x128 : Shape := ⟨3, ![4, 128, 128]⟩
abbrev S6000x128 : Shape := ⟨2, ![6000, 128]⟩
abbrev S6000x1 : Shape := ⟨2, ![6000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 122
  | .vmem => 50
  | .smem => 0
  | _ => 0

abbrev bufTy : (tb : Table) → Fin (tcTables nBuf tb) → BufTy
  | .hbm, ⟨0, _⟩ => ⟨S50000, .i32⟩
  | .hbm, ⟨1, _⟩ => ⟨S2x600000, .i32⟩
  | .hbm, ⟨2, _⟩ => ⟨S600000, .i32⟩
  | .hbm, ⟨3, _⟩ => ⟨S16x128, .f32⟩
  | .hbm, ⟨4, _⟩ => ⟨S3x4x128x128, .f32⟩
  | .hbm, ⟨5, _⟩ => ⟨S3x128x128, .f32⟩
  | .hbm, ⟨6, _⟩ => ⟨S3x128, .f32⟩
  | .hbm, ⟨7, _⟩ => ⟨S50000x1, .i32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S600000x1, .i32⟩
  | .hbm, ⟨13, _⟩ => ⟨S50000x128, .f32⟩
  | .hbm, ⟨14, _⟩ => ⟨S_, .i32⟩
  | .hbm, ⟨15, _⟩ => ⟨S600000, .i32⟩
  | .hbm, ⟨16, _⟩ => ⟨S600000, .i1⟩
  | .hbm, ⟨17, _⟩ => ⟨S_, .i32⟩
  | .hbm, ⟨18, _⟩ => ⟨S600000, .i32⟩
  | .hbm, ⟨19, _⟩ => ⟨S600000, .i32⟩
  | .hbm, ⟨20, _⟩ => ⟨S600000, .i32⟩
  | .hbm, ⟨21, _⟩ => ⟨S600000x1, .i32⟩
  | .hbm, ⟨22, _⟩ => ⟨S1, .i32⟩
  | .hbm, ⟨23, _⟩ => ⟨S_, .i32⟩
  | .hbm, ⟨24, _⟩ => ⟨S600000x1, .i32⟩
  | .hbm, ⟨25, _⟩ => ⟨S600000x1, .i1⟩
  | .hbm, ⟨26, _⟩ => ⟨S1x1, .i32⟩
  | .hbm, ⟨27, _⟩ => ⟨S600000x1, .i32⟩
  | .hbm, ⟨28, _⟩ => ⟨S600000x1, .i1⟩
  | .hbm, ⟨29, _⟩ => ⟨S600000x1, .i1⟩
  | .hbm, ⟨30, _⟩ => ⟨S_, .i1⟩
  | .hbm, ⟨31, _⟩ => ⟨S600000, .i1⟩
  | .hbm, ⟨32, _⟩ => ⟨S600000x128, .f32⟩
  | .hbm, ⟨33, _⟩ => ⟨S600000x128, .i1⟩
  | .hbm, ⟨34, _⟩ => ⟨S_, .f32⟩
  | .hbm, ⟨35, _⟩ => ⟨S600000x128, .f32⟩
  | .hbm, ⟨36, _⟩ => ⟨S600000x128, .f32⟩
  | .hbm, ⟨37, _⟩ => ⟨S1x4x128x128, .f32⟩
  | .hbm, ⟨38, _⟩ => ⟨S4x128x128, .f32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S1x128, .f32⟩
  | .hbm, ⟨45, _⟩ => ⟨S128, .f32⟩
  | .hbm, ⟨46, _⟩ => ⟨S1x128, .f32⟩
  | .hbm, ⟨47, _⟩ => ⟨S1x128x128, .f32⟩
  | .hbm, ⟨48, _⟩ => ⟨S128x128, .f32⟩
  | .hbm, ⟨49, _⟩ => ⟨S50000x128, .f32⟩
  | .hbm, ⟨50, _⟩ => ⟨S_, .i32⟩
  | .hbm, ⟨51, _⟩ => ⟨S600000, .i32⟩
  | .hbm, ⟨52, _⟩ => ⟨S600000, .i1⟩
  | .hbm, ⟨53, _⟩ => ⟨S_, .i32⟩
  | .hbm, ⟨54, _⟩ => ⟨S600000, .i32⟩
  | .hbm, ⟨55, _⟩ => ⟨S600000, .i32⟩
  | .hbm, ⟨56, _⟩ => ⟨S600000, .i32⟩
  | .hbm, ⟨57, _⟩ => ⟨S600000x1, .i32⟩
  | .hbm, ⟨58, _⟩ => ⟨S1, .i32⟩
  | .hbm, ⟨59, _⟩ => ⟨S_, .i32⟩
  | .hbm, ⟨60, _⟩ => ⟨S600000x1, .i32⟩
  | .hbm, ⟨61, _⟩ => ⟨S600000x1, .i1⟩
  | .hbm, ⟨62, _⟩ => ⟨S1x1, .i32⟩
  | .hbm, ⟨63, _⟩ => ⟨S600000x1, .i32⟩
  | .hbm, ⟨64, _⟩ => ⟨S600000x1, .i1⟩
  | .hbm, ⟨65, _⟩ => ⟨S600000x1, .i1⟩
  | .hbm, ⟨66, _⟩ => ⟨S_, .i1⟩
  | .hbm, ⟨67, _⟩ => ⟨S600000, .i1⟩
  | .hbm, ⟨68, _⟩ => ⟨S600000x128, .f32⟩
  | .hbm, ⟨69, _⟩ => ⟨S600000x128, .i1⟩
  | .hbm, ⟨70, _⟩ => ⟨S_, .f32⟩
  | .hbm, ⟨71, _⟩ => ⟨S600000x128, .f32⟩
  | .hbm, ⟨72, _⟩ => ⟨S600000x128, .f32⟩
  | .hbm, ⟨73, _⟩ => ⟨S1x4x128x128, .f32⟩
  | .hbm, ⟨74, _⟩ => ⟨S4x128x128, .f32⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S1x128x128, .f32⟩
  | .hbm, ⟨84, _⟩ => ⟨S128x128, .f32⟩
  | .hbm, ⟨85, _⟩ => ⟨S50000x128, .f32⟩
  | .hbm, ⟨86, _⟩ => ⟨S_, .i32⟩
  | .hbm, ⟨87, _⟩ => ⟨S600000, .i32⟩
  | .hbm, ⟨88, _⟩ => ⟨S600000, .i1⟩
  | .hbm, ⟨89, _⟩ => ⟨S_, .i32⟩
  | .hbm, ⟨90, _⟩ => ⟨S600000, .i32⟩
  | .hbm, ⟨91, _⟩ => ⟨S600000, .i32⟩
  | .hbm, ⟨92, _⟩ => ⟨S600000, .i32⟩
  | .hbm, ⟨93, _⟩ => ⟨S600000x1, .i32⟩
  | .hbm, ⟨94, _⟩ => ⟨S1, .i32⟩
  | .hbm, ⟨95, _⟩ => ⟨S_, .i32⟩
  | .hbm, ⟨96, _⟩ => ⟨S600000x1, .i32⟩
  | .hbm, ⟨97, _⟩ => ⟨S600000x1, .i1⟩
  | .hbm, ⟨98, _⟩ => ⟨S1x1, .i32⟩
  | .hbm, ⟨99, _⟩ => ⟨S600000x1, .i32⟩
  | .hbm, ⟨100, _⟩ => ⟨S600000x1, .i1⟩
  | .hbm, ⟨101, _⟩ => ⟨S600000x1, .i1⟩
  | .hbm, ⟨102, _⟩ => ⟨S_, .i1⟩
  | .hbm, ⟨103, _⟩ => ⟨S600000, .i1⟩
  | .hbm, ⟨104, _⟩ => ⟨S600000x128, .f32⟩
  | .hbm, ⟨105, _⟩ => ⟨S600000x128, .i1⟩
  | .hbm, ⟨106, _⟩ => ⟨S_, .f32⟩
  | .hbm, ⟨107, _⟩ => ⟨S600000x128, .f32⟩
  | .hbm, ⟨108, _⟩ => ⟨S600000x128, .f32⟩
  | .hbm, ⟨109, _⟩ => ⟨S1x4x128x128, .f32⟩
  | .hbm, ⟨110, _⟩ => ⟨S4x128x128, .f32⟩
  | .hbm, ⟨111, _⟩ => ⟨S600000x128, .f32⟩
  | .hbm, ⟨112, _⟩ => ⟨S_, .f32⟩
  | .hbm, ⟨113, _⟩ => ⟨S50000x128, .f32⟩
  | .hbm, ⟨114, _⟩ => ⟨S600000x1, .i32⟩
  | .hbm, ⟨115, _⟩ => ⟨S50000x128, .f32⟩
  | .hbm, ⟨116, _⟩ => ⟨S1x128, .f32⟩
  | .hbm, ⟨117, _⟩ => ⟨S128, .f32⟩
  | .hbm, ⟨118, _⟩ => ⟨S1x128, .f32⟩
  | .hbm, ⟨119, _⟩ => ⟨S1x128x128, .f32⟩
  | .hbm, ⟨120, _⟩ => ⟨S128x128, .f32⟩
  | .hbm, ⟨121, _⟩ => ⟨S50000x128, .f32⟩
  | .local _ .vmem, ⟨0, _⟩ => ⟨S5000x1, .i32⟩
  | .local _ .vmem, ⟨1, _⟩ => ⟨S5000x1, .i32⟩
  | .local _ .vmem, ⟨2, _⟩ => ⟨S16x128, .f32⟩
  | .local _ .vmem, ⟨3, _⟩ => ⟨S5000x128, .f32⟩
  | .local _ .vmem, ⟨4, _⟩ => ⟨S5000x128, .f32⟩
  | .local _ .vmem, ⟨5, _⟩ => ⟨S6000x128, .f32⟩
  | .local _ .vmem, ⟨6, _⟩ => ⟨S6000x128, .f32⟩
  | .local _ .vmem, ⟨7, _⟩ => ⟨S6000x1, .i32⟩
  | .local _ .vmem, ⟨8, _⟩ => ⟨S6000x1, .i32⟩
  | .local _ .vmem, ⟨9, _⟩ => ⟨S4x128x128, .f32⟩
  | .local _ .vmem, ⟨10, _⟩ => ⟨S6000x128, .f32⟩
  | .local _ .vmem, ⟨11, _⟩ => ⟨S6000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S6000x128, .f32⟩
  | .local _ .vmem, ⟨21, _⟩ => ⟨S6000x128, .f32⟩
  | .local _ .vmem, ⟨22, _⟩ => ⟨S6000x1, .i32⟩
  | .local _ .vmem, ⟨23, _⟩ => ⟨S6000x1, .i32⟩
  | .local _ .vmem, ⟨24, _⟩ => ⟨S4x128x128, .f32⟩
  | .local _ .vmem, ⟨25, _⟩ => ⟨S6000x128, .f32⟩
  | .local _ .vmem, ⟨26, _⟩ => ⟨S6000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S6000x128, .f32⟩
  | .local _ .vmem, ⟨36, _⟩ => ⟨S6000x128, .f32⟩
  | .local _ .vmem, ⟨37, _⟩ => ⟨S6000x1, .i32⟩
  | .local _ .vmem, ⟨38, _⟩ => ⟨S6000x1, .i32⟩
  | .local _ .vmem, ⟨39, _⟩ => ⟨S4x128x128, .f32⟩
  | .local _ .vmem, ⟨40, _⟩ => ⟨S6000x128, .f32⟩
  | .local _ .vmem, ⟨41, _⟩ => ⟨S6000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_cst_0 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_cst_1 : Ref sig .tc := ⟨.hbm, 112, rfl⟩
abbrev main_v37 : Ref sig .tc := ⟨.hbm, 113, rfl⟩
abbrev main_v38 : Ref sig .tc := ⟨.hbm, 114, rfl⟩
abbrev main_v39 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_v43 : Ref sig .tc := ⟨.hbm, 119, rfl⟩
abbrev main_v44 : Ref sig .tc := ⟨.hbm, 120, rfl⟩
abbrev main_v45 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg4_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem3_0 : DmaSem sig := 47
abbrev cc6_sem4_0 : DmaSem sig := 48
abbrev cc6_sem4_1 : DmaSem sig := 49

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S6000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S6000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S6000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4x128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S6000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S6000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S6000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S4x128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S6000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S5000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  shapeCasts_S50000_S50000x1 : S50000.ShapeCasts S50000x1
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S600000_S600000x1 : S600000.ShapeCasts S600000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x16_d1_w32 : S5000x16.Iotas .tc 32 [1]
  broadcasts_S5000x1_S5000x16 : S5000x1.Broadcasts S5000x16
  natLt_1_32 : 1 < 32
  bitsLt_bf16_f32 : FTy.bits .bf16 < FTy.bits .f32
  inb_S16x128_S16x128_0_0 : ∀ a, (![0, 0] : Fin 2 → Nat) a + S16x128.size a ≤ S16x128.size a
  h_S16x128 : 0 < S16x128.numel
  inb_S5000x128_S5000x128_0_0 : ∀ a, (![0, 0] : Fin 2 → Nat) a + S5000x128.size a ≤ S5000x128.size a
  h_S5000x128 : 0 < S5000x128.numel
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  slices_S3x4x128x128_S1x4x128x128_0_0_0_0 : S3x4x128x128.Slices ![0, 0, 0, 0] S1x4x128x128
  shapeCasts_S1x4x128x128_S4x128x128 : S1x4x128x128.ShapeCasts S4x128x128
  inb_S6000x128_S6000x128_0_0 : ∀ a, (![0, 0] : Fin 2 → Nat) a + S6000x128.size a ≤ S6000x128.size a
  h_S6000x128 : 0 < S6000x128.numel
  shapeCasts_S6000x128_S6000x128 : S6000x128.ShapeCasts S6000x128
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x128 : S6000x1.Broadcasts S6000x128
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  slices_S3x128x128_S1x128x128_0_0_0 : S3x128x128.Slices ![0, 0, 0] S1x128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x4x128x128_S1x4x128x128_1_0_0_0 : S3x4x128x128.Slices ![1, 0, 0, 0] S1x4x128x128
  slices_S3x128_S1x128_1_0 : S3x128.Slices ![1, 0] S1x128
  slices_S3x128x128_S1x128x128_1_0_0 : S3x128x128.Slices ![1, 0, 0] S1x128x128
  slices_S3x4x128x128_S1x4x128x128_2_0_0_0 : S3x4x128x128.Slices ![2, 0, 0, 0] S1x4x128x128
  slices_S3x128_S1x128_2_0 : S3x128.Slices ![2, 0] S1x128
  slices_S3x128x128_S1x128x128_2_0_0 : S3x128x128.Slices ![2, 0, 0] S1x128x128
  dot_S5000x16_S16x128_S5000x128_1_0_0_1_n_n_wf : DotDims.WF S5000x16 S16x128 S5000x128 [1] [0] [0] [1] [] []
  gather_S50000x128_S600000x1_S600000x128_1_0_n_n_0_1_1128_wf : GatherDims.WF S50000x128 S600000x1 S600000x128 [1] [0] [] [0] [] 1 ![1, 128]
  dot_S6000x128_S128x128_S6000x128_1_0_0_1_n_n_wf : DotDims.WF S6000x128 S128x128 S6000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S50000x1.size a
  hwx0_0 : ∀ i : grid0.Coords, EltTy.bits .i32 = 32 ∨ (Rect.block (s := S50000x1) S5000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x128.size a ≤ S600000x128.size a
  hwx1_0 : ∀ i : grid1.Coords, EltTy.bits .f32 = 32 ∨ (Rect.block (s := S600000x128) S6000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x1.size a ≤ S600000x1.size a
  hwx1_1 : ∀ i : grid1.Coords, EltTy.bits .i32 = 32 ∨ (Rect.block (s := S600000x1) S6000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x128x128.size a ≤ S4x128x128.size a
  hwx1_2 : ∀ i : grid1.Coords, EltTy.bits .f32 = 32 ∨ (Rect.block (s := S4x128x128) S4x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S6000x128.size a ≤ S600000x128.size a
  hwx1_3 : ∀ i : grid1.Coords, EltTy.bits .f32 = 32 ∨ (Rect.block (s := S600000x128) S6000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S50000x128.size a
  hwx2_4 : ∀ i : grid2.Coords, EltTy.bits .f32 = 32 ∨ (Rect.block (s := S50000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S6000x128.size a ≤ S600000x128.size a
  hwx3_0 : ∀ i : grid3.Coords, EltTy.bits .f32 = 32 ∨ (Rect.block (s := S600000x128) S6000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S6000x1.size a ≤ S600000x1.size a
  hwx3_1 : ∀ i : grid3.Coords, EltTy.bits .i32 = 32 ∨ (Rect.block (s := S600000x1) S6000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4x128x128.size a ≤ S4x128x128.size a
  hwx3_2 : ∀ i : grid3.Coords, EltTy.bits .f32 = 32 ∨ (Rect.block (s := S4x128x128) S4x128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S6000x128.size a ≤ S600000x128.size a
  hwx3_3 : ∀ i : grid3.Coords, EltTy.bits .f32 = 32 ∨ (Rect.block (s := S600000x128) S6000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S6000x128.size a ≤ S600000x128.size a
  hwx5_0 : ∀ i : grid5.Coords, EltTy.bits .f32 = 32 ∨ (Rect.block (s := S600000x128) S6000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S6000x1.size a ≤ S600000x1.size a
  hwx5_1 : ∀ i : grid5.Coords, EltTy.bits .i32 = 32 ∨ (Rect.block (s := S600000x1) S6000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S4x128x128.size a ≤ S4x128x128.size a
  hwx5_2 : ∀ i : grid5.Coords, EltTy.bits .f32 = 32 ∨ (Rect.block (s := S4x128x128) S4x128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S6000x128.size a ≤ S600000x128.size a
  hwx5_3 : ∀ i : grid5.Coords, EltTy.bits .f32 = 32 ∨ (Rect.block (s := S600000x128) S6000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x128.size a ≤ S50000x128.size a
  hwx6_4 : ∀ i : grid6.Coords, EltTy.bits .f32 = 32 ∨ (Rect.block (s := S50000x128) S5000x128.size (cc6_transform_4 i) (hinb6_4 i)).WholeWords (EltTy.packing .f32)

variable [Facts₀]

def dot_S5000x16_S16x128_S5000x128_1_0_0_1_n_n : DotDims S5000x16 S16x128 S5000x128 where
  lhsContracting := [1]
  rhsContracting := [0]
  lhsNonContracting := [0]
  rhsNonContracting := [1]
  lhsBatch := []
  rhsBatch := []
  wf := dot_S5000x16_S16x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S6000x128_S128x128_S6000x128_1_0_0_1_n_n : DotDims S6000x128 S128x128 S6000x128 where
  lhsContracting := [1]
  rhsContracting := [0]
  lhsNonContracting := [0]
  rhsNonContracting := [1]
  lhsBatch := []
  rhsBatch := []
  wf := dot_S6000x128_S128x128_S6000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S6000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S6000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S4x128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S6000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v19) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v20) S6000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S6000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v22) S4x128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v23) S6000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v19) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v31) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v29) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v32) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v33) S6000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v5) S6000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v35) S4x128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v36) S6000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v32) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v39) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v44) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v42) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v45) S5000x128.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S50000 : Shape := ⟨1, ![50000]⟩
abbrev S2x600000 : Shape := ⟨2, ![2, 600000]⟩
abbrev S600000 : Shape := ⟨1, ![600000]⟩
abbrev S16x128 : Shape := ⟨2, ![16, 128]⟩
abbrev S3x4x128x128 : Shape := ⟨4, ![3, 4, 128, 128]⟩
abbrev S3x128x128 : Shape := ⟨3, ![3, 128, 128]⟩
abbrev S3x128 : Shape := ⟨2, ![3, 128]⟩
abbrev S_ : Shape := ⟨0, ![]⟩
abbrev S50000x1 : Shape := ⟨2, ![50000, 1]⟩
abbrev S50000x128 : Shape := ⟨2, ![50000, 128]⟩
abbrev S1x600000 : Shape := ⟨2, ![1, 600000]⟩
abbrev S600000x1 : Shape := ⟨2, ![600000, 1]⟩
abbrev S1x4 : Shape := ⟨2, ![1, 4]⟩
abbrev S600000x4 : Shape := ⟨2, ![600000, 4]⟩
abbrev S600000x128 : Shape := ⟨2, ![600000, 128]⟩
abbrev S1x1x128x128 : Shape := ⟨4, ![1, 1, 128, 128]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩

abbrev nBuf : Space → Nat
  | .hbm => 242
  | .vmem => 0
  | .smem => 0
  | _ => 0

abbrev hbmTy0_0 (i : Nat) : BufTy := match i % 128 with
  | 0 => ⟨S50000, .i32⟩
  | 1 => ⟨S2x600000, .i32⟩
  | 2 => ⟨S600000, .i32⟩
  | 3 => ⟨S16x128, .f32⟩
  | 4 => ⟨S3x4x128x128, .f32⟩
  | 5 => ⟨S3x128x128, .f32⟩
  | 6 => ⟨S3x128, .f32⟩
  | 7 => ⟨S_, .i32⟩
  | 8 => ⟨S50000, .i32⟩
  | 9 => ⟨S50000, .i1⟩
  | 10 => ⟨S_, .i32⟩
  | 11 => ⟨S50000, .i32⟩
  | 12 => ⟨S50000, .i32⟩
  | 13 => ⟨S50000, .i32⟩
  | 14 => ⟨S50000x1, .i32⟩
  | 15 => ⟨S50000x128, .f32⟩
  | 16 => ⟨S1x600000, .i32⟩
  | 17 => ⟨S600000, .i32⟩
  | 18 => ⟨S1x600000, .i32⟩
  | 19 => ⟨S600000, .i32⟩
  | 20 => ⟨S600000x1, .i32⟩
  | 21 => ⟨S1x4, .i32⟩
  | 22 => ⟨S600000x4, .i32⟩
  | 23 => ⟨S600000x4, .i32⟩
  | 24 => ⟨S600000x4, .i1⟩
  | 25 => ⟨S600000x4, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S_, .f32⟩
  | 36 => ⟨S50000x128, .f32⟩
  | 37 => ⟨S600000x1, .f32⟩
  | 38 => ⟨S600000x128, .f32⟩
  | 39 => ⟨S600000x128, .f32⟩
  | 40 => ⟨S1x1x128x128, .f32⟩
  | 41 => ⟨S128x128, .f32⟩
  | 42 => ⟨S600000x128, .f32⟩
  | 43 => ⟨S_, .f32⟩
  | 44 => ⟨S50000x128, .f32⟩
  | 45 => ⟨S600000x1, .i32⟩
  | 46 => ⟨S50000x128, .f32⟩
  | 47 => ⟨S50000x128, .f32⟩
  | 48 => ⟨S600000x1, .f32⟩
  | 49 => ⟨S600000x128, .f32⟩
  | 50 => ⟨S600000x128, .f32⟩
  | 51 => ⟨S1x1x128x128, .f32⟩
  | 52 => ⟨S128x128, .f32⟩
  | 53 => ⟨S600000x128, .f32⟩
  | 54 => ⟨S_, .f32⟩
  | 55 => ⟨S50000x128, .f32⟩
  | 56 => ⟨S600000x1, .i32⟩
  | 57 => ⟨S50000x128, .f32⟩
  | 58 => ⟨S50000x128, .f32⟩
  | 59 => ⟨S600000x1, .f32⟩
  | 60 => ⟨S600000x128, .f32⟩
  | 61 => ⟨S600000x128, .f32⟩
  | 62 => ⟨S1x1x128x128, .f32⟩
  | 63 => ⟨S128x128, .f32⟩
  | 64 => ⟨S600000x128, .f32⟩
  | 65 => ⟨S_, .f32⟩
  | 66 => ⟨S50000x128, .f32⟩
  | 67 => ⟨S600000x1, .i32⟩
  | 68 => ⟨S50000x128, .f32⟩
  | 69 => ⟨S50000x128, .f32⟩
  | 70 => ⟨S600000x1, .f32⟩
  | 71 => ⟨S600000x128, .f32⟩
  | 72 => ⟨S600000x128, .f32⟩
  | 73 => ⟨S1x1x128x128, .f32⟩
  | 74 => ⟨S128x128, .f32⟩
  | 75 => ⟨S600000x128, .f32⟩
  | 76 => ⟨S_, .f32⟩
  | 77 => ⟨S50000x128, .f32⟩
  | 78 => ⟨S600000x1, .i32⟩
  | 79 => ⟨S50000x128, .f32⟩
  | 80 => ⟨S50000x128, .f32⟩
  | 81 => ⟨S1x128x128, .f32⟩
  | 82 => ⟨S128x128, .f32⟩
  | 83 => ⟨S50000x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S_, .f32⟩
  | 92 => ⟨S50000x128, .f32⟩
  | 93 => ⟨S50000x128, .i1⟩
  | 94 => ⟨S_, .f32⟩
  | 95 => ⟨S50000x128, .f32⟩
  | 96 => ⟨S50000x128, .f32⟩
  | 97 => ⟨S50000x128, .f32⟩
  | 98 => ⟨S_, .i32⟩
  | 99 => ⟨S600000, .i32⟩
  | 100 => ⟨S600000, .i1⟩
  | 101 => ⟨S_, .i32⟩
  | 102 => ⟨S600000, .i32⟩
  | 103 => ⟨S600000, .i32⟩
  | 104 => ⟨S600000, .i32⟩
  | 105 => ⟨S600000x1, .i32⟩
  | 106 => ⟨S600000x128, .f32⟩
  | 107 => ⟨S_, .f32⟩
  | 108 => ⟨S50000x128, .f32⟩
  | 109 => ⟨S600000x1, .f32⟩
  | 110 => ⟨S600000x128, .f32⟩
  | 111 => ⟨S600000x128, .f32⟩
  | 112 => ⟨S1x1x128x128, .f32⟩
  | 113 => ⟨S128x128, .f32⟩
  | 114 => ⟨S600000x128, .f32⟩
  | 115 => ⟨S_, .f32⟩
  | 116 => ⟨S50000x128, .f32⟩
  | 117 => ⟨S600000x1, .i32⟩
  | 118 => ⟨S50000x128, .f32⟩
  | 119 => ⟨S50000x128, .f32⟩
  | 120 => ⟨S600000x1, .f32⟩
  | 121 => ⟨S600000x128, .f32⟩
  | 122 => ⟨S600000x128, .f32⟩
  | 123 => ⟨S1x1x128x128, .f32⟩
  | 124 => ⟨S128x128, .f32⟩
  | 125 => ⟨S600000x128, .f32⟩
  | 126 => ⟨S_, .f32⟩
  | 127 => ⟨S50000x128, .f32⟩
  | _ => ⟨S50000, .i32⟩

abbrev hbmTy0_1 (i : Nat) : BufTy := match i % 128 with
  | 0 => ⟨S600000x1, .i32⟩
  | 1 => ⟨S50000x128, .f32⟩
  | 2 => ⟨S50000x128, .f32⟩
  | 3 => ⟨S600000x1, .f32⟩
  | 4 => ⟨S600000x128, .f32⟩
  | 5 => ⟨S600000x128, .f32⟩
  | 6 => ⟨S1x1x128x128, .f32⟩
  | 7 => ⟨S128x128, .f32⟩
  | 8 => ⟨S600000x128, .f32⟩
  | 9 => ⟨S_, .f32⟩
  | 10 => ⟨S50000x128, .f32⟩
  | 11 => ⟨S600000x1, .i32⟩
  | 12 => ⟨S50000x128, .f32⟩
  | 13 => ⟨S50000x128, .f32⟩
  | 14 => ⟨S600000x1, .f32⟩
  | 15 => ⟨S600000x128, .f32⟩
  | 16 => ⟨S600000x128, .f32⟩
  | 17 => ⟨S1x1x128x128, .f32⟩
  | 18 => ⟨S128x128, .f32⟩
  | 19 => ⟨S600000x128, .f32⟩
  | 20 => ⟨S_, .f32⟩
  | 21 => ⟨S50000x128, .f32⟩
  | 22 => ⟨S600000x1, .i32⟩
  | 23 => ⟨S50000x128, .f32⟩
  | 24 => ⟨S50000x128, .f32⟩
  | 25 => ⟨S1x128x128, .f32⟩
  | 26 => ⟨S128x128, .f32⟩
  | 27 => ⟨S50000x128, .f32⟩
  | 28 => ⟨S50000x128, .f32⟩
  | 29 => ⟨S1x128, .f32⟩
  | 30 => ⟨S128, .f32⟩
  | 31 => ⟨S1x128, .f32⟩
  | 32 => ⟨S50000x128, .f32⟩
  | 33 => ⟨S50000x128, .f32⟩
  | 34 => ⟨S_, .f32⟩
  | 35 => ⟨S_, .f32⟩
  | 36 => ⟨S50000x128, .f32⟩
  | 37 => ⟨S50000x128, .i1⟩
  | 38 => ⟨S_, .f32⟩
  | 39 => ⟨S50000x128, .f32⟩
  | 40 => ⟨S50000x128, .f32⟩
  | 41 => ⟨S50000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000x128, .f32⟩
  | 51 => ⟨S_, .f32⟩
  | 52 => ⟨S50000x128, .f32⟩
  | 53 => ⟨S600000x1, .f32⟩
  | 54 => ⟨S600000x128, .f32⟩
  | 55 => ⟨S600000x128, .f32⟩
  | 56 => ⟨S1x1x128x128, .f32⟩
  | 57 => ⟨S128x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S50000x128, .f32⟩
  | 64 => ⟨S600000x1, .f32⟩
  | 65 => ⟨S600000x128, .f32⟩
  | 66 => ⟨S600000x128, .f32⟩
  | 67 => ⟨S1x1x128x128, .f32⟩
  | 68 => ⟨S128x128, .f32⟩
  | 69 => ⟨S600000x128, .f32⟩
  | 70 => ⟨S_, .f32⟩
  | 71 => ⟨S50000x128, .f32⟩
  | 72 => ⟨S600000x1, .i32⟩
  | 73 => ⟨S50000x128, .f32⟩
  | 74 => ⟨S50000x128, .f32⟩
  | 75 => ⟨S600000x1, .f32⟩
  | 76 => ⟨S600000x128, .f32⟩
  | 77 => ⟨S600000x128, .f32⟩
  | 78 => ⟨S1x1x128x128, .f32⟩
  | 79 => ⟨S128x128, .f32⟩
  | 80 => ⟨S600000x128, .f32⟩
  | 81 => ⟨S_, .f32⟩
  | 82 => ⟨S50000x128, .f32⟩
  | 83 => ⟨S600000x1, .i32⟩
  | 84 => ⟨S50000x128, .f32⟩
  | 85 => ⟨S50000x128, .f32⟩
  | 86 => ⟨S600000x1, .f32⟩
  | 87 => ⟨S600000x128, .f32⟩
  | 88 => ⟨S600000x128, .f32⟩
  | 89 => ⟨S1x1x128x128, .f32⟩
  | 90 => ⟨S128x128, .f32⟩
  | 91 => ⟨S600000x128, .f32⟩
  | 92 => ⟨S_, .f32⟩
  | 93 => ⟨S50000x128, .f32⟩
  | 94 => ⟨S600000x1, .i32⟩
  | 95 => ⟨S50000x128, .f32⟩
  | 96 => ⟨S50000x128, .f32⟩
  | 97 => ⟨S1x128x128, .f32⟩
  | 98 => ⟨S128x128, .f32⟩
  | 99 => ⟨S50000x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S_, .f32⟩
  | 107 => ⟨S_, .f32⟩
  | 108 => ⟨S50000x128, .f32⟩
  | 109 => ⟨S50000x128, .i1⟩
  | 110 => ⟨S_, .f32⟩
  | 111 => ⟨S50000x128, .f32⟩
  | 112 => ⟨S50000x128, .f32⟩
  | 113 => ⟨S50000x128, .f32⟩
  | _ => ⟨S50000, .i32⟩

abbrev hbmTy (i : Nat) : BufTy := match i / 128 with
  | 0 => hbmTy0_0 i
  | 1 => hbmTy0_1 i
  | _ => ⟨S50000, .i32⟩

abbrev bufTy : (tb : Table) → Fin (tcTables nBuf tb) → BufTy
  | .hbm, ⟨i, _⟩ => hbmTy i
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v11 : Ref sig .tc := ⟨.hbm, 25, rfl⟩
abbrev main_c_1 : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_7 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_call1_v3 : Ref sig .tc := ⟨.hbm, 95, rfl⟩
abbrev main_call1_v4 : Ref sig .tc := ⟨.hbm, 96, rfl⟩
abbrev main_v69 : Ref sig .tc := ⟨.hbm, 97, rfl⟩
abbrev main_c_8 : Ref sig .tc := ⟨.hbm, 98, rfl⟩
abbrev main_v70 : Ref sig .tc := ⟨.hbm, 99, rfl⟩
abbrev main_v71 : Ref sig .tc := ⟨.hbm, 100, rfl⟩
abbrev main_c_9 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_10 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_11 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_12 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_13 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_14 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_15 : Ref sig .tc := ⟨.hbm, 162, rfl⟩
abbrev main_call2_cst : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_call2_v3 : Ref sig .tc := ⟨.hbm, 167, rfl⟩
abbrev main_call2_v4 : Ref sig .tc := ⟨.hbm, 168, rfl⟩
abbrev main_v127 : Ref sig .tc := ⟨.hbm, 169, rfl⟩
abbrev main_c_16 : Ref sig .tc := ⟨.hbm, 170, rfl⟩
abbrev main_v128 : Ref sig .tc := ⟨.hbm, 171, rfl⟩
abbrev main_v129 : Ref sig .tc := ⟨.hbm, 172, rfl⟩
abbrev main_c_17 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_18 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_cst_19 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_cst_20 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_cst_21 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_cst_22 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_cst_23 : Ref sig .tc := ⟨.hbm, 234, rfl⟩
abbrev main_call3_cst : Ref sig .tc := ⟨.hbm, 235, rfl⟩
abbrev main_call3_v0 : Ref sig .tc := ⟨.hbm, 236, rfl⟩
abbrev main_call3_v1 : Ref sig .tc := ⟨.hbm, 237, rfl⟩
abbrev main_call3_v2 : Ref sig .tc := ⟨.hbm, 238, rfl⟩
abbrev main_call3_v3 : Ref sig .tc := ⟨.hbm, 239, rfl⟩
abbrev main_call3_v4 : Ref sig .tc := ⟨.hbm, 240, rfl⟩
abbrev main_v185 : Ref sig .tc := ⟨.hbm, 241, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S600000_S600000x1_0 : S600000.BroadcastsInDim S600000x1 (![0] : Fin 1 → Fin S600000x1.rank)
  bcast_S600000x1_S600000x4_0_1 : S600000x1.BroadcastsInDim S600000x4 (![0, 1] : Fin 2 → Fin S600000x4.rank)
  bcast_S1x4_S600000x4_0_1 : S1x4.BroadcastsInDim S600000x4 (![0, 1] : Fin 2 → Fin S600000x4.rank)
  bcast_S_S600000 : S_.BroadcastsInDim S600000 (![] : Fin 0 → Fin S600000.rank)
  bcast_S_S50000x128 : S_.BroadcastsInDim S50000x128 (![] : Fin 0 → Fin S50000x128.rank)
  slices_S600000x4_S600000x1_0_0 : S600000x4.Slices ![0, 0] S600000x1
  bcast_S600000x1_S600000x128_0_1 : S600000x1.BroadcastsInDim S600000x128 (![0, 1] : Fin 2 → Fin S600000x128.rank)
  slices_S3x4x128x128_S1x1x128x128_0_0_0_0 : S3x4x128x128.Slices ![0, 0, 0, 0] S1x1x128x128
  shapeCasts_S1x1x128x128_S128x128 : S1x1x128x128.ShapeCasts S128x128
  slices_S600000x4_S600000x1_0_1 : S600000x4.Slices ![0, 1] S600000x1
  slices_S3x4x128x128_S1x1x128x128_0_1_0_0 : S3x4x128x128.Slices ![0, 1, 0, 0] S1x1x128x128
  slices_S600000x4_S600000x1_0_2 : S600000x4.Slices ![0, 2] S600000x1
  slices_S3x4x128x128_S1x1x128x128_0_2_0_0 : S3x4x128x128.Slices ![0, 2, 0, 0] S1x1x128x128
  slices_S600000x4_S600000x1_0_3 : S600000x4.Slices ![0, 3] S600000x1
  slices_S3x4x128x128_S1x1x128x128_0_3_0_0 : S3x4x128x128.Slices ![0, 3, 0, 0] S1x1x128x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x4x128x128_S1x1x128x128_1_0_0_0 : S3x4x128x128.Slices ![1, 0, 0, 0] S1x1x128x128
  slices_S3x4x128x128_S1x1x128x128_1_1_0_0 : S3x4x128x128.Slices ![1, 1, 0, 0] S1x1x128x128
  slices_S3x4x128x128_S1x1x128x128_1_2_0_0 : S3x4x128x128.Slices ![1, 2, 0, 0] S1x1x128x128
  slices_S3x4x128x128_S1x1x128x128_1_3_0_0 : S3x4x128x128.Slices ![1, 3, 0, 0] S1x1x128x128
  slices_S3x128x128_S1x128x128_1_0_0 : S3x128x128.Slices ![1, 0, 0] S1x128x128
  slices_S3x128_S1x128_1_0 : S3x128.Slices ![1, 0] S1x128
  slices_S3x4x128x128_S1x1x128x128_2_0_0_0 : S3x4x128x128.Slices ![2, 0, 0, 0] S1x1x128x128
  slices_S3x4x128x128_S1x1x128x128_2_1_0_0 : S3x4x128x128.Slices ![2, 1, 0, 0] S1x1x128x128
  slices_S3x4x128x128_S1x1x128x128_2_2_0_0 : S3x4x128x128.Slices ![2, 2, 0, 0] S1x1x128x128
  slices_S3x4x128x128_S1x1x128x128_2_3_0_0 : S3x4x128x128.Slices ![2, 3, 0, 0] S1x1x128x128
  slices_S3x128x128_S1x128x128_2_0_0 : S3x128x128.Slices ![2, 0, 0] S1x128x128
  slices_S3x128_S1x128_2_0 : S3x128.Slices ![2, 0] S1x128
  gather_S16x128_S50000x1_S50000x128_1_0_n_n_0_1_1128_wf : GatherDims.WF S16x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def gather_S16x128_S50000x1_S50000x128_1_0_n_n_0_1_1128 : GatherDims S16x128 S50000x1 S50000x128 where
  offsetDims := [1]
  collapsedSliceDims := [0]
  operandBatchingDims := []
  startIndicesBatchingDims := []
  startIndexMap := [0]
  indexVectorDim := 1
  sliceSizes := ![1, 128]
  wf := gather_S16x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  What the program computes, index by index, over the extended reals.

  A graph network of three layers over 50000 nodes (rows of 128 features) and 600000 edges. Words are 32-bit integers.

  • hot a b is 1 when the two words agree and 0 otherwise (a one-hot coefficient).
  • embRow: row of the node features at the start — the sum over the 16 table rows k of hot k w times the table's
    row k, where w is the node's type word (for w in [0, 16) this is the table's row w).
  • msgRow: an edge's message — the sum over the 4 relations r and the 128 features k of (x k · hot t r) · W r k q,
    where x is the source node's row and t the edge's type word.
  • leaky y is y for y > 0 and c · y otherwise, c the binary32 value nearest 0.01.
  • updRow: a node's next row — leaky ((agg q + Σ k, x k · root k q) + bias q).
  • rowOf w: the row a source word names, the word read signed and clamped into [0, 49999].
  • gath: the rows of x at the edges' source words; seg: for node n the sum over the edges e whose destination word,
    read signed, is n, of the edge's message (an out-of-range destination lands nowhere).
  • layer composes them; result is three layers over the embedded node types.
-/
import Idealize.ShloMosaic.PureOps.Ideal
import Idealize.ShloMosaic.Lib.ValueIdx

noncomputable section

open scoped BigOperators

namespace Cert.Spec

open Idealize.ShloMosaic Idealize.ShloMosaic.ValueIdx

/-- Node rows, edge rows, and the small parameter arrays, as index sets. -/
abbrev NIdx := (⟨2, ![50000, 128]⟩ : Shape).Idx
abbrev EIdx := (⟨2, ![600000, 128]⟩ : Shape).Idx
abbrev NArr := NIdx → EReal
abbrev EArr := EIdx → EReal

/-- 1 when the two words agree, 0 otherwise. -/
def hot (a b : BitVec 32) : EReal := if a = b then 1 else 0

/-- The binary32 value nearest 0.01, the slope on the negative side. -/
def slope : EReal := Ideal.ofBits .f32 0x3C23D70A#32

/-- y for y > 0, slope · y otherwise. -/
def leaky (y : EReal) : EReal := if 0 < y then y else slope * y

/-- A node's starting row: Σ k, hot k w · emb k q. -/
def embRow (w : BitVec 32) (emb : (⟨2, ![16, 128]⟩ : Shape).Idx → EReal) (q : Fin 128) : EReal :=
  ∑ k : Fin 16, hot (BitVec.ofNat 32 k.val) w * emb (ix2 k q)

/-- An edge's message: Σ r, Σ k, (x k · hot t r) · W r k q. -/
def msgRow (x : Fin 128 → EReal) (t : BitVec 32) (W : (⟨3, ![4, 128, 128]⟩ : Shape).Idx → EReal) (q : Fin 128) : EReal :=
  ∑ r : Fin 4, ∑ k : Fin 128, (x k * hot t (BitVec.ofNat 32 r.val)) * W (ix3 r k q)

/-- A node's next row: leaky ((agg q + Σ k, x k · root k q) + b). -/
def updRow (x agg : Fin 128 → EReal) (root : (⟨2, ![128, 128]⟩ : Shape).Idx → EReal) (b : EReal) (q : Fin 128) : EReal :=
  leaky ((agg q + ∑ k : Fin 128, x k * root (ix2 k q)) + b)

/-- The embedded node types as an array: node n's row is embRow of its type word. -/
def embArr (nt : (⟨2, ![50000, 1]⟩ : Shape).Idx → BitVec 32) (emb : (⟨2, ![16, 128]⟩ : Shape).Idx → EReal) : NArr :=
  fun i => embRow (nt (ix2 (i 0) (0 : Fin 1))) emb (i 1)

/-- The messages as an array: edge e's row is msgRow of its source row and its type word. -/
def msgArr (xs : EArr) (et : (⟨2, ![600000, 1]⟩ : Shape).Idx → BitVec 32)
    (W : (⟨3, ![4, 128, 128]⟩ : Shape).Idx → EReal) : EArr :=
  fun i => msgRow (fun k => xs (ix2 (i 0) k)) (et (ix2 (i 0) (0 : Fin 1))) W (i 1)

/-- The node update as an array. -/
def updArr (x agg : NArr) (root : (⟨2, ![128, 128]⟩ : Shape).Idx → EReal)
    (bias : (⟨2, ![1, 128]⟩ : Shape).Idx → EReal) : NArr :=
  fun i => updRow (fun k => x (ix2 (i 0) k)) (fun k => agg (ix2 (i 0) k)) root (bias (ix2 (0 : Fin 1) (i 1))) (i 1)

/-- The row a source word names: read signed, clamped into [0, 49999]. -/
def rowOf (w : BitVec 32) : Fin 50000 := ⟨min w.toInt.toNat 49999, by omega⟩

/-- The rows of x at the edges' source words. -/
def gath (x : NArr) (src : (⟨1, ![600000]⟩ : Shape).Idx → BitVec 32) : EArr :=
  fun i => x (ix2 (rowOf (src (ix1 (i 0)))) (i 1))

/-- For node n, the sum over the edges whose destination word, read signed, is n, of the edge's row. -/
def seg (dst : (⟨1, ![600000]⟩ : Shape).Idx → BitVec 32) (u : EArr) : NArr :=
  fun i => ∑ e : Fin 600000, if (dst (ix1 e)).toInt = ((i 0).val : Int) then u (ix2 e (i 1)) else 0

/-- One layer: gather the source rows, form the messages, sum them at the destinations, update every node. -/
def layer (x : NArr) (src dst et : (⟨1, ![600000]⟩ : Shape).Idx → BitVec 32)
    (Wl : (⟨3, ![4, 128, 128]⟩ : Shape).Idx → EReal) (rootl : (⟨2, ![128, 128]⟩ : Shape).Idx → EReal)
    (biasl : Fin 128 → EReal) : NArr :=
  updArr x (seg dst (msgArr (gath x src) (fun j => et (ix1 (j 0))) Wl)) rootl (fun j => biasl (j 1))

/-- Layer l's slices of the parameter arrays. -/
def Wat (W : (⟨4, ![3, 4, 128, 128]⟩ : Shape).Idx → EReal) (l : Fin 3) : (⟨3, ![4, 128, 128]⟩ : Shape).Idx → EReal :=
  fun j => W (ix4 l (j 0) (j 1) (j 2))
def rootAt (root : (⟨3, ![3, 128, 128]⟩ : Shape).Idx → EReal) (l : Fin 3) : (⟨2, ![128, 128]⟩ : Shape).Idx → EReal :=
  fun j => root (ix3 l (j 0) (j 1))
def biasAt (bias : (⟨2, ![3, 128]⟩ : Shape).Idx → EReal) (l : Fin 3) : Fin 128 → EReal :=
  fun q => bias (ix2 l q)

/-- The source and destination words: rows 0 and 1 of the edge index. -/
def srcOf (ei : (⟨2, ![2, 600000]⟩ : Shape).Idx → BitVec 32) : (⟨1, ![600000]⟩ : Shape).Idx → BitVec 32 :=
  fun j => ei (ix2 (0 : Fin 2) (j 0))
def dstOf (ei : (⟨2, ![2, 600000]⟩ : Shape).Idx → BitVec 32) : (⟨1, ![600000]⟩ : Shape).Idx → BitVec 32 :=
  fun j => ei (ix2 (1 : Fin 2) (j 0))

/-- The whole computation: three layers over the embedded node types. -/
def result (nt : (⟨1, ![50000]⟩ : Shape).Idx → BitVec 32) (ei : (⟨2, ![2, 600000]⟩ : Shape).Idx → BitVec 32)
    (et : (⟨1, ![600000]⟩ : Shape).Idx → BitVec 32) (emb : (⟨2, ![16, 128]⟩ : Shape).Idx → EReal)
    (W : (⟨4, ![3, 4, 128, 128]⟩ : Shape).Idx → EReal) (root : (⟨3, ![3, 128, 128]⟩ : Shape).Idx → EReal)
    (bias : (⟨2, ![3, 128]⟩ : Shape).Idx → EReal) : NArr :=
  let x0 : NArr := embArr (fun j => nt (ix1 (j 0))) emb
  let x1 := layer x0 (srcOf ei) (dstOf ei) et (Wat W 0) (rootAt root 0) (biasAt bias 0)
  let x2 := layer x1 (srcOf ei) (dstOf ei) et (Wat W 1) (rootAt root 1) (biasAt bias 1)
  layer x2 (srcOf ei) (dstOf ei) et (Wat W 2) (rootAt root 2) (biasAt bias 2)

/-- The domain the claim is stated on: node types name a table row, source words name a node. -/
def InRange (nt : (⟨1, ![50000]⟩ : Shape).Idx → BitVec 32) (ei : (⟨2, ![2, 600000]⟩ : Shape).Idx → BitVec 32) : Prop :=
  (∀ n : Fin 50000, 0 ≤ (nt (ix1 n)).toInt ∧ (nt (ix1 n)).toInt < 16)
  ∧ (∀ e : Fin 600000, 0 ≤ (ei (ix2 (0 : Fin 2) e)).toInt ∧ (ei (ix2 (0 : Fin 2) e)).toInt < 50000)

end Cert.Spec

end
-- ==== Proof.PreDecode.lean ====
/-
  The two integer ranges the precondition states, read out of it.

  The precondition is a conjunction (a chain of `and` over one-bit words) of "for all" statements, each the `and` over
  every index of an array of one-bit comparison words. It equals 1 exactly when every conjunct does, and a conjunct
  equals 1 exactly when its comparison holds at every index. The last four conjuncts compare, signed,
    • every node-type word w with 0 (w ≥ 0) and with 16 (w < 16);
    • every word of row 0 of the edge index, taken as a flat array of 600000 words, with 0 and with 50000.
  Word e of that flat array is the word at position (0, e) of the edge index: the row is a block of one row starting at
  (0, 0), and flattening one row keeps the row-major position. The conjuncts before these four are passed over.
-/
import proofs.«411858_j26792005992743_1_alg».proof.Pre_finite_inputs
import proofs.«411858_j26792005992743_1_alg».proof.Proof.Spec
import Idealize.ShloMosaic.Lib.ReduceAll
import Idealize.ShloMosaic.Lib.StableHlo.Predicate
import Idealize.ShloMosaic.Lib.Pipeline.Value

noncomputable section

namespace Cert.PreDecode

open Cert.Pre_finite_inputs Idealize.ShloMosaic Idealize.ShloMosaic.ValueIdx

/-- The scalar shape has one index. -/
instance : Subsingleton S_.Idx := ⟨fun a b => funext fun d => d.elim0⟩

/-- Row 0 of the edge index as a flat array of 600000 words. -/
def row0 [Facts] (a1 : IVec S2x600000 32) : IVec S600000 32 :=
  shapeCast S600000 (extractStridedSlice S1x600000 ![0, 0] a1 Facts.slices_S2x600000_S1x600000_0_0)
    Facts.shapeCasts_S1x600000_S600000

/-- Word e of the flattened row 0 is the word at (0, e). -/
theorem row0_apply [Facts] (a1 : IVec S2x600000 32) (e : Fin 600000) : row0 a1 (ix1 e) = a1 (ix2 (0 : Fin 2) e) := by
  unfold row0
  refine (shapeCast_apply _ _ (ix1 e) (ix2 (0 : Fin 1) e) (by
    rw [Shape.rowMajor_val_two, Shape.rowMajor_val_one]; show 0 * 600000 + e.val = e.val; omega)).trans ?_
  exact extractStridedSlice_apply _ _ _ (ix2 (0 : Fin 1) e) (ix2 (0 : Fin 2) e) (by
    intro a
    match a with
    | ⟨0, _⟩ => rfl
    | ⟨1, _⟩ => show e.val = 0 + e.val; omega)

/-- The literals 16, 50000 and 0 read as signed integers. -/
theorem toInt_16 : (16#32 : BitVec 32).toInt = 16 := by decide
theorem toInt_50000 : (50000#32 : BitVec 32).toInt = 50000 := by decide
theorem toInt_0 : (0#32 : BitVec 32).toInt = 0 := by decide

/-- The last conjunct: every word of the flattened row is below 50000. -/
theorem part2 {F : FTy → Type} [FloatOps F] [Facts] (v32 : IVec S_ 1) (v33 : IVec S1x600000 32)
    (h : fn_part2 (F := F) v32 v33 ix0 = 1#1) :
    v32 ix0 = 1#1 ∧
      ∀ i : S600000.Idx, (shapeCast S600000 v33 Facts.shapeCasts_S1x600000_S600000 i).toInt < 50000 := by
  unfold fn_part2 at h
  obtain ⟨h1, h2⟩ := IntOp.andi_eq_one.1 h
  refine ⟨h1, fun i => ?_⟩
  have e := IntOp.cmpi_slt.1 (Host.reduce_andi_all _ _ _ _ _ h2 i)
  rw [← toInt_50000]
  exact e

/-- The four integer conjuncts: the node-type words lie in [0, 16) and the flattened row's words in [0, 50000). -/
theorem part1 {F : FTy → Type} [FloatOps F] [Facts] (a0 : IVec S50000 32) (a1 : IVec S2x600000 32)
    (v13 : IVec S_ 1) (v16 : IVec S3x128 1) (h : fn_part1 (F := F) a0 a1 v13 v16 ix0 = 1#1) :
    (∀ i : S50000.Idx, 0 ≤ (a0 i).toInt ∧ (a0 i).toInt < 16) ∧
      (∀ i : S600000.Idx, 0 ≤ (row0 a1 i).toInt ∧ (row0 a1 i).toInt < 50000) := by
  unfold fn_part1 at h
  obtain ⟨h32, hlt⟩ := part2 _ _ h
  obtain ⟨h26, h31⟩ := IntOp.andi_eq_one.1 h32
  obtain ⟨h22, h25⟩ := IntOp.andi_eq_one.1 h26
  obtain ⟨h18, h21⟩ := IntOp.andi_eq_one.1 h22
  refine ⟨fun i => ⟨?_, ?_⟩, fun i => ⟨?_, hlt i⟩⟩
  · have e := IntOp.cmpi_sge.1 (Host.reduce_andi_all _ _ _ _ _ h21 i)
    rw [← toInt_0]
    exact e
  · have e := IntOp.cmpi_slt.1 (Host.reduce_andi_all _ _ _ _ _ h25 i)
    rw [← toInt_16]
    exact e
  · have e := IntOp.cmpi_sge.1 (Host.reduce_andi_all _ _ _ _ _ h31 i)
    rw [← toInt_0]
    exact e

/-- Under the precondition, node types name a table row and source words name a node. -/
theorem inRange {F : FTy → Type} [FloatOps F] [Cert.Pre_finite_inputs.Facts]
    (a0 : IVec S50000 32) (a1 : IVec S2x600000 32) (a2 : IVec S600000 32) (a3 : FVec F S16x128 .f32)
    (a4 : FVec F S3x4x128x128 .f32) (a5 : FVec F S3x128x128 .f32) (a6 : FVec F S3x128 .f32)
    (h : Cert.Pre_finite_inputs.fn (F := F) a0 a1 a2 a3 a4 a5 a6 = fun _ => 1#1) :
    Cert.Spec.InRange a0 a1 := by
  have h0 := congrFun h ix0
  unfold Cert.Pre_finite_inputs.fn at h0
  obtain ⟨hn, he⟩ := part1 a0 a1 _ _ h0
  refine ⟨fun n => hn (ix1 n), fun e => ?_⟩
  rw [← row0_apply a1 e]
  exact he (ix1 e)

end Cert.PreDecode

end
-- ==== Proof.KDefs.lean ====
/-
  The host side of the idealized kernel program, as pure functions of arrays: each is the composition of the
  operations one stretch of the program applies between two of its regions, in the program's own order.

  • ntCol, srcOf, dstOf, etCol: the node types as a column, rows 0 and 1 of the edge index, the edge types as a column.
  • take x src: the rows of x at the source words — a negative word is first moved up by 50000; a word then outside
    [0, 49999] yields the quiet-NaN pattern in every column, any other the gathered row.
  • Wl W l, rootl root l, biasl bias l: layer l's slices of the parameter arrays, the bias as one row.
  • segsum dst u: the rows of u added into a zero array at the destination words.
  • layer: take, the message region's function, segsum, the update region's function.
  • value: the three layers over the embedding region's function.
-/
import proofs.«411858_j26792005992743_1_alg».proof.Proof.Gen.KernelIdeal
import proofs.«411858_j26792005992743_1_alg».proof.Proof.Spec

noncomputable section

namespace Cert.KernelIdeal.KDefs

open Cert.KernelIdeal Cert.KernelIdeal.Gen Idealize.ShloMosaic

variable {F : FTy → Type} [FloatOps F]

def ntCol (a0 : IVec S50000 32) : IVec S50000x1 32 := shapeCast S50000x1 a0 shapeCasts_S50000_S50000x1
def srcOf (a1 : IVec S2x600000 32) : IVec S600000 32 :=
  shapeCast S600000 (extractStridedSlice S1x600000 ![0, 0] a1 slices_S2x600000_S1x600000_0_0) shapeCasts_S1x600000_S600000
def dstOf (a1 : IVec S2x600000 32) : IVec S600000 32 :=
  shapeCast S600000 (extractStridedSlice S1x600000 ![1, 0] a1 slices_S2x600000_S1x600000_1_0) shapeCasts_S1x600000_S600000
def etCol (a2 : IVec S600000 32) : IVec S600000x1 32 := shapeCast S600000x1 a2 shapeCasts_S600000_S600000x1

/-- The source words with the negative ones moved up by the number of nodes, as a column. -/
def wrapCol (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 50000#32))) src)

/-- Which edges' moved-up source word lies in [0, 49999]. -/
def inb (src : IVec S600000 32) : IVec S600000 1 :=
  (fun x v => Host.reduce IntOp.andi x v reducesTo_S600000x1_S600000_d1 h_S_)
    (andi (cmpi .sge (wrapCol src) (broadcastInDim S600000x1 ![] bcast_S_S600000x1 (constantI S_ 32 0#32)))
      (cmpi .sle (wrapCol src) (broadcastInDim S600000x1 ![0, 1] bcast_S1x1_S600000x1_0_1
        (broadcastInDim S1x1 ![1] bcast_S1_S1x1_1 (constantI S1 32 49999#32)))))
    (constantI S_ 1 1#1)

def take (x : FVec F S50000x128 .f32) (src : IVec S600000 32) : FVec F S600000x128 .f32 :=
  select (broadcastInDim S600000x128 ![0] bcast_S600000_S600000x128_0 (inb src))
    ((fun x i => Host.gather gather_S50000x128_S600000x1_S600000x128_1_0_n_n_0_1_1128 x i) x (wrapCol src))
    (broadcastInDim S600000x128 ![] bcast_S_S600000x128 (constant S_ .f32 0x7FC00000#32))

def Wl0 (a4 : FVec F S3x4x128x128 .f32) : FVec F S4x128x128 .f32 :=
  shapeCast S4x128x128 (extractStridedSlice S1x4x128x128 ![0, 0, 0, 0] a4 slices_S3x4x128x128_S1x4x128x128_0_0_0_0) shapeCasts_S1x4x128x128_S4x128x128
def Wl1 (a4 : FVec F S3x4x128x128 .f32) : FVec F S4x128x128 .f32 :=
  shapeCast S4x128x128 (extractStridedSlice S1x4x128x128 ![1, 0, 0, 0] a4 slices_S3x4x128x128_S1x4x128x128_1_0_0_0) shapeCasts_S1x4x128x128_S4x128x128
def Wl2 (a4 : FVec F S3x4x128x128 .f32) : FVec F S4x128x128 .f32 :=
  shapeCast S4x128x128 (extractStridedSlice S1x4x128x128 ![2, 0, 0, 0] a4 slices_S3x4x128x128_S1x4x128x128_2_0_0_0) shapeCasts_S1x4x128x128_S4x128x128

def rootl0 (a5 : FVec F S3x128x128 .f32) : FVec F S128x128 .f32 :=
  shapeCast S128x128 (extractStridedSlice S1x128x128 ![0, 0, 0] a5 slices_S3x128x128_S1x128x128_0_0_0) shapeCasts_S1x128x128_S128x128
def rootl1 (a5 : FVec F S3x128x128 .f32) : FVec F S128x128 .f32 :=
  shapeCast S128x128 (extractStridedSlice S1x128x128 ![1, 0, 0] a5 slices_S3x128x128_S1x128x128_1_0_0) shapeCasts_S1x128x128_S128x128
def rootl2 (a5 : FVec F S3x128x128 .f32) : FVec F S128x128 .f32 :=
  shapeCast S128x128 (extractStridedSlice S1x128x128 ![2, 0, 0] a5 slices_S3x128x128_S1x128x128_2_0_0) shapeCasts_S1x128x128_S128x128

def biasl0 (a6 : FVec F S3x128 .f32) : FVec F S1x128 .f32 :=
  shapeCast S1x128 (shapeCast S128 (extractStridedSlice S1x128 ![0, 0] a6 slices_S3x128_S1x128_0_0) shapeCasts_S1x128_S128) shapeCasts_S128_S1x128
def biasl1 (a6 : FVec F S3x128 .f32) : FVec F S1x128 .f32 :=
  shapeCast S1x128 (shapeCast S128 (extractStridedSlice S1x128 ![1, 0] a6 slices_S3x128_S1x128_1_0) shapeCasts_S1x128_S128) shapeCasts_S128_S1x128
def biasl2 (a6 : FVec F S3x128 .f32) : FVec F S1x128 .f32 :=
  shapeCast S1x128 (shapeCast S128 (extractStridedSlice S1x128 ![2, 0] a6 slices_S3x128_S1x128_2_0) shapeCasts_S1x128_S128) shapeCasts_S128_S1x128

def segsum (dst : IVec S600000 32) (u : FVec F S600000x128 .f32) : FVec F S50000x128 .f32 :=
  (fun x i u => Host.scatterAdd scatter_S50000x128_S600000x1_S600000x128_1_0_0_1 x i u)
    (broadcastInDim S50000x128 ![] bcast_S_S50000x128 (constant S_ .f32 0x00000000#32))
    (broadcastInDim S600000x1 ![0] bcast_S600000_S600000x1_0 dst) u

/-- One layer of the kernel program over the extended reals: the rows taken, the message region's function, the
    sum at the destinations, the update region's function. -/
def layer (x : FVec Ideal S50000x128 .f32) (a1 : IVec S2x600000 32) (a2 : IVec S600000 32)
    (Wl : FVec Ideal S4x128x128 .f32) (rootl : FVec Ideal S128x128 .f32) (biasl : FVec Ideal S1x128 .f32) :
    FVec Ideal S50000x128 .f32 :=
  Cert.Spec.updArr x (segsum (F := Ideal) (dstOf a1) (Cert.Spec.msgArr (take (F := Ideal) x (srcOf a1)) (etCol a2) Wl)) rootl biasl

/-- The kernel program's result over the extended reals: three layers over the embedding region's function. -/
def value (a0 : IVec S50000 32) (a1 : IVec S2x600000 32) (a2 : IVec S600000 32) (a3 : FVec Ideal S16x128 .f32)
    (a4 : FVec Ideal S3x4x128x128 .f32) (a5 : FVec Ideal S3x128x128 .f32) (a6 : FVec Ideal S3x128 .f32) :
    FVec Ideal S50000x128 .f32 :=
  layer (layer (layer (Cert.Spec.embArr (ntCol a0) a3) a1 a2 (Wl0 a4) (rootl0 a5) (biasl0 a6))
    a1 a2 (Wl1 a4) (rootl1 a5) (biasl1 a6)) a1 a2 (Wl2 a4) (rootl2 a5) (biasl2 a6)

end Cert.KernelIdeal.KDefs

end
-- ==== Proof.KReg0.lean ====
import proofs.«411858_j26792005992743_1_alg».proof.Proof.Gen.KernelIdeal.Frame
import proofs.«411858_j26792005992743_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
variable (V : (c : Dev nD) → (b : Ref sig .tc) → Buf (Elt Ideal) ((c : Thread nD τ).loc b))

/-! ## The one-hot coefficient -/

/-- The comparison bit of two words, widened and read as a signed integer, is 1 when the words agree and 0 otherwise. -/
theorem hot_word (a b : BitVec 32) :
    FloatOps.sitofp (F := Ideal) FTy.f32 ((IntOp.cmpi CmpIPredicate.eq a b).setWidth 32) = Cert.Spec.hot a b := by
  unfold Cert.Spec.hot
  by_cases h : a = b
  · rw [if_pos h]
    have e : IntOp.cmpi CmpIPredicate.eq a b = 1#1 := by simp [IntOp.cmpi, h]
    rw [e]
    show ((((1#1 : BitVec 1).setWidth 32).toInt : ℝ) : EReal) = 1
    have e1 : ((1#1 : BitVec 1).setWidth 32).toInt = 1 := by decide
    rw [e1]
    simp
  · rw [if_neg h]
    have e : IntOp.cmpi CmpIPredicate.eq a b = 0#1 := by
      show BitVec.ofBool (a == b) = 0#1
      rw [beq_eq_false_iff_ne.mpr h]
      rfl
    rw [e]
    show ((((0#1 : BitVec 1).setWidth 32).toInt : ℝ) : EReal) = 0
    have e0 : ((0#1 : BitVec 1).setWidth 32).toInt = 0 := by decide
    rw [e0]
    simp

/-! ## The product's operand indices, axis by axis -/

theorem lhs_row (i : S5000x128.Idx) (q : dot_S5000x16_S16x128_S5000x128_1_0_0_1_n_n.contr.Idx) :
    (dot_S5000x16_S16x128_S5000x128_1_0_0_1_n_n.lhsIdx i q 0).val = (i 0).val := by
  unfold DotDims.lhsIdx
  rw [dif_neg (show ¬(0 : Fin S5000x16.rank) ∈ dot_S5000x16_S16x128_S5000x128_1_0_0_1_n_n.lhsBatch by decide),
    dif_pos (show (0 : Fin S5000x16.rank) ∈ dot_S5000x16_S16x128_S5000x128_1_0_0_1_n_n.lhsNonContracting by decide)]
  rfl

theorem lhs_col (i : S5000x128.Idx) (q : dot_S5000x16_S16x128_S5000x128_1_0_0_1_n_n.contr.Idx) :
    (dot_S5000x16_S16x128_S5000x128_1_0_0_1_n_n.lhsIdx i q 1).val = (q ⟨0, by decide⟩).val :=
  dot_S5000x16_S16x128_S5000x128_1_0_0_1_n_n.lhsIdx_val_of_single rfl i q

theorem rhs_row (i : S5000x128.Idx) (q : dot_S5000x16_S16x128_S5000x128_1_0_0_1_n_n.contr.Idx) :
    (dot_S5000x16_S16x128_S5000x128_1_0_0_1_n_n.rhsIdx i q 0).val = (q ⟨0, by decide⟩).val :=
  dot_S5000x16_S16x128_S5000x128_1_0_0_1_n_n.rhsIdx_val_of_single rfl i q

theorem rhs_col (i : S5000x128.Idx) (q : dot_S5000x16_S16x128_S5000x128_1_0_0_1_n_n.contr.Idx) :
    (dot_S5000x16_S16x128_S5000x128_1_0_0_1_n_n.rhsIdx i q 1).val = (i 1).val := by
  unfold DotDims.rhsIdx
  rw [dif_neg (show ¬(1 : Fin S16x128.rank) ∈ dot_S5000x16_S16x128_S5000x128_1_0_0_1_n_n.rhsBatch by decide),
    dif_pos (show (1 : Fin S16x128.rank) ∈ dot_S5000x16_S16x128_S5000x128_1_0_0_1_n_n.rhsNonContracting by decide)]
  rfl

/-! ## The block's payload at an index -/

/-- The one-hot operand of the product at (p, k): the coefficient of table row k for the word of row p. -/
theorem onehot_apply (x0 : Vec Ideal S5000x1 .i32) (p : Fin 5000) (k : Fin 16) :
    (sitofp (F := Ideal) .f32 (extui 32 (cmpi .eq (iota .tc S5000x16 32 [1] iota_S5000x16_d1_w32)
        (broadcastTo S5000x16 (shapeCast S5000x1 x0 shapeCasts_S5000x1_S5000x1) broadcasts_S5000x1_S5000x16)) natLt_1_32)
      : FVec Ideal S5000x16 .f32) (ix2 p k)
      = Cert.Spec.hot (BitVec.ofNat 32 k.val) (x0 (ix2 p (0 : Fin 1))) := by
  rw [shapeCast_self]
  show FloatOps.sitofp (F := Ideal) FTy.f32 ((IntOp.cmpi CmpIPredicate.eq (iota .tc S5000x16 32 [1] iota_S5000x16_d1_w32 (ix2 p k))
      (broadcastTo S5000x16 x0 broadcasts_S5000x1_S5000x16 (ix2 p k))).setWidth 32) = _
  rw [iota_single_apply, broadcastTo_apply x0 broadcasts_S5000x1_S5000x16 (ix2 p k) (ix2 p (0 : Fin 1))
    (fun a => by match a with | ⟨0, _⟩ => rfl | ⟨1, _⟩ => rfl)]
  exact hot_word _ _

/-- The payload at (p, q): the sum over the 16 table rows of the coefficient times the table's entry. -/
theorem pay_apply (x0 : Vec Ideal S5000x1 .i32) (x1 : Vec Ideal S16x128 .f32) (p : Fin 5000) (q : Fin 128) :
    k0_pay1 (F := Ideal) x0 x1 (ix2 p q) = Cert.Spec.embRow (x0 (ix2 p (0 : Fin 1))) x1 q := by
  unfold k0_pay1
  dsimp only
  refine (Ideal.matmul_constant_zero_apply _ none _ _ (ix2 p q)).trans ?_
  unfold Cert.Spec.embRow
  rw [← Equiv.sum_comp (contrEquiv1 dot_S5000x16_S16x128_S5000x128_1_0_0_1_n_n 16 rfl rfl).symm]
  refine Finset.sum_congr rfl fun k _ => ?_
  have hk := contrEquiv1_symm_val dot_S5000x16_S16x128_S5000x128_1_0_0_1_n_n 16 rfl rfl k
  have el : dot_S5000x16_S16x128_S5000x128_1_0_0_1_n_n.lhsIdx (ix2 p q)
      ((contrEquiv1 dot_S5000x16_S16x128_S5000x128_1_0_0_1_n_n 16 rfl rfl).symm k) = ix2 p k :=
    funext fun a => Fin.ext (by
      match a with
      | ⟨0, _⟩ => exact lhs_row _ _
      | ⟨1, _⟩ => exact (lhs_col _ _).trans hk)
  have er : dot_S5000x16_S16x128_S5000x128_1_0_0_1_n_n.rhsIdx (ix2 p q)
      ((contrEquiv1 dot_S5000x16_S16x128_S5000x128_1_0_0_1_n_n 16 rfl rfl).symm k) = ix2 k q :=
    funext fun a => Fin.ext (by
      match a with
      | ⟨0, _⟩ => exact (rhs_row _ _).trans hk
      | ⟨1, _⟩ => exact rhs_col _ _)
  rw [el, er]
  refine congrArg₂ (· * ·) ?_ rfl
  exact onehot_apply x0 p k

/-- The payload at any index of the block. -/
theorem blk_apply (x0 : Vec Ideal S5000x1 .i32) (x1 : Vec Ideal S16x128 .f32) (j : S5000x128.Idx) :
    k0_pay1 (F := Ideal) x0 x1 j = Cert.Spec.embRow (x0 (ix2 (j 0) (0 : Fin 1))) x1 (j 1) := by
  obtain ⟨p, q, rfl⟩ : ∃ (p : Fin 5000) (q : Fin 128), j = ix2 p q := ⟨j 0, j 1, eq_ix2 j⟩
  exact pay_apply x0 x1 p q

/-- A starting row depends only on the word, the table and the column. -/
theorem embRow_congr {w w' : BitVec 32} {e e' : S16x128.Idx → EReal} {q q' : Fin 128}
    (hw : w = w') (he : e = e') (hq : q = q') : Cert.Spec.embRow w e q = Cert.Spec.embRow w' e' q' := by
  subst hw he hq; rfl

/-! ## From the blocks to the array -/

theorem hz : (![0, 0] : Fin 2 → Nat) = fun _ => 0 := funext fun a => by fin_cases a <;> rfl

/-- The index maps over the grid: the word column's row block is the output's, the table is one whole block, and the
    output's row block at point t is block t. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the embedded node types. -/
theorem flushed_eq (c : Dev nD) (t : Fin cfg0.N) :
    (dat0 (F := Ideal) V c).flushed 2 t
      = ((cfg0.win 2).blk t).view.read (Elt Ideal) (Cert.Spec.embArr (V c main_v0) (V c main_arg3)) := by
  show (cfg0.win 2).cut (grid0.coords t) ((dat0 (F := Ideal) V c).after 2 t) = _
  rw [after0_2]
  unfold out0_2
  rw [View.canon_unit_zero hz]
  simp only [View.ld_unit_zero (S := S5000x1) hz, View.ld_unit_zero (S := S16x128) hz]
  obtain ⟨e0, e1, e2, e3, e4, e5⟩ := idx_facts t
  funext j
  show k0_pay1 (F := Ideal) (iblk0 V c 0 t) (iblk0 V c 1 t) j
    = Cert.Spec.embArr (V c main_v0) (V c main_arg3) (((cfg0.win 2).blk t).view.emb j)
  refine (blk_apply _ _ j).trans ?_
  show Cert.Spec.embRow (iblk0 V c 0 t (ix2 (j 0) (0 : Fin 1))) (iblk0 V c 1 t) (j 1)
    = Cert.Spec.embRow (V c main_v0 (ix2 ((((cfg0.win 2).blk t).view.emb j) 0) (0 : Fin 1))) (V c main_arg3)
        ((((cfg0.win 2).blk t).view.emb j) 1)
  refine embRow_congr ?_ ?_ ?_
  · show V c main_v0 (((cfg0.win 0).blk t).view.emb (ix2 (j 0) (0 : Fin 1)))
      = V c main_v0 (ix2 ((((cfg0.win 2).blk t).view.emb j) 0) (0 : Fin 1))
    refine congrArg (V c main_v0) (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 1 + 1 * 0 = 0
      omega
  · funext y
    show V c main_arg3 (((cfg0.win 1).blk t).view.emb y) = V c main_arg3 y
    refine congrArg (V c main_arg3) (funext fun a => Fin.ext ?_)
    match a with
    | ⟨0, _⟩ =>
      show win0_1.index t (0 : Fin 2) * 16 + 1 * (y 0).val = (y 0).val
      omega
    | ⟨1, _⟩ =>
      show win0_1.index t (1 : Fin 2) * 128 + 1 * (y 1).val = (y 1).val
      omega
  · refine Fin.ext ?_
    show (j 1).val = win0_2.index t (1 : Fin 2) * 128 + 1 * (j 1).val
    omega

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v6).slice (win0_2.rect t)).set ↔ _
  rw [View.set_slice_whole, Rect.mem_set_unit]
  exact Iff.rfl

/-- Every row r of the array is in the block of point r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show (i 0).val / 5000 < grid0.N; rw [hN]; omega⟩, rfl⟩
  obtain ⟨e0, e1, e2, e3, e4, e5⟩ := idx_facts t
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The output array after the region: the embedded node types. -/
theorem arr0 (c : Dev nD) :
    (dat0 (F := Ideal) V c).arrAt 2 cfg0.N = Cert.Spec.embArr (V c main_v0) (V c main_arg3) :=
  (dat0 (F := Ideal) V c).arrAt_eq_of_cover 2 _ (fun t _ => flushed_eq V c t) cover

end Cert.KernelIdeal.KVal

end
-- ==== Proof.KReg1.lean ====
/-
  The message kernel's region, over the extended reals: after the region its output array is, index by index,
  the message array of the three arrays the region found —
    out[e, q] = Σ r < 4, Σ k < 128, (x[e, k] · [type[e] = r]) · W[r, k, q].

  • One grid point's payload at (p, q): the four relation terms, each a product into a zero accumulator, i.e. the
    sum over the contracted coordinate of (x[p, k] · mask_r[p]) · W_r[k, q], added in the order r = 0, 1, 2, 3 onto
    zero; the mask is the comparison word of the edge's type with r, widened and read as a number: 1 or 0.
  • The blocks: the source-row and edge-type windows' blocks at point t are rows 6000 t … 6000 t + 5999 of their
    arrays; the parameter window's block is its whole array, whose slab r is W[r].
  • So point t writes back block t of the message array, and since every row lies in the block of the point
    row / 6000, the output array ends as the message array.
-/
import proofs.«411858_j26792005992743_1_alg».proof.Proof.Gen.KernelIdeal.Frame
import proofs.«411858_j26792005992743_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.KVal
open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
variable (V : (c : Dev nD) → (b : Ref sig .tc) → Buf (Elt Ideal) ((c : Thread nD τ).loc b))

namespace R1

/-- The comparison word of two 32-bit words, widened and read as a number, is 1 when they agree and 0 otherwise. -/
theorem sitofp_cmpi_eq (a b : BitVec 32) :
    FloatOps.sitofp (F := Ideal) .f32 ((IntOp.cmpi .eq a b).setWidth 32) = Cert.Spec.hot a b := by
  unfold Cert.Spec.hot
  show (((((IntOp.cmpi .eq a b).setWidth 32).toInt : ℤ) : ℝ) : EReal) = _
  by_cases h : a = b
  · subst h
    have e : IntOp.cmpi .eq a a = 1#1 := by simp [IntOp.cmpi]
    rw [e, if_pos rfl]
    norm_num
  · have hb : (a == b) = false := beq_eq_false_iff_ne.mpr h
    have e : IntOp.cmpi .eq a b = 0#1 := by simp [IntOp.cmpi, hb]
    rw [e, if_neg h]
    norm_num

/-- A column [a,1] broadcast to [a,b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices at output index i and contracted coordinate k: the left operand is read at
    (row of i, k) and the right operand at (k, column of i) — one equation per operand axis. -/
theorem lhs_ax0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
theorem lhs_ax1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
theorem rhs_ax0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
theorem rhs_ax1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- The product into a zero accumulator, read at (p, q): the sum over the contracted coordinate. -/
theorem matmul_at (A : FVec Ideal S6000x128 .bf16) (B : FVec Ideal S128x128 .bf16) (p : Fin 6000) (q : Fin 128) :
    matmul dot_S6000x128_S128x128_S6000x128_1_0_0_1_n_n none A B (constant (F := Ideal) S6000x128 .f32 0x00000000#32) (ix2 p q)
      = ∑ k : Fin 128, A (ix2 p k) * B (ix2 k q) := by
  show FloatOps.matmul _ none A B _ (ix2 p q) = _
  rw [Ideal.matmul_constant_zero_apply, ← Equiv.sum_comp (contrEquiv1 dot_S6000x128_S128x128_S6000x128_1_0_0_1_n_n 128 rfl rfl).symm]
  refine Finset.sum_congr rfl fun k _ => ?_
  have hk := contrEquiv1_symm_val dot_S6000x128_S128x128_S6000x128_1_0_0_1_n_n 128 rfl rfl k
  have el : dot_S6000x128_S128x128_S6000x128_1_0_0_1_n_n.lhsIdx (ix2 p q) ((contrEquiv1 dot_S6000x128_S128x128_S6000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S6000x128_S128x128_S6000x128_1_0_0_1_n_n.rhsIdx (ix2 p q) ((contrEquiv1 dot_S6000x128_S128x128_S6000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The edge-type block is read as it is. -/
theorem pay3_eq (x1 : Vec Ideal S6000x1 .i32) : k1_pay3 x1 = x1 := by
  unfold k1_pay3; exact shapeCast_self _ _

/-- The source-row block, narrowed, is read as it is over the extended reals. -/
theorem pay2_at (x0 : Vec Ideal S6000x128 .f32) (i : S6000x128.Idx) : k1_pay2 x0 i = x0 i := by
  unfold k1_pay2; rw [truncf_apply, shapeCast_self]

/-- The relation mask of edge p, at any column: 1 when the edge's type word is r, 0 otherwise. -/
theorem mask_at (x1 : Vec Ideal S6000x1 .i32) (r : BitVec 32) (p : Fin 6000) (k : Fin 128) :
    (broadcastTo S6000x128 (truncf .bf16 (sitofp (F := Ideal) .f32 (extui 32 (cmpi .eq (k1_pay3 x1) (broadcast S6000x1 r)) natLt_1_32)) bitsLt_bf16_f32) broadcasts_S6000x1_S6000x128 : FVec Ideal S6000x128 .bf16) (ix2 p k)
      = Cert.Spec.hot (x1 (ix2 p (0 : Fin 1))) r := by
  refine (broadcastTo_a1_ab_apply _ _ p k).trans ?_
  rw [pay3_eq]
  exact sitofp_cmpi_eq _ _

/-- One relation's term read at (p, q): Σ k, (x[p,k] · mask) · W[0,k,q]. -/
theorem term_at (x0 : Vec Ideal S6000x128 .f32) (x1 : Vec Ideal S6000x1 .i32) (r : BitVec 32) (Wr : Vec Ideal S1x128x128 .f32) (p : Fin 6000) (q : Fin 128) :
    matmul dot_S6000x128_S128x128_S6000x128_1_0_0_1_n_n none
        (mulf (k1_pay2 x0) (broadcastTo S6000x128 (truncf .bf16 (sitofp (F := Ideal) .f32 (extui 32 (cmpi .eq (k1_pay3 x1) (broadcast S6000x1 r)) natLt_1_32)) bitsLt_bf16_f32) broadcasts_S6000x1_S6000x128))
        (truncf .bf16 (shapeCast S128x128 Wr shapeCasts_S1x128x128_S128x128) bitsLt_bf16_f32)
        (constant (F := Ideal) S6000x128 .f32 0x00000000#32) (ix2 p q)
      = ∑ k : Fin 128, (x0 (ix2 p k) * Cert.Spec.hot (x1 (ix2 p (0 : Fin 1))) r) * Wr (ix3 (0 : Fin 1) k q) := by
  refine (matmul_at _ _ p q).trans (Finset.sum_congr rfl fun k _ => ?_)
  rw [mulf_apply, mask_at, truncf_apply, shapeCast_1ab_ab_apply, pay2_at]

/-- One grid point's payload read at (p, q): the four relation terms added in the order r = 0, 1, 2, 3. -/
theorem pay_at (x0 : Vec Ideal S6000x128 .f32) (x1 : Vec Ideal S6000x1 .i32) (W0 W1 W2 W3 : Vec Ideal S1x128x128 .f32) (p : Fin 6000) (q : Fin 128) :
    k1_pay1 (k1_pay2 x0) (k1_pay3 x1) (k1_pay4 x0 x1 W0 W1) (k1_pay5 x0 x1) (k1_pay6 W2) W3 (ix2 p q)
      = (((∑ k : Fin 128, (x0 (ix2 p k) * Cert.Spec.hot (x1 (ix2 p (0 : Fin 1))) 0#32) * W0 (ix3 (0 : Fin 1) k q))
          + ∑ k : Fin 128, (x0 (ix2 p k) * Cert.Spec.hot (x1 (ix2 p (0 : Fin 1))) 1#32) * W1 (ix3 (0 : Fin 1) k q))
          + ∑ k : Fin 128, (x0 (ix2 p k) * Cert.Spec.hot (x1 (ix2 p (0 : Fin 1))) 2#32) * W2 (ix3 (0 : Fin 1) k q))
          + ∑ k : Fin 128, (x0 (ix2 p k) * Cert.Spec.hot (x1 (ix2 p (0 : Fin 1))) 3#32) * W3 (ix3 (0 : Fin 1) k q) := by
  unfold k1_pay1 k1_pay4 k1_pay5 k1_pay6
  simp only [addf_apply]
  rw [term_at, term_at, term_at, term_at, broadcast_apply]
  show (Ideal.ofBits .f32 0x00000000#32 : EReal) + _ + _ + _ + _ = _
  rw [Ideal.ofBits_zero_f32, zero_add]

theorem hz : (![0, 0] : Fin 2 → Nat) = fun _ => 0 := funext fun a => by fin_cases a <;> rfl

/-- The printed index maps over the grid: the row-blocked windows sit at block (t, 0), the parameter window at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 3) = 0 ∧ win1_2.index t (1 : Fin 3) = 0 ∧ win1_2.index t (2 : Fin 3) = 0
    ∧ win1_3.index t (0 : Fin 2) = t.val ∧ win1_3.index t (1 : Fin 2) = 0 ∧ t.val < 100 :=
  (by decide +kernel : ∀ t : Fin grid1.N, _)

/-- The source-row window's block at point t is rows 6000 t … 6000 t + 5999 of its array. -/
theorem rows_at (c : Dev nD) (t : Fin cfg1.N) (p : Fin 6000) (k : Fin 128) (P : Fin 600000) (hP : P.val = t.val * 6000 + p.val) :
    (iblk1 (F := Ideal) V c 0 t : Vec Ideal S6000x128 .f32) (ix2 p k) = (V c main_v7 : S600000x128.Idx → EReal) (ix2 P k) := by
  obtain ⟨e0, e1, -⟩ := idx_facts t
  unfold iblk1
  rw [View.read_apply]
  show V c main_v7 _ = V c main_v7 _
  congr 1
  funext a
  apply Fin.ext
  match a with
  | ⟨0, _⟩ => show win1_0.index t (0 : Fin 2) * 6000 + 1 * p.val = P.val; omega
  | ⟨1, _⟩ => show win1_0.index t (1 : Fin 2) * 128 + 1 * k.val = k.val; omega

/-- The edge-type window's block at point t is rows 6000 t … 6000 t + 5999 of its array. -/
theorem types_at (c : Dev nD) (t : Fin cfg1.N) (p : Fin 6000) (P : Fin 600000) (hP : P.val = t.val * 6000 + p.val) :
    (iblk1 (F := Ideal) V c 1 t : Vec Ideal S6000x1 .i32) (ix2 p (0 : Fin 1)) = (V c main_v5 : S600000x1.Idx → BitVec 32) (ix2 P (0 : Fin 1)) := by
  obtain ⟨-, -, e0, e1, -⟩ := idx_facts t
  unfold iblk1
  rw [View.read_apply]
  show V c main_v5 _ = V c main_v5 _
  congr 1
  funext a
  apply Fin.ext
  match a with
  | ⟨0, _⟩ => show win1_1.index t (0 : Fin 2) * 6000 + 1 * p.val = P.val; omega
  | ⟨1, _⟩ => show win1_1.index t (1 : Fin 2) * 1 + 1 * 0 = 0; omega

/-- Slab o of the parameter window's block, which is the whole array, is slab o of the array. -/
theorem slab_at (c : Dev nD) (t : Fin cfg1.N) (o : Nat) (ho : o < 4) (inb : ∀ a, (![o, 0, 0] : Fin 3 → Nat) a + S1x128x128.size a ≤ S4x128x128.size a) (k q : Fin 128) :
    View.ld (iblk1 (F := Ideal) V c 2 t : Vec Ideal S4x128x128 .f32) (Rect.unit (s := S4x128x128) ![o, 0, 0] S1x128x128.size inb) (ix3 (0 : Fin 1) k q)
      = (V c main_v9 : S4x128x128.Idx → EReal) (ix3 (⟨o, ho⟩ : Fin 4) k q) := by
  obtain ⟨-, -, -, -, e0, e1, e2, -⟩ := idx_facts t
  unfold iblk1
  show (((cfg1.win 2).blk t).view.read (Elt Ideal) (V c main_v9)) _ = _
  rw [View.read_apply]
  show V c main_v9 _ = V c main_v9 _
  congr 1
  funext a
  apply Fin.ext
  match a with
  | ⟨0, _⟩ => show win1_2.index t (0 : Fin 3) * 4 + 1 * (o + 1 * 0) = o; omega
  | ⟨1, _⟩ => show win1_2.index t (1 : Fin 3) * 128 + 1 * (0 + 1 * k.val) = k.val; omega
  | ⟨2, _⟩ => show win1_2.index t (2 : Fin 3) * 128 + 1 * (0 + 1 * q.val) = q.val; omega

/-- What point t writes back is block t of the message array of the arrays the region found. -/
theorem flushed_eq (c : Dev nD) (t : Fin cfg1.N) :
    (dat1 (F := Ideal) V c).flushed 3 t
      = ((cfg1.win 3).blk t).view.read (Elt Ideal) (Cert.Spec.msgArr (V c main_v7) (V c main_v5) (V c main_v9)) := by
  show (cfg1.win 3).cut (grid1.coords t) ((dat1 V c).after 3 t) = _
  rw [after1_3]
  unfold out1_3
  rw [View.canon_unit_zero hz]
  simp only [View.ld_unit_zero (S := S6000x128) hz, View.ld_unit_zero (S := S6000x1) hz]
  obtain ⟨-, -, -, -, -, -, -, e0, e1, ht⟩ := idx_facts t
  funext j
  have hj0 : (j 0).val < 6000 := (j 0).isLt
  have hj1 : (j 1).val < 128 := (j 1).isLt
  obtain ⟨p, hp⟩ : ∃ p : Fin 6000, p.val = (j 0).val := ⟨⟨(j 0).val, hj0⟩, rfl⟩
  obtain ⟨q, hq⟩ : ∃ q : Fin 128, q.val = (j 1).val := ⟨⟨(j 1).val, hj1⟩, rfl⟩
  obtain ⟨P, hP⟩ : ∃ P : Fin 600000, P.val = t.val * 6000 + p.val := ⟨⟨t.val * 6000 + p.val, by omega⟩, rfl⟩
  have hl : (cfg1.win 3).xinj (grid1.coords t) j = ix2 p q :=
    funext fun a => Fin.ext (match a with | ⟨0, _⟩ => hp.symm | ⟨1, _⟩ => hq.symm)
  have hr : ((cfg1.win 3).blk t).view.emb j = ix2 P q := by
    funext a
    apply Fin.ext
    match a with
    | ⟨0, _⟩ => show win1_3.index t (0 : Fin 2) * 6000 + 1 * (j 0).val = P.val; omega
    | ⟨1, _⟩ => show win1_3.index t (1 : Fin 2) * 128 + 1 * (j 1).val = q.val; omega
  show k1_pay1 (F := Ideal) _ _ _ _ _ _ ((cfg1.win 3).xinj (grid1.coords t) j)
      = Cert.Spec.msgArr (V c main_v7) (V c main_v5) (V c main_v9) (((cfg1.win 3).blk t).view.emb j)
  rw [hl, hr]
  refine (pay_at _ _ _ _ _ _ p q).trans ?_
  have hx : ∀ k : Fin 128, (iblk1 (F := Ideal) V c 0 t : Vec Ideal S6000x128 .f32) (ix2 p k) = (V c main_v7 : S600000x128.Idx → EReal) (ix2 P k) :=
    fun k => rows_at V c t p k P hP
  have hty : (iblk1 (F := Ideal) V c 1 t : Vec Ideal S6000x1 .i32) (ix2 p (0 : Fin 1)) = (V c main_v5 : S600000x1.Idx → BitVec 32) (ix2 P (0 : Fin 1)) :=
    types_at V c t p P hP
  simp only [hx, hty, slab_at V c t 0 (by decide), slab_at V c t 1 (by decide), slab_at V c t 2 (by decide), slab_at V c t 3 (by decide)]
  show _ = Cert.Spec.msgRow (fun k => V c main_v7 (ix2 P k)) (V c main_v5 (ix2 P (0 : Fin 1))) (V c main_v9) q
  unfold Cert.Spec.msgRow
  rw [Fin.sum_univ_four]
  refine congrArg₂ (· + ·) (congrArg₂ (· + ·) (congrArg₂ (· + ·) ?_ ?_) ?_) ?_ <;>
    exact Finset.sum_congr rfl fun k _ => rfl

/-- An index of the array is in point t's block iff each coordinate is in the block's range on its axis. -/
theorem mem_blk (t : Fin cfg1.N) (i : S600000x128.Idx) :
    i ∈ ((cfg1.win 3).blk t).view.set ↔ ∀ a : Fin 2, win1_3.index t a * S6000x128.size a ≤ (i a).val ∧ (i a).val < win1_3.index t a * S6000x128.size a + S6000x128.size a := by
  show i ∈ ((View.whole main_v10).slice (win1_3.rect t)).set ↔ _
  rw [View.set_slice_whole, Rect.mem_set_unit]
  exact Iff.rfl

/-- Every row of the array is in the block of the point its row block names. -/
theorem cover (i : S600000x128.Idx) : ∃ t : Fin cfg1.N, (cfg1.win 3).flush t = true ∧ i ∈ ((cfg1.win 3).blk t).view.set := by
  have hi0 : (i 0).val < 600000 := (i 0).isLt
  have hi1 : (i 1).val < 128 := (i 1).isLt
  have hN : cfg1.N = 100 := N_1
  let t : Fin cfg1.N := ⟨(i 0).val / 6000, by rw [hN]; omega⟩
  obtain ⟨-, -, -, -, -, -, -, e0, e1, -⟩ := idx_facts t
  have ht : t.val = (i 0).val / 6000 := rfl
  refine ⟨t, flush1_3 t, ?_⟩
  rw [mem_blk]
  intro a
  match a with
  | ⟨0, _⟩ => show win1_3.index t (0 : Fin 2) * 6000 ≤ (i 0).val ∧ (i 0).val < win1_3.index t (0 : Fin 2) * 6000 + 6000; omega
  | ⟨1, _⟩ => show win1_3.index t (1 : Fin 2) * 128 ≤ (i 1).val ∧ (i 1).val < win1_3.index t (1 : Fin 2) * 128 + 128; omega

end R1

/-- After the region its output array is the message array of the arrays the region found. -/
theorem arr1 (c : Dev nD) :
    (dat1 (F := Ideal) V c).arrAt 3 cfg1.N = Cert.Spec.msgArr (V c main_v7) (V c main_v5) (V c main_v9) :=
  (dat1 (F := Ideal) V c).arrAt_eq_of_cover 3 _ (fun t _ => R1.flushed_eq V c t) R1.cover

end Cert.KernelIdeal.KVal
end
-- ==== Proof.KReg2.lean ====
/-
  The node-update region, read as one array.

  The region runs over 10 grid points; point t holds rows 5000 t … 5000 t + 4999 of the x array and of the agg
  array, the whole root matrix and the whole one-row bias array, and leaves in its output block, at (p, q),

      leaky ((agg (p, q) + Σ k, x (p, k) · root (k, q)) + bias (0, q)),

  leaky y being y for y > 0 and slope · y otherwise. The 10 output blocks tile the output array, so after the
  region the output array is Cert.Spec.updArr of the four arrays the region found.

  In order: the value the body stores, at an index (the block product into a zero accumulator as a plain sum over
  the contracted coordinate, the format changes being the identity on extended reals; the select on "above zero"
  as leaky); each window's block at a point as rows of its array; what a point writes back; the blocks cover the
  array; the array.
-/
import proofs.«411858_j26792005992743_1_alg».proof.Proof.Gen.KernelIdeal.Frame
import proofs.«411858_j26792005992743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace R2

/-! ## The stored value at an index -/

/-- The all-zero offsets of a whole-buffer rectangle, as a constant function. -/
theorem hz : (![0, 0] : Fin 2 → Nat) = fun _ => 0 := funext fun a => by fin_cases a <;> rfl

/-- Select on "y above zero" between y and slope · y is the leaky function of y. -/
theorem leaky_sel (y : EReal) :
    Scalar.select (Ideal.cmp .ogt y (Ideal.ofBits .f32 0x00000000#32)) y (Ideal.ofBits .f32 0x3C23D70A#32 * y)
      = Cert.Spec.leaky y := by
  unfold Cert.Spec.leaky Cert.Spec.slope Scalar.select Ideal.cmp
  rw [Ideal.ofBits_zero_f32]
  by_cases h : 0 < y
  · simp [h]
  · simp [h]

/-- The left operand's index at output (p, q) and contraction coordinate c is (p, c). -/
theorem lhs_idx (p : Fin 5000) (q : Fin 128) (c : Fin 128) :
    dot_S5000x128_S128x128_S5000x128_1_0_0_1_n_n.lhsIdx (ix2 p q)
      ((contrEquiv1 dot_S5000x128_S128x128_S5000x128_1_0_0_1_n_n 128 rfl rfl).symm c) = ix2 p c := by
  have c2 := contrEquiv1_symm_val dot_S5000x128_S128x128_S5000x128_1_0_0_1_n_n 128 rfl rfl c
  funext ax; apply Fin.ext
  match ax with
  | ⟨0, _⟩ => simp [DotDims.lhsIdx, dot_S5000x128_S128x128_S5000x128_1_0_0_1_n_n]; rfl
  | ⟨1, _⟩ => simp [DotDims.lhsIdx, dot_S5000x128_S128x128_S5000x128_1_0_0_1_n_n]; exact c2

/-- The right operand's index at output (p, q) and contraction coordinate c is (c, q). -/
theorem rhs_idx (p : Fin 5000) (q : Fin 128) (c : Fin 128) :
    dot_S5000x128_S128x128_S5000x128_1_0_0_1_n_n.rhsIdx (ix2 p q)
      ((contrEquiv1 dot_S5000x128_S128x128_S5000x128_1_0_0_1_n_n 128 rfl rfl).symm c) = ix2 c q := by
  have c2 := contrEquiv1_symm_val dot_S5000x128_S128x128_S5000x128_1_0_0_1_n_n 128 rfl rfl c
  funext ax; apply Fin.ext
  match ax with
  | ⟨0, _⟩ => simp [DotDims.rhsIdx, dot_S5000x128_S128x128_S5000x128_1_0_0_1_n_n]; exact c2
  | ⟨1, _⟩ => simp [DotDims.rhsIdx, dot_S5000x128_S128x128_S5000x128_1_0_0_1_n_n]; rfl

/-- The block product into a zero accumulator, read at (p, q): Σ k, A (p, k) · B (k, q). -/
theorem mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  rw [lhs_idx, rhs_idx]

/-- The sum under the leaky function, read at (p, q): (agg (p, q) + Σ k, x (p, k) · root (k, q)) + bias (0, q). The
    format changes are the identity on extended reals; the one-row array read at every row is its row 0. -/
theorem pre_apply (x0 : Vec Ideal S5000x128 .f32) (rt : Vec Ideal S128x128 .f32) (ag : Vec Ideal S5000x128 .f32)
    (b : Vec Ideal S1x128 .f32) (h1 : FTy.bf16.bits < FTy.f32.bits) (h2 : FTy.bf16.bits < FTy.f32.bits)
    (hb : S1x128.Broadcasts S5000x128) (p : Fin 5000) (q : Fin 128) :
    addf (addf ag (matmul dot_S5000x128_S128x128_S5000x128_1_0_0_1_n_n none (truncf .bf16 x0 h1) (truncf .bf16 rt h2)
        (constant (F := Ideal) S5000x128 .f32 0x00000000#32))) (broadcastTo S5000x128 b hb) (ix2 p q)
      = (ag (ix2 p q) + ∑ k : Fin 128, x0 (ix2 p k) * rt (ix2 k q)) + b (ix2 (0 : Fin 1) q) := by
  rw [addf_apply, addf_apply, mm_apply, broadcastTo_1b_ab_apply]
  rfl

/-- THE STORED VALUE AT (p, q): the node update of row p of the x block and of the agg block, the root matrix and
    the bias entry of column q. -/
theorem pay_apply (x0 : Vec Ideal S5000x128 .f32) (rt : Vec Ideal S128x128 .f32) (ag : Vec Ideal S5000x128 .f32)
    (b : Vec Ideal S1x128 .f32) (p : Fin 5000) (q : Fin 128) :
    k2_pay1 x0 rt ag b (ix2 p q)
      = Cert.Spec.updRow (fun k => x0 (ix2 p k)) (fun k => ag (ix2 p k)) rt (b (ix2 (0 : Fin 1) q)) q := by
  unfold k2_pay1 Cert.Spec.updRow
  simp only [shapeCast_self]
  refine Eq.trans ?_ (congrArg Cert.Spec.leaky
    (pre_apply x0 rt ag b bitsLt_bf16_f32 bitsLt_bf16_f32 broadcasts_S1x128_S5000x128 p q))
  exact leaky_sel _

/-- The stored value as one function of its index. -/
theorem pay_eq (x0 : Vec Ideal S5000x128 .f32) (rt : Vec Ideal S128x128 .f32) (ag : Vec Ideal S5000x128 .f32)
    (b : Vec Ideal S1x128 .f32) :
    k2_pay1 x0 rt ag b = fun i : S5000x128.Idx =>
      Cert.Spec.updRow (fun k => x0 (ix2 (i 0) k)) (fun k => ag (ix2 (i 0) k)) rt (b (ix2 (0 : Fin 1) (i 1))) (i 1) := by
  funext i
  obtain ⟨p, q, rfl⟩ : ∃ (p : Fin 5000) (q : Fin 128), i = ix2 p q := ⟨i 0, i 1, eq_ix2 i⟩
  exact pay_apply x0 rt ag b p q

/-! ## The windows' blocks as rows of their arrays -/

/-- The index maps over the grid: the x, agg and output windows sit at row block t, column block 0; the root and
    bias windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The x block at point t is rows 5000 t … 5000 t + 4999 of the x array. -/
theorem xblk_apply (c : Dev nD) (t : Fin cfg2.N) (p : Fin 5000) (k : Fin 128) (r : Fin 50000)
    (hr : r.val = t.val * 5000 + p.val) :
    (iblk2 (F := Ideal) V c 0 t : Vec Ideal S5000x128 .f32) (ix2 p k)
      = (V c main_v6 : S50000x128.Idx → EReal) (ix2 r k) := by
  obtain ⟨e00, e01, e10, e11, e20, e21, e30, e31, e40, e41⟩ := idx_facts t
  unfold iblk2
  rw [View.read_apply]
  show V c main_v6 _ = V c main_v6 _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- The agg block at point t is the same rows of the agg array. -/
theorem aggblk_apply (c : Dev nD) (t : Fin cfg2.N) (p : Fin 5000) (k : Fin 128) (r : Fin 50000)
    (hr : r.val = t.val * 5000 + p.val) :
    (iblk2 (F := Ideal) V c 1 t : Vec Ideal S5000x128 .f32) (ix2 p k)
      = (V c main_v13 : S50000x128.Idx → EReal) (ix2 r k) := by
  obtain ⟨e00, e01, e10, e11, e20, e21, e30, e31, e40, e41⟩ := idx_facts t
  unfold iblk2
  rw [View.read_apply]
  show V c main_v13 _ = V c main_v13 _
  congr 1
  funext a
  apply Fin.ext
  match a with
  | ⟨0, _⟩ => show win2_1.index t (0 : Fin 2) * 5000 + 1 * p.val = r.val; omega
  | ⟨1, _⟩ => show win2_1.index t (1 : Fin 2) * 128 + 1 * k.val = k.val; omega

/-- The root window's one block is the root array. -/
theorem rootblk_eq (c : Dev nD) (t : Fin cfg2.N) :
    (iblk2 (F := Ideal) V c 2 t : Vec Ideal S128x128 .f32) = (V c main_v18 : S128x128.Idx → EReal) := by
  obtain ⟨e00, e01, e10, e11, e20, e21, e30, e31, e40, e41⟩ := idx_facts t
  funext y
  unfold iblk2
  rw [View.read_apply]
  show V c main_v18 _ = V c main_v18 _
  congr 1
  funext a
  apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The bias window's one block is the bias array. -/
theorem biasblk_eq (c : Dev nD) (t : Fin cfg2.N) :
    (iblk2 (F := Ideal) V c 3 t : Vec Ideal S1x128 .f32) = (V c main_v16 : S1x128.Idx → EReal) := by
  obtain ⟨e00, e01, e10, e11, e20, e21, e30, e31, e40, e41⟩ := idx_facts t
  funext y
  unfold iblk2
  rw [View.read_apply]
  show V c main_v16 _ = V c main_v16 _
  congr 1
  funext a
  apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-! ## From the blocks to the array -/

/-- WHAT POINT t WRITES BACK is block t of the node update of the arrays the region found. -/
theorem flushed_eq (c : Dev nD) (t : Fin cfg2.N) :
    (dat2 (F := Ideal) V c).flushed 4 t = ((cfg2.win 4).blk t).view.read (Elt Ideal)
      (Cert.Spec.updArr (V c main_v6) (V c main_v13) (V c main_v18) (V c main_v16)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz,
    View.ld_unit_zero (S := S1x128) hz]
  rw [pay_eq, rootblk_eq, biasblk_eq]
  obtain ⟨e00, e01, e10, e11, e20, e21, e30, e31, e40, e41⟩ := idx_facts t
  funext j
  rw [View.read_apply]
  have hj0 : (j 0).val < 5000 := (j 0).isLt
  have hj1 : (j 1).val < 128 := (j 1).isLt
  have hr : (((cfg2.win 4).blk t).view.emb j (0 : Fin 2)).val = t.val * 5000 + (j 0).val := by
    show win2_4.index t (0 : Fin 2) * 5000 + 1 * (j 0).val = _; omega
  have hq : (((cfg2.win 4).blk t).view.emb j (1 : Fin 2)) = (⟨(j 1).val, hj1⟩ : Fin 128) := by
    apply Fin.ext
    show win2_4.index t (1 : Fin 2) * 128 + 1 * (j 1).val = (j 1).val; omega
  show Cert.Spec.updRow (fun k => iblk2 V c 0 t (ix2 ⟨(j 0).val, hj0⟩ k)) (fun k => iblk2 V c 1 t (ix2 ⟨(j 0).val, hj0⟩ k))
      (V c main_v18) (V c main_v16 (ix2 (0 : Fin 1) ⟨(j 1).val, hj1⟩)) ⟨(j 1).val, hj1⟩
    = Cert.Spec.updRow (fun k => V c main_v6 (ix2 (((cfg2.win 4).blk t).view.emb j (0 : Fin 2)) k))
        (fun k => V c main_v13 (ix2 (((cfg2.win 4).blk t).view.emb j (0 : Fin 2)) k)) (V c main_v18)
        (V c main_v16 (ix2 (0 : Fin 1) (((cfg2.win 4).blk t).view.emb j (1 : Fin 2)))) (((cfg2.win 4).blk t).view.emb j (1 : Fin 2))
  rw [hq]
  congr 1
  · funext k; exact xblk_apply V c t _ k _ hr
  · funext k; exact aggblk_apply V c t _ k _ hr

/-- An index of the output array is in point t's block iff each coordinate is in the block's range on its axis. -/
theorem mem_blk (t : Fin cfg2.N) (i : S50000x128.Idx) :
    i ∈ ((cfg2.win 4).blk t).view.set ↔ ∀ a : Fin 2, win2_4.index t a * S5000x128.size a ≤ (i a).val
      ∧ (i a).val < win2_4.index t a * S5000x128.size a + S5000x128.size a := by
  show i ∈ ((View.whole main_v19).slice (win2_4.rect t)).set ↔ _
  rw [View.set_slice_whole, Rect.mem_set_unit]
  exact Iff.rfl

/-- Every index of the output array is in some point's block: row r is in the block of point r / 5000. -/
theorem cover (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e00, e01, e10, e11, e20, e21, e30, e31, e40, e41⟩ := idx_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 128 ≤ (i 1).val ∧ (i 1).val < win2_4.index t (1 : Fin 2) * 128 + 128
    omega

end R2

/-- THE OUTPUT ARRAY after the region: the node update of the x, agg, root and bias arrays the region found. -/
theorem arr2 (c : Dev nD) :
    (dat2 (F := Ideal) V c).arrAt 4 cfg2.N = Cert.Spec.updArr (V c main_v6) (V c main_v13) (V c main_v18) (V c main_v16) :=
  (dat2 V c).arrAt_eq_of_cover 4 _ (fun t _ => R2.flushed_eq V c t) R2.cover

end Cert.KernelIdeal.KVal

end
-- ==== Proof.KReg3.lean ====
/-
  The message kernel's region, over the extended reals: after the region its output array is, index by index,
  the message array of the three arrays the region found —
    out[e, q] = Σ r < 4, Σ k < 128, (x[e, k] · [type[e] = r]) · W[r, k, q].

  • One grid point's payload at (p, q): the four relation terms, each a product into a zero accumulator, i.e. the
    sum over the contracted coordinate of (x[p, k] · mask_r[p]) · W_r[k, q], added in the order r = 0, 1, 2, 3 onto
    zero; the mask is the comparison word of the edge's type with r, widened and read as a number: 1 or 0.
  • The blocks: the source-row and edge-type windows' blocks at point t are rows 6000 t … 6000 t + 5999 of their
    arrays; the parameter window's block is its whole array, whose slab r is W[r].
  • So point t writes back block t of the message array, and since every row lies in the block of the point
    row / 6000, the output array ends as the message array.
-/
import proofs.«411858_j26792005992743_1_alg».proof.Proof.Gen.KernelIdeal.Frame
import proofs.«411858_j26792005992743_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.KVal
open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
variable (V : (c : Dev nD) → (b : Ref sig .tc) → Buf (Elt Ideal) ((c : Thread nD τ).loc b))

namespace R3

/-- The comparison word of two 32-bit words, widened and read as a number, is 1 when they agree and 0 otherwise. -/
theorem sitofp_cmpi_eq (a b : BitVec 32) :
    FloatOps.sitofp (F := Ideal) .f32 ((IntOp.cmpi .eq a b).setWidth 32) = Cert.Spec.hot a b := by
  unfold Cert.Spec.hot
  show (((((IntOp.cmpi .eq a b).setWidth 32).toInt : ℤ) : ℝ) : EReal) = _
  by_cases h : a = b
  · subst h
    have e : IntOp.cmpi .eq a a = 1#1 := by simp [IntOp.cmpi]
    rw [e, if_pos rfl]
    norm_num
  · have hb : (a == b) = false := beq_eq_false_iff_ne.mpr h
    have e : IntOp.cmpi .eq a b = 0#1 := by simp [IntOp.cmpi, hb]
    rw [e, if_neg h]
    norm_num

/-- A column [a,1] broadcast to [a,b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices at output index i and contracted coordinate k: the left operand is read at
    (row of i, k) and the right operand at (k, column of i) — one equation per operand axis. -/
theorem lhs_ax0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
theorem lhs_ax1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
theorem rhs_ax0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
theorem rhs_ax1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- The product into a zero accumulator, read at (p, q): the sum over the contracted coordinate. -/
theorem matmul_at (A : FVec Ideal S6000x128 .bf16) (B : FVec Ideal S128x128 .bf16) (p : Fin 6000) (q : Fin 128) :
    matmul dot_S6000x128_S128x128_S6000x128_1_0_0_1_n_n none A B (constant (F := Ideal) S6000x128 .f32 0x00000000#32) (ix2 p q)
      = ∑ k : Fin 128, A (ix2 p k) * B (ix2 k q) := by
  show FloatOps.matmul _ none A B _ (ix2 p q) = _
  rw [Ideal.matmul_constant_zero_apply, ← Equiv.sum_comp (contrEquiv1 dot_S6000x128_S128x128_S6000x128_1_0_0_1_n_n 128 rfl rfl).symm]
  refine Finset.sum_congr rfl fun k _ => ?_
  have hk := contrEquiv1_symm_val dot_S6000x128_S128x128_S6000x128_1_0_0_1_n_n 128 rfl rfl k
  have el : dot_S6000x128_S128x128_S6000x128_1_0_0_1_n_n.lhsIdx (ix2 p q) ((contrEquiv1 dot_S6000x128_S128x128_S6000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S6000x128_S128x128_S6000x128_1_0_0_1_n_n.rhsIdx (ix2 p q) ((contrEquiv1 dot_S6000x128_S128x128_S6000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The edge-type block is read as it is. -/
theorem pay3_eq (x1 : Vec Ideal S6000x1 .i32) : k3_pay3 x1 = x1 := by
  unfold k3_pay3; exact shapeCast_self _ _

/-- The source-row block, narrowed, is read as it is over the extended reals. -/
theorem pay2_at (x0 : Vec Ideal S6000x128 .f32) (i : S6000x128.Idx) : k3_pay2 x0 i = x0 i := by
  unfold k3_pay2; rw [truncf_apply, shapeCast_self]

/-- The relation mask of edge p, at any column: 1 when the edge's type word is r, 0 otherwise. -/
theorem mask_at (x1 : Vec Ideal S6000x1 .i32) (r : BitVec 32) (p : Fin 6000) (k : Fin 128) :
    (broadcastTo S6000x128 (truncf .bf16 (sitofp (F := Ideal) .f32 (extui 32 (cmpi .eq (k3_pay3 x1) (broadcast S6000x1 r)) natLt_1_32)) bitsLt_bf16_f32) broadcasts_S6000x1_S6000x128 : FVec Ideal S6000x128 .bf16) (ix2 p k)
      = Cert.Spec.hot (x1 (ix2 p (0 : Fin 1))) r := by
  refine (broadcastTo_a1_ab_apply _ _ p k).trans ?_
  rw [pay3_eq]
  exact sitofp_cmpi_eq _ _

/-- One relation's term read at (p, q): Σ k, (x[p,k] · mask) · W[0,k,q]. -/
theorem term_at (x0 : Vec Ideal S6000x128 .f32) (x1 : Vec Ideal S6000x1 .i32) (r : BitVec 32) (Wr : Vec Ideal S1x128x128 .f32) (p : Fin 6000) (q : Fin 128) :
    matmul dot_S6000x128_S128x128_S6000x128_1_0_0_1_n_n none
        (mulf (k3_pay2 x0) (broadcastTo S6000x128 (truncf .bf16 (sitofp (F := Ideal) .f32 (extui 32 (cmpi .eq (k3_pay3 x1) (broadcast S6000x1 r)) natLt_1_32)) bitsLt_bf16_f32) broadcasts_S6000x1_S6000x128))
        (truncf .bf16 (shapeCast S128x128 Wr shapeCasts_S1x128x128_S128x128) bitsLt_bf16_f32)
        (constant (F := Ideal) S6000x128 .f32 0x00000000#32) (ix2 p q)
      = ∑ k : Fin 128, (x0 (ix2 p k) * Cert.Spec.hot (x1 (ix2 p (0 : Fin 1))) r) * Wr (ix3 (0 : Fin 1) k q) := by
  refine (matmul_at _ _ p q).trans (Finset.sum_congr rfl fun k _ => ?_)
  rw [mulf_apply, mask_at, truncf_apply, shapeCast_1ab_ab_apply, pay2_at]

/-- One grid point's payload read at (p, q): the four relation terms added in the order r = 0, 1, 2, 3. -/
theorem pay_at (x0 : Vec Ideal S6000x128 .f32) (x1 : Vec Ideal S6000x1 .i32) (W0 W1 W2 W3 : Vec Ideal S1x128x128 .f32) (p : Fin 6000) (q : Fin 128) :
    k3_pay1 (k3_pay2 x0) (k3_pay3 x1) (k3_pay4 x0 x1 W0 W1) (k3_pay5 x0 x1) (k3_pay6 W2) W3 (ix2 p q)
      = (((∑ k : Fin 128, (x0 (ix2 p k) * Cert.Spec.hot (x1 (ix2 p (0 : Fin 1))) 0#32) * W0 (ix3 (0 : Fin 1) k q))
          + ∑ k : Fin 128, (x0 (ix2 p k) * Cert.Spec.hot (x1 (ix2 p (0 : Fin 1))) 1#32) * W1 (ix3 (0 : Fin 1) k q))
          + ∑ k : Fin 128, (x0 (ix2 p k) * Cert.Spec.hot (x1 (ix2 p (0 : Fin 1))) 2#32) * W2 (ix3 (0 : Fin 1) k q))
          + ∑ k : Fin 128, (x0 (ix2 p k) * Cert.Spec.hot (x1 (ix2 p (0 : Fin 1))) 3#32) * W3 (ix3 (0 : Fin 1) k q) := by
  unfold k3_pay1 k3_pay4 k3_pay5 k3_pay6
  simp only [addf_apply]
  rw [term_at, term_at, term_at, term_at, broadcast_apply]
  show (Ideal.ofBits .f32 0x00000000#32 : EReal) + _ + _ + _ + _ = _
  rw [Ideal.ofBits_zero_f32, zero_add]

theorem hz : (![0, 0] : Fin 2 → Nat) = fun _ => 0 := funext fun a => by fin_cases a <;> rfl

/-- The printed index maps over the grid: the row-blocked windows sit at block (t, 0), the parameter window at block 0. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 3) = 0 ∧ win3_2.index t (1 : Fin 3) = 0 ∧ win3_2.index t (2 : Fin 3) = 0
    ∧ win3_3.index t (0 : Fin 2) = t.val ∧ win3_3.index t (1 : Fin 2) = 0 ∧ t.val < 100 :=
  (by decide +kernel : ∀ t : Fin grid3.N, _)

/-- The source-row window's block at point t is rows 6000 t … 6000 t + 5999 of its array. -/
theorem rows_at (c : Dev nD) (t : Fin cfg3.N) (p : Fin 6000) (k : Fin 128) (P : Fin 600000) (hP : P.val = t.val * 6000 + p.val) :
    (iblk3 (F := Ideal) V c 0 t : Vec Ideal S6000x128 .f32) (ix2 p k) = (V c main_v20 : S600000x128.Idx → EReal) (ix2 P k) := by
  obtain ⟨e0, e1, -⟩ := idx_facts t
  unfold iblk3
  rw [View.read_apply]
  show V c main_v20 _ = V c main_v20 _
  congr 1
  funext a
  apply Fin.ext
  match a with
  | ⟨0, _⟩ => show win3_0.index t (0 : Fin 2) * 6000 + 1 * p.val = P.val; omega
  | ⟨1, _⟩ => show win3_0.index t (1 : Fin 2) * 128 + 1 * k.val = k.val; omega

/-- The edge-type window's block at point t is rows 6000 t … 6000 t + 5999 of its array. -/
theorem types_at (c : Dev nD) (t : Fin cfg3.N) (p : Fin 6000) (P : Fin 600000) (hP : P.val = t.val * 6000 + p.val) :
    (iblk3 (F := Ideal) V c 1 t : Vec Ideal S6000x1 .i32) (ix2 p (0 : Fin 1)) = (V c main_v5 : S600000x1.Idx → BitVec 32) (ix2 P (0 : Fin 1)) := by
  obtain ⟨-, -, e0, e1, -⟩ := idx_facts t
  unfold iblk3
  rw [View.read_apply]
  show V c main_v5 _ = V c main_v5 _
  congr 1
  funext a
  apply Fin.ext
  match a with
  | ⟨0, _⟩ => show win3_1.index t (0 : Fin 2) * 6000 + 1 * p.val = P.val; omega
  | ⟨1, _⟩ => show win3_1.index t (1 : Fin 2) * 1 + 1 * 0 = 0; omega

/-- Slab o of the parameter window's block, which is the whole array, is slab o of the array. -/
theorem slab_at (c : Dev nD) (t : Fin cfg3.N) (o : Nat) (ho : o < 4) (inb : ∀ a, (![o, 0, 0] : Fin 3 → Nat) a + S1x128x128.size a ≤ S4x128x128.size a) (k q : Fin 128) :
    View.ld (iblk3 (F := Ideal) V c 2 t : Vec Ideal S4x128x128 .f32) (Rect.unit (s := S4x128x128) ![o, 0, 0] S1x128x128.size inb) (ix3 (0 : Fin 1) k q)
      = (V c main_v22 : S4x128x128.Idx → EReal) (ix3 (⟨o, ho⟩ : Fin 4) k q) := by
  obtain ⟨-, -, -, -, e0, e1, e2, -⟩ := idx_facts t
  unfold iblk3
  show (((cfg3.win 2).blk t).view.read (Elt Ideal) (V c main_v22)) _ = _
  rw [View.read_apply]
  show V c main_v22 _ = V c main_v22 _
  congr 1
  funext a
  apply Fin.ext
  match a with
  | ⟨0, _⟩ => show win3_2.index t (0 : Fin 3) * 4 + 1 * (o + 1 * 0) = o; omega
  | ⟨1, _⟩ => show win3_2.index t (1 : Fin 3) * 128 + 1 * (0 + 1 * k.val) = k.val; omega
  | ⟨2, _⟩ => show win3_2.index t (2 : Fin 3) * 128 + 1 * (0 + 1 * q.val) = q.val; omega

/-- What point t writes back is block t of the message array of the arrays the region found. -/
theorem flushed_eq (c : Dev nD) (t : Fin cfg3.N) :
    (dat3 (F := Ideal) V c).flushed 3 t
      = ((cfg3.win 3).blk t).view.read (Elt Ideal) (Cert.Spec.msgArr (V c main_v20) (V c main_v5) (V c main_v22)) := by
  show (cfg3.win 3).cut (grid3.coords t) ((dat3 V c).after 3 t) = _
  rw [after3_3]
  unfold out3_3
  rw [View.canon_unit_zero hz]
  simp only [View.ld_unit_zero (S := S6000x128) hz, View.ld_unit_zero (S := S6000x1) hz]
  obtain ⟨-, -, -, -, -, -, -, e0, e1, ht⟩ := idx_facts t
  funext j
  have hj0 : (j 0).val < 6000 := (j 0).isLt
  have hj1 : (j 1).val < 128 := (j 1).isLt
  obtain ⟨p, hp⟩ : ∃ p : Fin 6000, p.val = (j 0).val := ⟨⟨(j 0).val, hj0⟩, rfl⟩
  obtain ⟨q, hq⟩ : ∃ q : Fin 128, q.val = (j 1).val := ⟨⟨(j 1).val, hj1⟩, rfl⟩
  obtain ⟨P, hP⟩ : ∃ P : Fin 600000, P.val = t.val * 6000 + p.val := ⟨⟨t.val * 6000 + p.val, by omega⟩, rfl⟩
  have hl : (cfg3.win 3).xinj (grid3.coords t) j = ix2 p q :=
    funext fun a => Fin.ext (match a with | ⟨0, _⟩ => hp.symm | ⟨1, _⟩ => hq.symm)
  have hr : ((cfg3.win 3).blk t).view.emb j = ix2 P q := by
    funext a
    apply Fin.ext
    match a with
    | ⟨0, _⟩ => show win3_3.index t (0 : Fin 2) * 6000 + 1 * (j 0).val = P.val; omega
    | ⟨1, _⟩ => show win3_3.index t (1 : Fin 2) * 128 + 1 * (j 1).val = q.val; omega
  show k3_pay1 (F := Ideal) _ _ _ _ _ _ ((cfg3.win 3).xinj (grid3.coords t) j)
      = Cert.Spec.msgArr (V c main_v20) (V c main_v5) (V c main_v22) (((cfg3.win 3).blk t).view.emb j)
  rw [hl, hr]
  refine (pay_at _ _ _ _ _ _ p q).trans ?_
  have hx : ∀ k : Fin 128, (iblk3 (F := Ideal) V c 0 t : Vec Ideal S6000x128 .f32) (ix2 p k) = (V c main_v20 : S600000x128.Idx → EReal) (ix2 P k) :=
    fun k => rows_at V c t p k P hP
  have hty : (iblk3 (F := Ideal) V c 1 t : Vec Ideal S6000x1 .i32) (ix2 p (0 : Fin 1)) = (V c main_v5 : S600000x1.Idx → BitVec 32) (ix2 P (0 : Fin 1)) :=
    types_at V c t p P hP
  simp only [hx, hty, slab_at V c t 0 (by decide), slab_at V c t 1 (by decide), slab_at V c t 2 (by decide), slab_at V c t 3 (by decide)]
  show _ = Cert.Spec.msgRow (fun k => V c main_v20 (ix2 P k)) (V c main_v5 (ix2 P (0 : Fin 1))) (V c main_v22) q
  unfold Cert.Spec.msgRow
  rw [Fin.sum_univ_four]
  refine congrArg₂ (· + ·) (congrArg₂ (· + ·) (congrArg₂ (· + ·) ?_ ?_) ?_) ?_ <;>
    exact Finset.sum_congr rfl fun k _ => rfl

/-- An index of the array is in point t's block iff each coordinate is in the block's range on its axis. -/
theorem mem_blk (t : Fin cfg3.N) (i : S600000x128.Idx) :
    i ∈ ((cfg3.win 3).blk t).view.set ↔ ∀ a : Fin 2, win3_3.index t a * S6000x128.size a ≤ (i a).val ∧ (i a).val < win3_3.index t a * S6000x128.size a + S6000x128.size a := by
  show i ∈ ((View.whole main_v23).slice (win3_3.rect t)).set ↔ _
  rw [View.set_slice_whole, Rect.mem_set_unit]
  exact Iff.rfl

/-- Every row of the array is in the block of the point its row block names. -/
theorem cover (i : S600000x128.Idx) : ∃ t : Fin cfg3.N, (cfg3.win 3).flush t = true ∧ i ∈ ((cfg3.win 3).blk t).view.set := by
  have hi0 : (i 0).val < 600000 := (i 0).isLt
  have hi1 : (i 1).val < 128 := (i 1).isLt
  have hN : cfg3.N = 100 := N_3
  let t : Fin cfg3.N := ⟨(i 0).val / 6000, by rw [hN]; omega⟩
  obtain ⟨-, -, -, -, -, -, -, e0, e1, -⟩ := idx_facts t
  have ht : t.val = (i 0).val / 6000 := rfl
  refine ⟨t, flush3_3 t, ?_⟩
  rw [mem_blk]
  intro a
  match a with
  | ⟨0, _⟩ => show win3_3.index t (0 : Fin 2) * 6000 ≤ (i 0).val ∧ (i 0).val < win3_3.index t (0 : Fin 2) * 6000 + 6000; omega
  | ⟨1, _⟩ => show win3_3.index t (1 : Fin 2) * 128 ≤ (i 1).val ∧ (i 1).val < win3_3.index t (1 : Fin 2) * 128 + 128; omega

end R3

/-- After the region its output array is the message array of the arrays the region found. -/
theorem arr3 (c : Dev nD) :
    (dat3 (F := Ideal) V c).arrAt 3 cfg3.N = Cert.Spec.msgArr (V c main_v20) (V c main_v5) (V c main_v22) :=
  (dat3 (F := Ideal) V c).arrAt_eq_of_cover 3 _ (fun t _ => R3.flushed_eq V c t) R3.cover

end Cert.KernelIdeal.KVal
end
-- ==== Proof.KReg4.lean ====
/-
  The node-update region, read as one array.

  The region runs over 10 grid points; point t holds rows 5000 t … 5000 t + 4999 of the x array and of the agg
  array, the whole root matrix and the whole one-row bias array, and leaves in its output block, at (p, q),

      leaky ((agg (p, q) + Σ k, x (p, k) · root (k, q)) + bias (0, q)),

  leaky y being y for y > 0 and slope · y otherwise. The 10 output blocks tile the output array, so after the
  region the output array is Cert.Spec.updArr of the four arrays the region found.

  In order: the value the body stores, at an index (the block product into a zero accumulator as a plain sum over
  the contracted coordinate, the format changes being the identity on extended reals; the select on "above zero"
  as leaky); each window's block at a point as rows of its array; what a point writes back; the blocks cover the
  array; the array.
-/
import proofs.«411858_j26792005992743_1_alg».proof.Proof.Gen.KernelIdeal.Frame
import proofs.«411858_j26792005992743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace R4

/-! ## The stored value at an index -/

/-- The all-zero offsets of a whole-buffer rectangle, as a constant function. -/
theorem hz : (![0, 0] : Fin 2 → Nat) = fun _ => 0 := funext fun a => by fin_cases a <;> rfl

/-- Select on "y above zero" between y and slope · y is the leaky function of y. -/
theorem leaky_sel (y : EReal) :
    Scalar.select (Ideal.cmp .ogt y (Ideal.ofBits .f32 0x00000000#32)) y (Ideal.ofBits .f32 0x3C23D70A#32 * y)
      = Cert.Spec.leaky y := by
  unfold Cert.Spec.leaky Cert.Spec.slope Scalar.select Ideal.cmp
  rw [Ideal.ofBits_zero_f32]
  by_cases h : 0 < y
  · simp [h]
  · simp [h]

/-- The left operand's index at output (p, q) and contraction coordinate c is (p, c). -/
theorem lhs_idx (p : Fin 5000) (q : Fin 128) (c : Fin 128) :
    dot_S5000x128_S128x128_S5000x128_1_0_0_1_n_n.lhsIdx (ix2 p q)
      ((contrEquiv1 dot_S5000x128_S128x128_S5000x128_1_0_0_1_n_n 128 rfl rfl).symm c) = ix2 p c := by
  have c2 := contrEquiv1_symm_val dot_S5000x128_S128x128_S5000x128_1_0_0_1_n_n 128 rfl rfl c
  funext ax; apply Fin.ext
  match ax with
  | ⟨0, _⟩ => simp [DotDims.lhsIdx, dot_S5000x128_S128x128_S5000x128_1_0_0_1_n_n]; rfl
  | ⟨1, _⟩ => simp [DotDims.lhsIdx, dot_S5000x128_S128x128_S5000x128_1_0_0_1_n_n]; exact c2

/-- The right operand's index at output (p, q) and contraction coordinate c is (c, q). -/
theorem rhs_idx (p : Fin 5000) (q : Fin 128) (c : Fin 128) :
    dot_S5000x128_S128x128_S5000x128_1_0_0_1_n_n.rhsIdx (ix2 p q)
      ((contrEquiv1 dot_S5000x128_S128x128_S5000x128_1_0_0_1_n_n 128 rfl rfl).symm c) = ix2 c q := by
  have c2 := contrEquiv1_symm_val dot_S5000x128_S128x128_S5000x128_1_0_0_1_n_n 128 rfl rfl c
  funext ax; apply Fin.ext
  match ax with
  | ⟨0, _⟩ => simp [DotDims.rhsIdx, dot_S5000x128_S128x128_S5000x128_1_0_0_1_n_n]; exact c2
  | ⟨1, _⟩ => simp [DotDims.rhsIdx, dot_S5000x128_S128x128_S5000x128_1_0_0_1_n_n]; rfl

/-- The block product into a zero accumulator, read at (p, q): Σ k, A (p, k) · B (k, q). -/
theorem mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  rw [lhs_idx, rhs_idx]

/-- The sum under the leaky function, read at (p, q): (agg (p, q) + Σ k, x (p, k) · root (k, q)) + bias (0, q). The
    format changes are the identity on extended reals; the one-row array read at every row is its row 0. -/
theorem pre_apply (x0 : Vec Ideal S5000x128 .f32) (rt : Vec Ideal S128x128 .f32) (ag : Vec Ideal S5000x128 .f32)
    (b : Vec Ideal S1x128 .f32) (h1 : FTy.bf16.bits < FTy.f32.bits) (h2 : FTy.bf16.bits < FTy.f32.bits)
    (hb : S1x128.Broadcasts S5000x128) (p : Fin 5000) (q : Fin 128) :
    addf (addf ag (matmul dot_S5000x128_S128x128_S5000x128_1_0_0_1_n_n none (truncf .bf16 x0 h1) (truncf .bf16 rt h2)
        (constant (F := Ideal) S5000x128 .f32 0x00000000#32))) (broadcastTo S5000x128 b hb) (ix2 p q)
      = (ag (ix2 p q) + ∑ k : Fin 128, x0 (ix2 p k) * rt (ix2 k q)) + b (ix2 (0 : Fin 1) q) := by
  rw [addf_apply, addf_apply, mm_apply, broadcastTo_1b_ab_apply]
  rfl

/-- THE STORED VALUE AT (p, q): the node update of row p of the x block and of the agg block, the root matrix and
    the bias entry of column q. -/
theorem pay_apply (x0 : Vec Ideal S5000x128 .f32) (rt : Vec Ideal S128x128 .f32) (ag : Vec Ideal S5000x128 .f32)
    (b : Vec Ideal S1x128 .f32) (p : Fin 5000) (q : Fin 128) :
    k4_pay1 x0 rt ag b (ix2 p q)
      = Cert.Spec.updRow (fun k => x0 (ix2 p k)) (fun k => ag (ix2 p k)) rt (b (ix2 (0 : Fin 1) q)) q := by
  unfold k4_pay1 Cert.Spec.updRow
  simp only [shapeCast_self]
  refine Eq.trans ?_ (congrArg Cert.Spec.leaky
    (pre_apply x0 rt ag b bitsLt_bf16_f32 bitsLt_bf16_f32 broadcasts_S1x128_S5000x128 p q))
  exact leaky_sel _

/-- The stored value as one function of its index. -/
theorem pay_eq (x0 : Vec Ideal S5000x128 .f32) (rt : Vec Ideal S128x128 .f32) (ag : Vec Ideal S5000x128 .f32)
    (b : Vec Ideal S1x128 .f32) :
    k4_pay1 x0 rt ag b = fun i : S5000x128.Idx =>
      Cert.Spec.updRow (fun k => x0 (ix2 (i 0) k)) (fun k => ag (ix2 (i 0) k)) rt (b (ix2 (0 : Fin 1) (i 1))) (i 1) := by
  funext i
  obtain ⟨p, q, rfl⟩ : ∃ (p : Fin 5000) (q : Fin 128), i = ix2 p q := ⟨i 0, i 1, eq_ix2 i⟩
  exact pay_apply x0 rt ag b p q

/-! ## The windows' blocks as rows of their arrays -/

/-- The index maps over the grid: the x, agg and output windows sit at row block t, column block 0; the root and
    bias windows at block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- The x block at point t is rows 5000 t … 5000 t + 4999 of the x array. -/
theorem xblk_apply (c : Dev nD) (t : Fin cfg4.N) (p : Fin 5000) (k : Fin 128) (r : Fin 50000)
    (hr : r.val = t.val * 5000 + p.val) :
    (iblk4 (F := Ideal) V c 0 t : Vec Ideal S5000x128 .f32) (ix2 p k)
      = (V c main_v19 : S50000x128.Idx → EReal) (ix2 r k) := by
  obtain ⟨e00, e01, e10, e11, e20, e21, e30, e31, e40, e41⟩ := idx_facts t
  unfold iblk4
  rw [View.read_apply]
  show V c main_v19 _ = V c main_v19 _
  congr 1
  funext a
  apply Fin.ext
  match a with
  | ⟨0, _⟩ => show win4_0.index t (0 : Fin 2) * 5000 + 1 * p.val = r.val; omega
  | ⟨1, _⟩ => show win4_0.index t (1 : Fin 2) * 128 + 1 * k.val = k.val; omega

/-- The agg block at point t is the same rows of the agg array. -/
theorem aggblk_apply (c : Dev nD) (t : Fin cfg4.N) (p : Fin 5000) (k : Fin 128) (r : Fin 50000)
    (hr : r.val = t.val * 5000 + p.val) :
    (iblk4 (F := Ideal) V c 1 t : Vec Ideal S5000x128 .f32) (ix2 p k)
      = (V c main_v26 : S50000x128.Idx → EReal) (ix2 r k) := by
  obtain ⟨e00, e01, e10, e11, e20, e21, e30, e31, e40, e41⟩ := idx_facts t
  unfold iblk4
  rw [View.read_apply]
  show V c main_v26 _ = V c main_v26 _
  congr 1
  funext a
  apply Fin.ext
  match a with
  | ⟨0, _⟩ => show win4_1.index t (0 : Fin 2) * 5000 + 1 * p.val = r.val; omega
  | ⟨1, _⟩ => show win4_1.index t (1 : Fin 2) * 128 + 1 * k.val = k.val; omega

/-- The root window's one block is the root array. -/
theorem rootblk_eq (c : Dev nD) (t : Fin cfg4.N) :
    (iblk4 (F := Ideal) V c 2 t : Vec Ideal S128x128 .f32) = (V c main_v31 : S128x128.Idx → EReal) := by
  obtain ⟨e00, e01, e10, e11, e20, e21, e30, e31, e40, e41⟩ := idx_facts t
  funext y
  unfold iblk4
  rw [View.read_apply]
  show V c main_v31 _ = V c main_v31 _
  congr 1
  funext a
  apply Fin.ext
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- The bias window's one block is the bias array. -/
theorem biasblk_eq (c : Dev nD) (t : Fin cfg4.N) :
    (iblk4 (F := Ideal) V c 3 t : Vec Ideal S1x128 .f32) = (V c main_v29 : S1x128.Idx → EReal) := by
  obtain ⟨e00, e01, e10, e11, e20, e21, e30, e31, e40, e41⟩ := idx_facts t
  funext y
  unfold iblk4
  rw [View.read_apply]
  show V c main_v29 _ = V c main_v29 _
  congr 1
  funext a
  apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

/-! ## From the blocks to the array -/

/-- WHAT POINT t WRITES BACK is block t of the node update of the arrays the region found. -/
theorem flushed_eq (c : Dev nD) (t : Fin cfg4.N) :
    (dat4 (F := Ideal) V c).flushed 4 t = ((cfg4.win 4).blk t).view.read (Elt Ideal)
      (Cert.Spec.updArr (V c main_v19) (V c main_v26) (V c main_v31) (V c main_v29)) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz,
    View.ld_unit_zero (S := S1x128) hz]
  rw [pay_eq, rootblk_eq, biasblk_eq]
  obtain ⟨e00, e01, e10, e11, e20, e21, e30, e31, e40, e41⟩ := idx_facts t
  funext j
  rw [View.read_apply]
  have hj0 : (j 0).val < 5000 := (j 0).isLt
  have hj1 : (j 1).val < 128 := (j 1).isLt
  have hr : (((cfg4.win 4).blk t).view.emb j (0 : Fin 2)).val = t.val * 5000 + (j 0).val := by
    show win4_4.index t (0 : Fin 2) * 5000 + 1 * (j 0).val = _; omega
  have hq : (((cfg4.win 4).blk t).view.emb j (1 : Fin 2)) = (⟨(j 1).val, hj1⟩ : Fin 128) := by
    apply Fin.ext
    show win4_4.index t (1 : Fin 2) * 128 + 1 * (j 1).val = (j 1).val; omega
  show Cert.Spec.updRow (fun k => iblk4 V c 0 t (ix2 ⟨(j 0).val, hj0⟩ k)) (fun k => iblk4 V c 1 t (ix2 ⟨(j 0).val, hj0⟩ k))
      (V c main_v31) (V c main_v29 (ix2 (0 : Fin 1) ⟨(j 1).val, hj1⟩)) ⟨(j 1).val, hj1⟩
    = Cert.Spec.updRow (fun k => V c main_v19 (ix2 (((cfg4.win 4).blk t).view.emb j (0 : Fin 2)) k))
        (fun k => V c main_v26 (ix2 (((cfg4.win 4).blk t).view.emb j (0 : Fin 2)) k)) (V c main_v31)
        (V c main_v29 (ix2 (0 : Fin 1) (((cfg4.win 4).blk t).view.emb j (1 : Fin 2)))) (((cfg4.win 4).blk t).view.emb j (1 : Fin 2))
  rw [hq]
  congr 1
  · funext k; exact xblk_apply V c t _ k _ hr
  · funext k; exact aggblk_apply V c t _ k _ hr

/-- An index of the output array is in point t's block iff each coordinate is in the block's range on its axis. -/
theorem mem_blk (t : Fin cfg4.N) (i : S50000x128.Idx) :
    i ∈ ((cfg4.win 4).blk t).view.set ↔ ∀ a : Fin 2, win4_4.index t a * S5000x128.size a ≤ (i a).val
      ∧ (i a).val < win4_4.index t a * S5000x128.size a + S5000x128.size a := by
  show i ∈ ((View.whole main_v32).slice (win4_4.rect t)).set ↔ _
  rw [View.set_slice_whole, Rect.mem_set_unit]
  exact Iff.rfl

/-- Every index of the output array is in some point's block: row r is in the block of point r / 5000. -/
theorem cover (i : S50000x128.Idx) :
    ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e00, e01, e10, e11, e20, e21, e30, e31, e40, e41⟩ := idx_facts t
  refine ⟨t, flush4_4 t, ?_⟩
  rw [mem_blk]
  intro a
  match a with
  | ⟨0, _⟩ =>
    show win4_4.index t (0 : Fin 2) * 5000 ≤ (i 0).val ∧ (i 0).val < win4_4.index t (0 : Fin 2) * 5000 + 5000
    omega
  | ⟨1, _⟩ =>
    show win4_4.index t (1 : Fin 2) * 128 ≤ (i 1).val ∧ (i 1).val < win4_4.index t (1 : Fin 2) * 128 + 128
    omega

end R4

/-- THE OUTPUT ARRAY after the region: the node update of the x, agg, root and bias arrays the region found. -/
theorem arr4 (c : Dev nD) :
    (dat4 (F := Ideal) V c).arrAt 4 cfg4.N = Cert.Spec.updArr (V c main_v19) (V c main_v26) (V c main_v31) (V c main_v29) :=
  (dat4 V c).arrAt_eq_of_cover 4 _ (fun t _ => R4.flushed_eq V c t) R4.cover

end Cert.KernelIdeal.KVal

end
-- ==== Proof.KReg5.lean ====
/-
  The message kernel's region, over the extended reals: after the region its output array is, index by index,
  the message array of the three arrays the region found —
    out[e, q] = Σ r < 4, Σ k < 128, (x[e, k] · [type[e] = r]) · W[r, k, q].

  • One grid point's payload at (p, q): the four relation terms, each a product into a zero accumulator, i.e. the
    sum over the contracted coordinate of (x[p, k] · mask_r[p]) · W_r[k, q], added in the order r = 0, 1, 2, 3 onto
    zero; the mask is the comparison word of the edge's type with r, widened and read as a number: 1 or 0.
  • The blocks: the source-row and edge-type windows' blocks at point t are rows 6000 t … 6000 t + 5999 of their
    arrays; the parameter window's block is its whole array, whose slab r is W[r].
  • So point t writes back block t of the message array, and since every row lies in the block of the point
    row / 6000, the output array ends as the message array.
-/
import proofs.«411858_j26792005992743_1_alg».proof.Proof.Gen.KernelIdeal.Frame
import proofs.«411858_j26792005992743_1_alg».proof.Proof.Spec
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.KVal
open Cert.KernelIdeal Cert.KernelIdeal.Gen Idealize.ShloMosaic Idealize.ShloMosaic.TcCoe Idealize.SL.Sem
open Idealize.ShloMosaic.Pipeline (Dat)
open Idealize.ShloMosaic.ValueIdx
open scoped BigOperators
variable (V : (c : Dev nD) → (b : Ref sig .tc) → Buf (Elt Ideal) ((c : Thread nD τ).loc b))

namespace R5

/-- The comparison word of two 32-bit words, widened and read as a number, is 1 when they agree and 0 otherwise. -/
theorem sitofp_cmpi_eq (a b : BitVec 32) :
    FloatOps.sitofp (F := Ideal) .f32 ((IntOp.cmpi .eq a b).setWidth 32) = Cert.Spec.hot a b := by
  unfold Cert.Spec.hot
  show (((((IntOp.cmpi .eq a b).setWidth 32).toInt : ℤ) : ℝ) : EReal) = _
  by_cases h : a = b
  · subst h
    have e : IntOp.cmpi .eq a a = 1#1 := by simp [IntOp.cmpi]
    rw [e, if_pos rfl]
    norm_num
  · have hb : (a == b) = false := beq_eq_false_iff_ne.mpr h
    have e : IntOp.cmpi .eq a b = 0#1 := by simp [IntOp.cmpi, hb]
    rw [e, if_neg h]
    norm_num

/-- A column [a,1] broadcast to [a,b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's operand indices at output index i and contracted coordinate k: the left operand is read at
    (row of i, k) and the right operand at (k, column of i) — one equation per operand axis. -/
theorem lhs_ax0 (i : S6000x128.Idx) (q : dot_S6000x128_S128x128_S6000x128_1_0_0_1_n_n.contr.Idx) :
    (dot_S6000x128_S128x128_S6000x128_1_0_0_1_n_n.lhsIdx i q 0).val = (i 0).val := by
  unfold DotDims.lhsIdx
  rw [dif_neg (show ¬(0 : Fin S6000x128.rank) ∈ dot_S6000x128_S128x128_S6000x128_1_0_0_1_n_n.lhsBatch by decide), dif_pos (show (0 : Fin S6000x128.rank) ∈ dot_S6000x128_S128x128_S6000x128_1_0_0_1_n_n.lhsNonContracting by decide)]
  rfl
theorem lhs_ax1 (i : S6000x128.Idx) (q : dot_S6000x128_S128x128_S6000x128_1_0_0_1_n_n.contr.Idx) :
    (dot_S6000x128_S128x128_S6000x128_1_0_0_1_n_n.lhsIdx i q 1).val = (q ⟨0, by decide⟩).val :=
  dot_S6000x128_S128x128_S6000x128_1_0_0_1_n_n.lhsIdx_val_of_single rfl i q
theorem rhs_ax0 (i : S6000x128.Idx) (q : dot_S6000x128_S128x128_S6000x128_1_0_0_1_n_n.contr.Idx) :
    (dot_S6000x128_S128x128_S6000x128_1_0_0_1_n_n.rhsIdx i q 0).val = (q ⟨0, by decide⟩).val :=
  dot_S6000x128_S128x128_S6000x128_1_0_0_1_n_n.rhsIdx_val_of_single rfl i q
theorem rhs_ax1 (i : S6000x128.Idx) (q : dot_S6000x128_S128x128_S6000x128_1_0_0_1_n_n.contr.Idx) :
    (dot_S6000x128_S128x128_S6000x128_1_0_0_1_n_n.rhsIdx i q 1).val = (i 1).val := by
  unfold DotDims.rhsIdx
  rw [dif_neg (show ¬(1 : Fin S128x128.rank) ∈ dot_S6000x128_S128x128_S6000x128_1_0_0_1_n_n.rhsBatch by decide), dif_pos (show (1 : Fin S128x128.rank) ∈ dot_S6000x128_S128x128_S6000x128_1_0_0_1_n_n.rhsNonContracting by decide)]
  rfl

/-- The product into a zero accumulator, read at (p, q): the sum over the contracted coordinate. -/
theorem matmul_at (A : FVec Ideal S6000x128 .bf16) (B : FVec Ideal S128x128 .bf16) (p : Fin 6000) (q : Fin 128) :
    matmul dot_S6000x128_S128x128_S6000x128_1_0_0_1_n_n none A B (constant (F := Ideal) S6000x128 .f32 0x00000000#32) (ix2 p q)
      = ∑ k : Fin 128, A (ix2 p k) * B (ix2 k q) := by
  show FloatOps.matmul _ none A B _ (ix2 p q) = _
  rw [Ideal.matmul_constant_zero_apply, ← Equiv.sum_comp (contrEquiv1 dot_S6000x128_S128x128_S6000x128_1_0_0_1_n_n 128 rfl rfl).symm]
  refine Finset.sum_congr rfl fun k _ => ?_
  have hk := contrEquiv1_symm_val dot_S6000x128_S128x128_S6000x128_1_0_0_1_n_n 128 rfl rfl k
  have el : dot_S6000x128_S128x128_S6000x128_1_0_0_1_n_n.lhsIdx (ix2 p q) ((contrEquiv1 dot_S6000x128_S128x128_S6000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S6000x128_S128x128_S6000x128_1_0_0_1_n_n.rhsIdx (ix2 p q) ((contrEquiv1 dot_S6000x128_S128x128_S6000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The edge-type block is read as it is. -/
theorem pay3_eq (x1 : Vec Ideal S6000x1 .i32) : k5_pay3 x1 = x1 := by
  unfold k5_pay3; exact shapeCast_self _ _

/-- The source-row block, narrowed, is read as it is over the extended reals. -/
theorem pay2_at (x0 : Vec Ideal S6000x128 .f32) (i : S6000x128.Idx) : k5_pay2 x0 i = x0 i := by
  unfold k5_pay2; rw [truncf_apply, shapeCast_self]

/-- The relation mask of edge p, at any column: 1 when the edge's type word is r, 0 otherwise. -/
theorem mask_at (x1 : Vec Ideal S6000x1 .i32) (r : BitVec 32) (p : Fin 6000) (k : Fin 128) :
    (broadcastTo S6000x128 (truncf .bf16 (sitofp (F := Ideal) .f32 (extui 32 (cmpi .eq (k5_pay3 x1) (broadcast S6000x1 r)) natLt_1_32)) bitsLt_bf16_f32) broadcasts_S6000x1_S6000x128 : FVec Ideal S6000x128 .bf16) (ix2 p k)
      = Cert.Spec.hot (x1 (ix2 p (0 : Fin 1))) r := by
  refine (broadcastTo_a1_ab_apply _ _ p k).trans ?_
  rw [pay3_eq]
  exact sitofp_cmpi_eq _ _

/-- One relation's term read at (p, q): Σ k, (x[p,k] · mask) · W[0,k,q]. -/
theorem term_at (x0 : Vec Ideal S6000x128 .f32) (x1 : Vec Ideal S6000x1 .i32) (r : BitVec 32) (Wr : Vec Ideal S1x128x128 .f32) (p : Fin 6000) (q : Fin 128) :
    matmul dot_S6000x128_S128x128_S6000x128_1_0_0_1_n_n none
        (mulf (k5_pay2 x0) (broadcastTo S6000x128 (truncf .bf16 (sitofp (F := Ideal) .f32 (extui 32 (cmpi .eq (k5_pay3 x1) (broadcast S6000x1 r)) natLt_1_32)) bitsLt_bf16_f32) broadcasts_S6000x1_S6000x128))
        (truncf .bf16 (shapeCast S128x128 Wr shapeCasts_S1x128x128_S128x128) bitsLt_bf16_f32)
        (constant (F := Ideal) S6000x128 .f32 0x00000000#32) (ix2 p q)
      = ∑ k : Fin 128, (x0 (ix2 p k) * Cert.Spec.hot (x1 (ix2 p (0 : Fin 1))) r) * Wr (ix3 (0 : Fin 1) k q) := by
  refine (matmul_at _ _ p q).trans (Finset.sum_congr rfl fun k _ => ?_)
  rw [mulf_apply, mask_at, truncf_apply, shapeCast_1ab_ab_apply, pay2_at]

/-- One grid point's payload read at (p, q): the four relation terms added in the order r = 0, 1, 2, 3. -/
theorem pay_at (x0 : Vec Ideal S6000x128 .f32) (x1 : Vec Ideal S6000x1 .i32) (W0 W1 W2 W3 : Vec Ideal S1x128x128 .f32) (p : Fin 6000) (q : Fin 128) :
    k5_pay1 (k5_pay2 x0) (k5_pay3 x1) (k5_pay4 x0 x1 W0 W1) (k5_pay5 x0 x1) (k5_pay6 W2) W3 (ix2 p q)
      = (((∑ k : Fin 128, (x0 (ix2 p k) * Cert.Spec.hot (x1 (ix2 p (0 : Fin 1))) 0#32) * W0 (ix3 (0 : Fin 1) k q))
          + ∑ k : Fin 128, (x0 (ix2 p k) * Cert.Spec.hot (x1 (ix2 p (0 : Fin 1))) 1#32) * W1 (ix3 (0 : Fin 1) k q))
          + ∑ k : Fin 128, (x0 (ix2 p k) * Cert.Spec.hot (x1 (ix2 p (0 : Fin 1))) 2#32) * W2 (ix3 (0 : Fin 1) k q))
          + ∑ k : Fin 128, (x0 (ix2 p k) * Cert.Spec.hot (x1 (ix2 p (0 : Fin 1))) 3#32) * W3 (ix3 (0 : Fin 1) k q) := by
  unfold k5_pay1 k5_pay4 k5_pay5 k5_pay6
  simp only [addf_apply]
  rw [term_at, term_at, term_at, term_at, broadcast_apply]
  show (Ideal.ofBits .f32 0x00000000#32 : EReal) + _ + _ + _ + _ = _
  rw [Ideal.ofBits_zero_f32, zero_add]

theorem hz : (![0, 0] : Fin 2 → Nat) = fun _ => 0 := funext fun a => by fin_cases a <;> rfl

/-- The printed index maps over the grid: the row-blocked windows sit at block (t, 0), the parameter window at block 0. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 3) = 0 ∧ win5_2.index t (1 : Fin 3) = 0 ∧ win5_2.index t (2 : Fin 3) = 0
    ∧ win5_3.index t (0 : Fin 2) = t.val ∧ win5_3.index t (1 : Fin 2) = 0 ∧ t.val < 100 :=
  (by decide +kernel : ∀ t : Fin grid5.N, _)

/-- The source-row window's block at point t is rows 6000 t … 6000 t + 5999 of its array. -/
theorem rows_at (c : Dev nD) (t : Fin cfg5.N) (p : Fin 6000) (k : Fin 128) (P : Fin 600000) (hP : P.val = t.val * 6000 + p.val) :
    (iblk5 (F := Ideal) V c 0 t : Vec Ideal S6000x128 .f32) (ix2 p k) = (V c main_v33 : S600000x128.Idx → EReal) (ix2 P k) := by
  obtain ⟨e0, e1, -⟩ := idx_facts t
  unfold iblk5
  rw [View.read_apply]
  show V c main_v33 _ = V c main_v33 _
  congr 1
  funext a
  apply Fin.ext
  match a with
  | ⟨0, _⟩ => show win5_0.index t (0 : Fin 2) * 6000 + 1 * p.val = P.val; omega
  | ⟨1, _⟩ => show win5_0.index t (1 : Fin 2) * 128 + 1 * k.val = k.val; omega

/-- The edge-type window's block at point t is rows 6000 t … 6000 t + 5999 of its array. -/
theorem types_at (c : Dev nD) (t : Fin cfg5.N) (p : Fin 6000) (P : Fin 600000) (hP : P.val = t.val * 6000 + p.val) :
    (iblk5 (F := Ideal) V c 1 t : Vec Ideal S6000x1 .i32) (ix2 p (0 : Fin 1)) = (V c main_v5 : S600000x1.Idx → BitVec 32) (ix2 P (0 : Fin 1)) := by
  obtain ⟨-, -, e0, e1, -⟩ := idx_facts t
  unfold iblk5
  rw [View.read_apply]
  show V c main_v5 _ = V c main_v5 _
  congr 1
  funext a
  apply Fin.ext
  match a with
  | ⟨0, _⟩ => show win5_1.index t (0 : Fin 2) * 6000 + 1 * p.val = P.val; omega
  | ⟨1, _⟩ => show win5_1.index t (1 : Fin 2) * 1 + 1 * 0 = 0; omega

/-- Slab o of the parameter window's block, which is the whole array, is slab o of the array. -/
theorem slab_at (c : Dev nD) (t : Fin cfg5.N) (o : Nat) (ho : o < 4) (inb : ∀ a, (![o, 0, 0] : Fin 3 → Nat) a + S1x128x128.size a ≤ S4x128x128.size a) (k q : Fin 128) :
    View.ld (iblk5 (F := Ideal) V c 2 t : Vec Ideal S4x128x128 .f32) (Rect.unit (s := S4x128x128) ![o, 0, 0] S1x128x128.size inb) (ix3 (0 : Fin 1) k q)
      = (V c main_v35 : S4x128x128.Idx → EReal) (ix3 (⟨o, ho⟩ : Fin 4) k q) := by
  obtain ⟨-, -, -, -, e0, e1, e2, -⟩ := idx_facts t
  unfold iblk5
  show (((cfg5.win 2).blk t).view.read (Elt Ideal) (V c main_v35)) _ = _
  rw [View.read_apply]
  show V c main_v35 _ = V c main_v35 _
  congr 1
  funext a
  apply Fin.ext
  match a with
  | ⟨0, _⟩ => show win5_2.index t (0 : Fin 3) * 4 + 1 * (o + 1 * 0) = o; omega
  | ⟨1, _⟩ => show win5_2.index t (1 : Fin 3) * 128 + 1 * (0 + 1 * k.val) = k.val; omega
  | ⟨2, _⟩ => show win5_2.index t (2 : Fin 3) * 128 + 1 * (0 + 1 * q.val) = q.val; omega

/-- What point t writes back is block t of the message array of the arrays the region found. -/
theorem flushed_eq (c : Dev nD) (t : Fin cfg5.N) :
    (dat5 (F := Ideal) V c).flushed 3 t
      = ((cfg5.win 3).blk t).view.read (Elt Ideal) (Cert.Spec.msgArr (V c main_v33) (V c main_v5) (V c main_v35)) := by
  show (cfg5.win 3).cut (grid5.coords t) ((dat5 V c).after 3 t) = _
  rw [after5_3]
  unfold out5_3
  rw [View.canon_unit_zero hz]
  simp only [View.ld_unit_zero (S := S6000x128) hz, View.ld_unit_zero (S := S6000x1) hz]
  obtain ⟨-, -, -, -, -, -, -, e0, e1, ht⟩ := idx_facts t
  funext j
  have hj0 : (j 0).val < 6000 := (j 0).isLt
  have hj1 : (j 1).val < 128 := (j 1).isLt
  obtain ⟨p, hp⟩ : ∃ p : Fin 6000, p.val = (j 0).val := ⟨⟨(j 0).val, hj0⟩, rfl⟩
  obtain ⟨q, hq⟩ : ∃ q : Fin 128, q.val = (j 1).val := ⟨⟨(j 1).val, hj1⟩, rfl⟩
  obtain ⟨P, hP⟩ : ∃ P : Fin 600000, P.val = t.val * 6000 + p.val := ⟨⟨t.val * 6000 + p.val, by omega⟩, rfl⟩
  have hl : (cfg5.win 3).xinj (grid5.coords t) j = ix2 p q :=
    funext fun a => Fin.ext (match a with | ⟨0, _⟩ => hp.symm | ⟨1, _⟩ => hq.symm)
  have hr : ((cfg5.win 3).blk t).view.emb j = ix2 P q := by
    funext a
    apply Fin.ext
    match a with
    | ⟨0, _⟩ => show win5_3.index t (0 : Fin 2) * 6000 + 1 * (j 0).val = P.val; omega
    | ⟨1, _⟩ => show win5_3.index t (1 : Fin 2) * 128 + 1 * (j 1).val = q.val; omega
  show k5_pay1 (F := Ideal) _ _ _ _ _ _ ((cfg5.win 3).xinj (grid5.coords t) j)
      = Cert.Spec.msgArr (V c main_v33) (V c main_v5) (V c main_v35) (((cfg5.win 3).blk t).view.emb j)
  rw [hl, hr]
  refine (pay_at _ _ _ _ _ _ p q).trans ?_
  have hx : ∀ k : Fin 128, (iblk5 (F := Ideal) V c 0 t : Vec Ideal S6000x128 .f32) (ix2 p k) = (V c main_v33 : S600000x128.Idx → EReal) (ix2 P k) :=
    fun k => rows_at V c t p k P hP
  have hty : (iblk5 (F := Ideal) V c 1 t : Vec Ideal S6000x1 .i32) (ix2 p (0 : Fin 1)) = (V c main_v5 : S600000x1.Idx → BitVec 32) (ix2 P (0 : Fin 1)) :=
    types_at V c t p P hP
  simp only [hx, hty, slab_at V c t 0 (by decide), slab_at V c t 1 (by decide), slab_at V c t 2 (by decide), slab_at V c t 3 (by decide)]
  show _ = Cert.Spec.msgRow (fun k => V c main_v33 (ix2 P k)) (V c main_v5 (ix2 P (0 : Fin 1))) (V c main_v35) q
  unfold Cert.Spec.msgRow
  rw [Fin.sum_univ_four]
  refine congrArg₂ (· + ·) (congrArg₂ (· + ·) (congrArg₂ (· + ·) ?_ ?_) ?_) ?_ <;>
    exact Finset.sum_congr rfl fun k _ => rfl

/-- An index of the array is in point t's block iff each coordinate is in the block's range on its axis. -/
theorem mem_blk (t : Fin cfg5.N) (i : S600000x128.Idx) :
    i ∈ ((cfg5.win 3).blk t).view.set ↔ ∀ a : Fin 2, win5_3.index t a * S6000x128.size a ≤ (i a).val ∧ (i a).val < win5_3.index t a * S6000x128.size a + S6000x128.size a := by
  show i ∈ ((View.whole main_v36).slice (win5_3.rect t)).set ↔ _
  rw [View.set_slice_whole, Rect.mem_set_unit]
  exact Iff.rfl

/-- Every row of the array is in the block of the point its row block names. -/
theorem cover (i : S600000x128.Idx) : ∃ t : Fin cfg5.N, (cfg5.win 3).flush t = true ∧ i ∈ ((cfg5.win 3).blk t).view.set := by
  have hi0 : (i 0).val < 600000 := (i 0).isLt
  have hi1 : (i 1).val < 128 := (i 1).isLt
  have hN : cfg5.N = 100 := N_5
  let t : Fin cfg5.N := ⟨(i 0).val / 6000, by rw [hN]; omega⟩
  obtain ⟨-, -, -, -, -, -, -, e0, e1, -⟩ := idx_facts t
  have ht : t.val = (i 0).val / 6000 := rfl
  refine ⟨t, flush5_3 t, ?_⟩
  rw [mem_blk]
  intro a
  match a with
  | ⟨0, _⟩ => show win5_3.index t (0 : Fin 2) * 6000 ≤ (i 0).val ∧ (i 0).val < win5_3.index t (0 : Fin 2) * 6000 + 6000; omega
  | ⟨1, _⟩ => show win5_3.index t (1 : Fin 2) * 128 ≤ (i 1).val ∧ (i 1).val < win5_3.index t (1 : Fin 2) * 128 + 128; omega

end R5

/-- After the region its output array is the message array of the arrays the region found. -/
theorem arr5 (c : Dev nD) :
    (dat5 (F := Ideal) V c).arrAt 3 cfg5.N = Cert.Spec.msgArr (V c main_v33) (V c main_v5) (V c main_v35) :=
  (dat5 (F := Ideal) V c).arrAt_eq_of_cover 3 _ (fun t _ => R5.flushed_eq V c t) R5.cover

end Cert.KernelIdeal.KVal
end
-- ==== Proof.KReg6.lean ====
/-
  The node-update region, read as one array.

  The region runs over 10 grid points; point t holds rows 5000 t … 5000 t + 4999 of the x array and of the agg
  array, the whole root matrix and the whole one-row bias array, and leaves in its output block, at (p, q),

      leaky ((agg (p, q) + Σ k, x (p, k) · root (k, q)) + bias (0, q)),

  leaky y being y for y > 0 and slope · y otherwise. The 10 output blocks tile the output array, so after the
  region the output array is Cert.Spec.updArr of the four arrays the region found.

  In order: the value the body stores, at an index (the block product into a zero accumulator as a plain sum over
  the contracted coordinate, the format changes being the identity on extended reals; the select on "above zero"
  as leaky); each window's block at a point as rows of its array; what a point writes back; the blocks cover the
  array; the array.
-/
import proofs.«411858_j26792005992743_1_alg».proof.Proof.Gen.KernelIdeal.Frame
import proofs.«411858_j26792005992743_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

namespace R6

/-! ## The stored value at an index -/

/-- The all-zero offsets of a whole-buffer rectangle, as a constant function. -/
theorem hz : (![0, 0] : Fin 2 → Nat) = fun _ => 0 := funext fun a => by fin_cases a <;> rfl

/-- Select on "y above zero" between y and slope · y is the leaky function of y. -/
theorem leaky_sel (y : EReal) :
    Scalar.select (Ideal.cmp .ogt y (Ideal.ofBits .f32 0x00000000#32)) y (Ideal.ofBits .f32 0x3C23D70A#32 * y)
      = Cert.Spec.leaky y := by
  unfold Cert.Spec.leaky Cert.Spec.slope Scalar.select Ideal.cmp
  rw [Ideal.ofBits_zero_f32]
  by_cases h : 0 < y
  · simp [h]
  · simp [h]

/-- The left operand's index at output (p, q) and contraction coordinate c is (p, c). -/
theorem lhs_idx (p : Fin 5000) (q : Fin 128) (c : Fin 128) :
    dot_S5000x128_S128x128_S5000x128_1_0_0_1_n_n.lhsIdx (ix2 p q)
      ((contrEquiv1 dot_S5000x128_S128x128_S5000x128_1_0_0_1_n_n 128 rfl rfl).symm c) = ix2 p c := by
  have c2 := contrEquiv1_symm_val dot_S5000x128_S128x128_S5000x128_1_0_0_1_n_n 128 rfl rfl c
  funext ax; apply Fin.ext
  match ax with
  | ⟨0, _⟩ => simp [DotDims.lhsIdx, dot_S5000x128_S128x128_S5000x128_1_0_0_1_n_n]; rfl
  | ⟨1, _⟩ => simp [DotDims.lhsIdx, dot_S5000x128_S128x128_S5000x128_1_0_0_1_n_n]; exact c2

/-- The right operand's index at output (p, q) and contraction coordinate c is (c, q). -/
theorem rhs_idx (p : Fin 5000) (q : Fin 128) (c : Fin 128) :
    dot_S5000x128_S128x128_S5000x128_1_0_0_1_n_n.rhsIdx (ix2 p q)
      ((contrEquiv1 dot_S5000x128_S128x128_S5000x128_1_0_0_1_n_n 128 rfl rfl).symm c) = ix2 c q := by
  have c2 := contrEquiv1_symm_val dot_S5000x128_S128x128_S5000x128_1_0_0_1_n_n 128 rfl rfl c
  funext ax; apply Fin.ext
  match ax with
  | ⟨0, _⟩ => simp [DotDims.rhsIdx, dot_S5000x128_S128x128_S5000x128_1_0_0_1_n_n]; exact c2
  | ⟨1, _⟩ => simp [DotDims.rhsIdx, dot_S5000x128_S128x128_S5000x128_1_0_0_1_n_n]; rfl

/-- The block product into a zero accumulator, read at (p, q): Σ k, A (p, k) · B (k, q). -/
theorem mm_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul _ none A B _ (ix2 p q) = _
  rw [Ideal.matmul_constant_zero_apply,
    ← Equiv.sum_comp (contrEquiv1 dot_S5000x128_S128x128_S5000x128_1_0_0_1_n_n 128 rfl rfl).symm]
  refine Finset.sum_congr rfl fun c _ => ?_
  rw [lhs_idx, rhs_idx]

/-- The sum under the leaky function, read at (p, q): (agg (p, q) + Σ k, x (p, k) · root (k, q)) + bias (0, q). The
    format changes are the identity on extended reals; the one-row array read at every row is its row 0. -/
theorem pre_apply (x0 : Vec Ideal S5000x128 .f32) (rt : Vec Ideal S128x128 .f32) (ag : Vec Ideal S5000x128 .f32)
    (b : Vec Ideal S1x128 .f32) (h1 : FTy.bf16.bits < FTy.f32.bits) (h2 : FTy.bf16.bits < FTy.f32.bits)
    (hb : S1x128.Broadcasts S5000x128) (p : Fin 5000) (q : Fin 128) :
    addf (addf ag (matmul dot_S5000x128_S128x128_S5000x128_1_0_0_1_n_n none (truncf .bf16 x0 h1) (truncf .bf16 rt h2)
        (constant (F := Ideal) S5000x128 .f32 0x00000000#32))) (broadcastTo S5000x128 b hb) (ix2 p q)
      = (ag (ix2 p q) + ∑ k : Fin 128, x0 (ix2 p k) * rt (ix2 k q)) + b (ix2 (0 : Fin 1) q) := by
  rw [addf_apply, addf_apply, mm_apply, broadcastTo_1b_ab_apply]
  rfl

/-- THE STORED VALUE AT (p, q): the node update of row p of the x block and of the agg block, the root matrix and
    the bias entry of column q. -/
theorem pay_apply (x0 : Vec Ideal S5000x128 .f32) (rt : Vec Ideal S128x128 .f32) (ag : Vec Ideal S5000x128 .f32)
    (b : Vec Ideal S1x128 .f32) (p : Fin 5000) (q : Fin 128) :
    k6_pay1 x0 rt ag b (ix2 p q)
      = Cert.Spec.updRow (fun k => x0 (ix2 p k)) (fun k => ag (ix2 p k)) rt (b (ix2 (0 : Fin 1) q)) q := by
  unfold k6_pay1 Cert.Spec.updRow
  simp only [shapeCast_self]
  refine Eq.trans ?_ (congrArg Cert.Spec.leaky
    (pre_apply x0 rt ag b bitsLt_bf16_f32 bitsLt_bf16_f32 broadcasts_S1x128_S5000x128 p q))
  exact leaky_sel _

/-- The stored value as one function of its index. -/
theorem pay_eq (x0 : Vec Ideal S5000x128 .f32) (rt : Vec Ideal S128x128 .f32) (ag : Vec Ideal S5000x128 .f32)
    (b : Vec Ideal S1x128 .f32) :
    k6_pay1 x0 rt ag b = fun i : S5000x128.Idx =>
      Cert.Spec.updRow (fun k => x0 (ix2 (i 0) k)) (fun k => ag (ix2 (i 0) k)) rt (b (ix2 (0 : Fin 1) (i 1))) (i 1) := by
  funext i
  obtain ⟨p, q, rfl⟩ : ∃ (p : Fin 5000) (q : Fin 128), i = ix2 p q := ⟨i 0, i 1, eq_ix2 i⟩
  exact pay_apply x0 rt ag b p q

/-! ## The windows' blocks as rows of their arrays -/

/-- The index maps over the grid: the x, agg and output windows sit at row block t, column block 0; the root and
    bias windows at block (0, 0). -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The x block at point t is rows 5000 t … 5000 t + 4999 of the x array. -/
theorem xblk_apply (c : Dev nD) (t : Fin cfg6.N) (p : Fin 5000) (k : Fin 128) (r : Fin 50000)
    (hr : r.val = t.val * 5000 + p.val) :
    (iblk6 (F := Ideal) V c 0 t : Vec Ideal S5000x128 .f32) (ix2 p k)
      = (V c main_v32 : S50000x128.Idx → EReal) (ix2 r k) := by
  obtain ⟨e00, e01, e10, e11, e20, e21, e30, e31, e40, e41⟩ := idx_facts t
  unfold iblk6
  rw [View.read_apply]
  show V c main_v32 _ = V c main_v32 _
  congr 1
  funext a
  apply Fin.ext
  match a with
  | ⟨0, _⟩ => show win6_0.index t (0 : Fin 2) * 5000 + 1 * p.val = r.val; omega
  | ⟨1, _⟩ => show win6_0.index t (1 : Fin 2) * 128 + 1 * k.val = k.val; omega

/-- The agg block at point t is the same rows of the agg array. -/
theorem aggblk_apply (c : Dev nD) (t : Fin cfg6.N) (p : Fin 5000) (k : Fin 128) (r : Fin 50000)
    (hr : r.val = t.val * 5000 + p.val) :
    (iblk6 (F := Ideal) V c 1 t : Vec Ideal S5000x128 .f32) (ix2 p k)
      = (V c main_v39 : S50000x128.Idx → EReal) (ix2 r k) := by
  obtain ⟨e00, e01, e10, e11, e20, e21, e30, e31, e40, e41⟩ := idx_facts t
  unfold iblk6
  rw [View.read_apply]
  show V c main_v39 _ = V c main_v39 _
  congr 1
  funext a
  apply Fin.ext
  match a with
  | ⟨0, _⟩ => show win6_1.index t (0 : Fin 2) * 5000 + 1 * p.val = r.val; omega
  | ⟨1, _⟩ => show win6_1.index t (1 : Fin 2) * 128 + 1 * k.val = k.val; omega

/-- The root window's one block is the root array. -/
theorem rootblk_eq (c : Dev nD) (t : Fin cfg6.N) :
    (iblk6 (F := Ideal) V c 2 t : Vec Ideal S128x128 .f32) = (V c main_v44 : S128x128.Idx → EReal) := by
  obtain ⟨e00, e01, e10, e11, e20, e21, e30, e31, e40, e41⟩ := idx_facts t
  funext y
  unfold iblk6
  rw [View.read_apply]
  show V c main_v44 _ = V c main_v44 _
  congr 1
  funext a
  apply Fin.ext
  match a with
  | ⟨0, _⟩ => show win6_2.index t (0 : Fin 2) * 128 + 1 * (y 0).val = (y 0).val; omega
  | ⟨1, _⟩ => show win6_2.index t (1 : Fin 2) * 128 + 1 * (y 1).val = (y 1).val; omega

/-- The bias window's one block is the bias array. -/
theorem biasblk_eq (c : Dev nD) (t : Fin cfg6.N) :
    (iblk6 (F := Ideal) V c 3 t : Vec Ideal S1x128 .f32) = (V c main_v42 : S1x128.Idx → EReal) := by
  obtain ⟨e00, e01, e10, e11, e20, e21, e30, e31, e40, e41⟩ := idx_facts t
  funext y
  unfold iblk6
  rw [View.read_apply]
  show V c main_v42 _ = V c main_v42 _
  congr 1
  funext a
  apply Fin.ext
  match a with
  | ⟨0, _⟩ => show win6_3.index t (0 : Fin 2) * 1 + 1 * (y 0).val = (y 0).val; omega
  | ⟨1, _⟩ => show win6_3.index t (1 : Fin 2) * 128 + 1 * (y 1).val = (y 1).val; omega

/-! ## From the blocks to the array -/

/-- WHAT POINT t WRITES BACK is block t of the node update of the arrays the region found. -/
theorem flushed_eq (c : Dev nD) (t : Fin cfg6.N) :
    (dat6 (F := Ideal) V c).flushed 4 t = ((cfg6.win 4).blk t).view.read (Elt Ideal)
      (Cert.Spec.updArr (V c main_v32) (V c main_v39) (V c main_v44) (V c main_v42)) := by
  show (cfg6.win 4).cut (grid6.coords t) ((dat6 V c).after 4 t) = _
  rw [after6_4]
  unfold out6_4
  rw [View.canon_unit_zero hz]
  simp only [View.ld_unit_zero (S := S5000x128) hz, View.ld_unit_zero (S := S128x128) hz,
    View.ld_unit_zero (S := S1x128) hz]
  rw [pay_eq, rootblk_eq, biasblk_eq]
  obtain ⟨e00, e01, e10, e11, e20, e21, e30, e31, e40, e41⟩ := idx_facts t
  funext j
  rw [View.read_apply]
  have hj0 : (j 0).val < 5000 := (j 0).isLt
  have hj1 : (j 1).val < 128 := (j 1).isLt
  have hr : (((cfg6.win 4).blk t).view.emb j (0 : Fin 2)).val = t.val * 5000 + (j 0).val := by
    show win6_4.index t (0 : Fin 2) * 5000 + 1 * (j 0).val = _; omega
  have hq : (((cfg6.win 4).blk t).view.emb j (1 : Fin 2)) = (⟨(j 1).val, hj1⟩ : Fin 128) := by
    apply Fin.ext
    show win6_4.index t (1 : Fin 2) * 128 + 1 * (j 1).val = (j 1).val; omega
  show Cert.Spec.updRow (fun k => iblk6 V c 0 t (ix2 ⟨(j 0).val, hj0⟩ k)) (fun k => iblk6 V c 1 t (ix2 ⟨(j 0).val, hj0⟩ k))
      (V c main_v44) (V c main_v42 (ix2 (0 : Fin 1) ⟨(j 1).val, hj1⟩)) ⟨(j 1).val, hj1⟩
    = Cert.Spec.updRow (fun k => V c main_v32 (ix2 (((cfg6.win 4).blk t).view.emb j (0 : Fin 2)) k))
        (fun k => V c main_v39 (ix2 (((cfg6.win 4).blk t).view.emb j (0 : Fin 2)) k)) (V c main_v44)
        (V c main_v42 (ix2 (0 : Fin 1) (((cfg6.win 4).blk t).view.emb j (1 : Fin 2)))) (((cfg6.win 4).blk t).view.emb j (1 : Fin 2))
  rw [hq]
  congr 1
  · funext k; exact xblk_apply V c t _ k _ hr
  · funext k; exact aggblk_apply V c t _ k _ hr

/-- An index of the output array is in point t's block iff each coordinate is in the block's range on its axis. -/
theorem mem_blk (t : Fin cfg6.N) (i : S50000x128.Idx) :
    i ∈ ((cfg6.win 4).blk t).view.set ↔ ∀ a : Fin 2, win6_4.index t a * S5000x128.size a ≤ (i a).val
      ∧ (i a).val < win6_4.index t a * S5000x128.size a + S5000x128.size a := by
  show i ∈ ((View.whole main_v45).slice (win6_4.rect t)).set ↔ _
  rw [View.set_slice_whole, Rect.mem_set_unit]
  exact Iff.rfl

/-- Every index of the output array is in some point's block: row r is in the block of point r / 5000. -/
theorem cover (i : S50000x128.Idx) :
    ∃ t : Fin cfg6.N, (cfg6.win 4).flush t = true ∧ i ∈ ((cfg6.win 4).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨e00, e01, e10, e11, e20, e21, e30, e31, e40, e41⟩ := idx_facts t
  refine ⟨t, flush6_4 t, ?_⟩
  rw [mem_blk]
  intro a
  match a with
  | ⟨0, _⟩ =>
    show win6_4.index t (0 : Fin 2) * 5000 ≤ (i 0).val ∧ (i 0).val < win6_4.index t (0 : Fin 2) * 5000 + 5000
    omega
  | ⟨1, _⟩ =>
    show win6_4.index t (1 : Fin 2) * 128 ≤ (i 1).val ∧ (i 1).val < win6_4.index t (1 : Fin 2) * 128 + 128
    omega

end R6

/-- THE OUTPUT ARRAY after the region: the node update of the x, agg, root and bias arrays the region found. -/
theorem arr6 (c : Dev nD) :
    (dat6 (F := Ideal) V c).arrAt 4 cfg6.N = Cert.Spec.updArr (V c main_v32) (V c main_v39) (V c main_v44) (V c main_v42) :=
  (dat6 V c).arrAt_eq_of_cover 4 _ (fun t _ => R6.flushed_eq V c t) R6.cover

end Cert.KernelIdeal.KVal

end
-- ==== Proof.KFold.lean ====
/-
  The kernel program's run read back. The program is seventeen stretches — host operations and seven regions — and
  the contents of the buffers at each boundary are a fold from the launch memory. Here the fold is walked:
  • the words the layers share (source, destination and type columns) and the three parameter arrays are written
    once, before the first region, and every later stretch leaves them alone;
  • each layer's three stretches and two regions take the node rows x at the layer's entry to one layer of the
    program over x: the rows taken at the sources, the message region's array, the sum at the destinations, the
    update region's array;
  • so the result buffer at the last boundary is three layers over the embedding region's array.
-/
import proofs.«411858_j26792005992743_1_alg».proof.Proof.Gen.KernelIdeal.Frame
import proofs.«411858_j26792005992743_1_alg».proof.Proof.KDefs
import proofs.«411858_j26792005992743_1_alg».proof.Proof.KReg0
import proofs.«411858_j26792005992743_1_alg».proof.Proof.KReg1
import proofs.«411858_j26792005992743_1_alg».proof.Proof.KReg2
import proofs.«411858_j26792005992743_1_alg».proof.Proof.KReg3
import proofs.«411858_j26792005992743_1_alg».proof.Proof.KReg4
import proofs.«411858_j26792005992743_1_alg».proof.Proof.KReg5
import proofs.«411858_j26792005992743_1_alg».proof.Proof.KReg6

set_option maxRecDepth 16384

noncomputable section

namespace Cert.KernelIdeal.KFold

open Cert.KernelIdeal Cert.KernelIdeal.Gen
open Idealize.ShloMosaic Idealize.ShloMosaic.TcCoe Idealize.SL.Sem

/-- A buffer that no operation of the stretch writes keeps its contents through it. -/
local macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## What each stretch computes, from any contents -/

theorem nt_hostOps0 (V : Valuation τ sig (Elt Ideal)) :
    StableHlo.after hostOps0 V (Proc.devRef .tc main_v0) = KDefs.ntCol (V (Proc.devRef .tc main_arg0)) := by
  after_results
  rfl
theorem src_hostOps0 (V : Valuation τ sig (Elt Ideal)) :
    StableHlo.after hostOps0 V (Proc.devRef .tc main_v2) = KDefs.srcOf (V (Proc.devRef .tc main_arg1)) := by
  after_results
  rfl
theorem dst_hostOps0 (V : Valuation τ sig (Elt Ideal)) :
    StableHlo.after hostOps0 V (Proc.devRef .tc main_v4) = KDefs.dstOf (V (Proc.devRef .tc main_arg1)) := by
  after_results
  rfl
theorem et_hostOps0 (V : Valuation τ sig (Elt Ideal)) :
    StableHlo.after hostOps0 V (Proc.devRef .tc main_v5) = KDefs.etCol (V (Proc.devRef .tc main_arg2)) := by
  after_results
  rfl

set_option maxHeartbeats 2000000 in
attribute [local irreducible] Host.reduce Host.gather Host.scatterAdd in
theorem take_hostOps1 (V : Valuation τ sig (Elt Ideal)) :
    StableHlo.after hostOps1 V (Proc.devRef .tc main_v7) = KDefs.take (F := Ideal) (V (Proc.devRef .tc main_v6)) (V (Proc.devRef .tc main_v2)) := by
  after_results_simp
  rfl

attribute [local irreducible] Host.reduce Host.gather Host.scatterAdd in
theorem w_hostOps1_1 (V : Valuation τ sig (Elt Ideal)) :
    StableHlo.after hostOps1_1 V (Proc.devRef .tc main_v9) = KDefs.Wl0 (F := Ideal) (V (Proc.devRef .tc main_arg4)) := by
  after_results
  rfl

attribute [local irreducible] Host.reduce Host.gather Host.scatterAdd in
theorem seg_hostOps2 (V : Valuation τ sig (Elt Ideal)) :
    StableHlo.after hostOps2 V (Proc.devRef .tc main_v13) = KDefs.segsum (F := Ideal) (V (Proc.devRef .tc main_v4)) (V (Proc.devRef .tc main_v10)) := by
  after_results
  rfl

attribute [local irreducible] Host.reduce Host.gather Host.scatterAdd in
theorem root_hostOps2 (V : Valuation τ sig (Elt Ideal)) :
    StableHlo.after hostOps2 V (Proc.devRef .tc main_v18) = KDefs.rootl0 (F := Ideal) (V (Proc.devRef .tc main_arg5)) := by
  after_results
  rfl

attribute [local irreducible] Host.reduce Host.gather Host.scatterAdd in
theorem bias_hostOps2 (V : Valuation τ sig (Elt Ideal)) :
    StableHlo.after hostOps2 V (Proc.devRef .tc main_v16) = KDefs.biasl0 (F := Ideal) (V (Proc.devRef .tc main_arg6)) := by
  after_results
  rfl

set_option maxHeartbeats 2000000 in
attribute [local irreducible] Host.reduce Host.gather Host.scatterAdd in
theorem take_hostOps3 (V : Valuation τ sig (Elt Ideal)) :
    StableHlo.after hostOps3 V (Proc.devRef .tc main_v20) = KDefs.take (F := Ideal) (V (Proc.devRef .tc main_v19)) (V (Proc.devRef .tc main_v2)) := by
  after_results_simp
  rfl

attribute [local irreducible] Host.reduce Host.gather Host.scatterAdd in
theorem w_hostOps3_1 (V : Valuation τ sig (Elt Ideal)) :
    StableHlo.after hostOps3_1 V (Proc.devRef .tc main_v22) = KDefs.Wl1 (F := Ideal) (V (Proc.devRef .tc main_arg4)) := by
  after_results
  rfl

attribute [local irreducible] Host.reduce Host.gather Host.scatterAdd in
theorem seg_hostOps4 (V : Valuation τ sig (Elt Ideal)) :
    StableHlo.after hostOps4 V (Proc.devRef .tc main_v26) = KDefs.segsum (F := Ideal) (V (Proc.devRef .tc main_v4)) (V (Proc.devRef .tc main_v23)) := by
  after_results
  rfl

attribute [local irreducible] Host.reduce Host.gather Host.scatterAdd in
theorem root_hostOps4 (V : Valuation τ sig (Elt Ideal)) :
    StableHlo.after hostOps4 V (Proc.devRef .tc main_v31) = KDefs.rootl1 (F := Ideal) (V (Proc.devRef .tc main_arg5)) := by
  after_results
  rfl

attribute [local irreducible] Host.reduce Host.gather Host.scatterAdd in
theorem bias_hostOps4 (V : Valuation τ sig (Elt Ideal)) :
    StableHlo.after hostOps4 V (Proc.devRef .tc main_v29) = KDefs.biasl1 (F := Ideal) (V (Proc.devRef .tc main_arg6)) := by
  after_results
  rfl

set_option maxHeartbeats 2000000 in
attribute [local irreducible] Host.reduce Host.gather Host.scatterAdd in
theorem take_hostOps5 (V : Valuation τ sig (Elt Ideal)) :
    StableHlo.after hostOps5 V (Proc.devRef .tc main_v33) = KDefs.take (F := Ideal) (V (Proc.devRef .tc main_v32)) (V (Proc.devRef .tc main_v2)) := by
  after_results_simp
  rfl

attribute [local irreducible] Host.reduce Host.gather Host.scatterAdd in
theorem w_hostOps5_1 (V : Valuation τ sig (Elt Ideal)) :
    StableHlo.after hostOps5_1 V (Proc.devRef .tc main_v35) = KDefs.Wl2 (F := Ideal) (V (Proc.devRef .tc main_arg4)) := by
  after_results
  rfl

attribute [local irreducible] Host.reduce Host.gather Host.scatterAdd in
theorem seg_hostOps6 (V : Valuation τ sig (Elt Ideal)) :
    StableHlo.after hostOps6 V (Proc.devRef .tc main_v39) = KDefs.segsum (F := Ideal) (V (Proc.devRef .tc main_v4)) (V (Proc.devRef .tc main_v36)) := by
  after_results
  rfl

attribute [local irreducible] Host.reduce Host.gather Host.scatterAdd in
theorem root_hostOps6 (V : Valuation τ sig (Elt Ideal)) :
    StableHlo.after hostOps6 V (Proc.devRef .tc main_v44) = KDefs.rootl2 (F := Ideal) (V (Proc.devRef .tc main_arg5)) := by
  after_results
  rfl

attribute [local irreducible] Host.reduce Host.gather Host.scatterAdd in
theorem bias_hostOps6 (V : Valuation τ sig (Elt Ideal)) :
    StableHlo.after hostOps6 V (Proc.devRef .tc main_v42) = KDefs.biasl2 (F := Ideal) (V (Proc.devRef .tc main_arg6)) := by
  after_results
  rfl

/-! ## The shared words and the parameter arrays, at a boundary -/

/-- The boundary's contents hold the source, destination and type words and the three parameter arrays. -/
structure Inv (W : Valuation τ sig (Elt Ideal)) (a1 : IVec S2x600000 32) (a2 : IVec S600000 32)
    (a4 : FVec Ideal S3x4x128x128 .f32) (a5 : FVec Ideal S3x128x128 .f32) (a6 : FVec Ideal S3x128 .f32) : Prop where
  src : W (Proc.devRef .tc main_v2) = KDefs.srcOf a1
  dst : W (Proc.devRef .tc main_v4) = KDefs.dstOf a1
  et : W (Proc.devRef .tc main_v5) = KDefs.etCol a2
  p4 : W (Proc.devRef .tc main_arg4) = a4
  p5 : W (Proc.devRef .tc main_arg5) = a5
  p6 : W (Proc.devRef .tc main_arg6) = a6

theorem inv_hostOps1 {W : Valuation τ sig (Elt Ideal)} {a1 : IVec S2x600000 32} {a2 : IVec S600000 32} {a4 : FVec Ideal S3x4x128x128 .f32} {a5 : FVec Ideal S3x128x128 .f32} {a6 : FVec Ideal S3x128 .f32}
    (h : Inv W a1 a2 a4 a5 a6) : Inv (StableHlo.after hostOps1 W) a1 a2 a4 a5 a6 := by
  obtain ⟨h1, h2, h3, h4, h5, h6⟩ := h
  refine ⟨Eq.trans ?_ h1, Eq.trans ?_ h2, Eq.trans ?_ h3, Eq.trans ?_ h4, Eq.trans ?_ h5, Eq.trans ?_ h6⟩ <;> host_keep hostOps1

theorem inv_hostOps1_1 {W : Valuation τ sig (Elt Ideal)} {a1 : IVec S2x600000 32} {a2 : IVec S600000 32} {a4 : FVec Ideal S3x4x128x128 .f32} {a5 : FVec Ideal S3x128x128 .f32} {a6 : FVec Ideal S3x128 .f32}
    (h : Inv W a1 a2 a4 a5 a6) : Inv (StableHlo.after hostOps1_1 W) a1 a2 a4 a5 a6 := by
  obtain ⟨h1, h2, h3, h4, h5, h6⟩ := h
  refine ⟨Eq.trans ?_ h1, Eq.trans ?_ h2, Eq.trans ?_ h3, Eq.trans ?_ h4, Eq.trans ?_ h5, Eq.trans ?_ h6⟩ <;> host_keep hostOps1_1

theorem inv_hostOps2 {W : Valuation τ sig (Elt Ideal)} {a1 : IVec S2x600000 32} {a2 : IVec S600000 32} {a4 : FVec Ideal S3x4x128x128 .f32} {a5 : FVec Ideal S3x128x128 .f32} {a6 : FVec Ideal S3x128 .f32}
    (h : Inv W a1 a2 a4 a5 a6) : Inv (StableHlo.after hostOps2 W) a1 a2 a4 a5 a6 := by
  obtain ⟨h1, h2, h3, h4, h5, h6⟩ := h
  refine ⟨Eq.trans ?_ h1, Eq.trans ?_ h2, Eq.trans ?_ h3, Eq.trans ?_ h4, Eq.trans ?_ h5, Eq.trans ?_ h6⟩ <;> host_keep hostOps2

theorem inv_hostOps3 {W : Valuation τ sig (Elt Ideal)} {a1 : IVec S2x600000 32} {a2 : IVec S600000 32} {a4 : FVec Ideal S3x4x128x128 .f32} {a5 : FVec Ideal S3x128x128 .f32} {a6 : FVec Ideal S3x128 .f32}
    (h : Inv W a1 a2 a4 a5 a6) : Inv (StableHlo.after hostOps3 W) a1 a2 a4 a5 a6 := by
  obtain ⟨h1, h2, h3, h4, h5, h6⟩ := h
  refine ⟨Eq.trans ?_ h1, Eq.trans ?_ h2, Eq.trans ?_ h3, Eq.trans ?_ h4, Eq.trans ?_ h5, Eq.trans ?_ h6⟩ <;> host_keep hostOps3

theorem inv_hostOps3_1 {W : Valuation τ sig (Elt Ideal)} {a1 : IVec S2x600000 32} {a2 : IVec S600000 32} {a4 : FVec Ideal S3x4x128x128 .f32} {a5 : FVec Ideal S3x128x128 .f32} {a6 : FVec Ideal S3x128 .f32}
    (h : Inv W a1 a2 a4 a5 a6) : Inv (StableHlo.after hostOps3_1 W) a1 a2 a4 a5 a6 := by
  obtain ⟨h1, h2, h3, h4, h5, h6⟩ := h
  refine ⟨Eq.trans ?_ h1, Eq.trans ?_ h2, Eq.trans ?_ h3, Eq.trans ?_ h4, Eq.trans ?_ h5, Eq.trans ?_ h6⟩ <;> host_keep hostOps3_1

theorem inv_hostOps4 {W : Valuation τ sig (Elt Ideal)} {a1 : IVec S2x600000 32} {a2 : IVec S600000 32} {a4 : FVec Ideal S3x4x128x128 .f32} {a5 : FVec Ideal S3x128x128 .f32} {a6 : FVec Ideal S3x128 .f32}
    (h : Inv W a1 a2 a4 a5 a6) : Inv (StableHlo.after hostOps4 W) a1 a2 a4 a5 a6 := by
  obtain ⟨h1, h2, h3, h4, h5, h6⟩ := h
  refine ⟨Eq.trans ?_ h1, Eq.trans ?_ h2, Eq.trans ?_ h3, Eq.trans ?_ h4, Eq.trans ?_ h5, Eq.trans ?_ h6⟩ <;> host_keep hostOps4

theorem inv_hostOps5 {W : Valuation τ sig (Elt Ideal)} {a1 : IVec S2x600000 32} {a2 : IVec S600000 32} {a4 : FVec Ideal S3x4x128x128 .f32} {a5 : FVec Ideal S3x128x128 .f32} {a6 : FVec Ideal S3x128 .f32}
    (h : Inv W a1 a2 a4 a5 a6) : Inv (StableHlo.after hostOps5 W) a1 a2 a4 a5 a6 := by
  obtain ⟨h1, h2, h3, h4, h5, h6⟩ := h
  refine ⟨Eq.trans ?_ h1, Eq.trans ?_ h2, Eq.trans ?_ h3, Eq.trans ?_ h4, Eq.trans ?_ h5, Eq.trans ?_ h6⟩ <;> host_keep hostOps5

theorem inv_hostOps5_1 {W : Valuation τ sig (Elt Ideal)} {a1 : IVec S2x600000 32} {a2 : IVec S600000 32} {a4 : FVec Ideal S3x4x128x128 .f32} {a5 : FVec Ideal S3x128x128 .f32} {a6 : FVec Ideal S3x128 .f32}
    (h : Inv W a1 a2 a4 a5 a6) : Inv (StableHlo.after hostOps5_1 W) a1 a2 a4 a5 a6 := by
  obtain ⟨h1, h2, h3, h4, h5, h6⟩ := h
  refine ⟨Eq.trans ?_ h1, Eq.trans ?_ h2, Eq.trans ?_ h3, Eq.trans ?_ h4, Eq.trans ?_ h5, Eq.trans ?_ h6⟩ <;> host_keep hostOps5_1

theorem inv_hostOps6 {W : Valuation τ sig (Elt Ideal)} {a1 : IVec S2x600000 32} {a2 : IVec S600000 32} {a4 : FVec Ideal S3x4x128x128 .f32} {a5 : FVec Ideal S3x128x128 .f32} {a6 : FVec Ideal S3x128 .f32}
    (h : Inv W a1 a2 a4 a5 a6) : Inv (StableHlo.after hostOps6 W) a1 a2 a4 a5 a6 := by
  obtain ⟨h1, h2, h3, h4, h5, h6⟩ := h
  refine ⟨Eq.trans ?_ h1, Eq.trans ?_ h2, Eq.trans ?_ h3, Eq.trans ?_ h4, Eq.trans ?_ h5, Eq.trans ?_ h6⟩ <;> host_keep hostOps6

variable (m : (ℓ : Loc nD τ sig) → Buf (Elt Ideal) ℓ) (ρ : Dev nD → PrngReg)

theorem inv_r0 (c : Dev nD) {a1 : IVec S2x600000 32} {a2 : IVec S600000 32} {a4 : FVec Ideal S3x4x128x128 .f32} {a5 : FVec Ideal S3x128x128 .f32} {a6 : FVec Ideal S3x128 .f32}
    (h : Inv (W1 m ρ c) a1 a2 a4 a5 a6) : Inv (W2 m ρ c) a1 a2 a4 a5 a6 :=
  ⟨(W2_of_ne m ρ c main_v2 (by decide)).trans h.src, (W2_of_ne m ρ c main_v4 (by decide)).trans h.dst,
   (W2_of_ne m ρ c main_v5 (by decide)).trans h.et, (W2_of_ne m ρ c main_arg4 (by decide)).trans h.p4,
   (W2_of_ne m ρ c main_arg5 (by decide)).trans h.p5, (W2_of_ne m ρ c main_arg6 (by decide)).trans h.p6⟩

theorem inv_r1 (c : Dev nD) {a1 : IVec S2x600000 32} {a2 : IVec S600000 32} {a4 : FVec Ideal S3x4x128x128 .f32} {a5 : FVec Ideal S3x128x128 .f32} {a6 : FVec Ideal S3x128 .f32}
    (h : Inv (W4 m ρ c) a1 a2 a4 a5 a6) : Inv (W5 m ρ c) a1 a2 a4 a5 a6 :=
  ⟨(W5_of_ne m ρ c main_v2 (by decide)).trans h.src, (W5_of_ne m ρ c main_v4 (by decide)).trans h.dst,
   ((W5_arr m ρ c 1).trans (((dat1 (V4 m ρ) c).arrAt_in 1 rfl _).trans (A_eq1 (V4 m ρ) c 1))).trans h.et, (W5_of_ne m ρ c main_arg4 (by decide)).trans h.p4,
   (W5_of_ne m ρ c main_arg5 (by decide)).trans h.p5, (W5_of_ne m ρ c main_arg6 (by decide)).trans h.p6⟩

theorem inv_r2 (c : Dev nD) {a1 : IVec S2x600000 32} {a2 : IVec S600000 32} {a4 : FVec Ideal S3x4x128x128 .f32} {a5 : FVec Ideal S3x128x128 .f32} {a6 : FVec Ideal S3x128 .f32}
    (h : Inv (W6 m ρ c) a1 a2 a4 a5 a6) : Inv (W7 m ρ c) a1 a2 a4 a5 a6 :=
  ⟨(W7_of_ne m ρ c main_v2 (by decide)).trans h.src, (W7_of_ne m ρ c main_v4 (by decide)).trans h.dst,
   (W7_of_ne m ρ c main_v5 (by decide)).trans h.et, (W7_of_ne m ρ c main_arg4 (by decide)).trans h.p4,
   (W7_of_ne m ρ c main_arg5 (by decide)).trans h.p5, (W7_of_ne m ρ c main_arg6 (by decide)).trans h.p6⟩

theorem inv_r3 (c : Dev nD) {a1 : IVec S2x600000 32} {a2 : IVec S600000 32} {a4 : FVec Ideal S3x4x128x128 .f32} {a5 : FVec Ideal S3x128x128 .f32} {a6 : FVec Ideal S3x128 .f32}
    (h : Inv (W9 m ρ c) a1 a2 a4 a5 a6) : Inv (W10 m ρ c) a1 a2 a4 a5 a6 :=
  ⟨(W10_of_ne m ρ c main_v2 (by decide)).trans h.src, (W10_of_ne m ρ c main_v4 (by decide)).trans h.dst,
   ((W10_arr m ρ c 1).trans (((dat3 (V9 m ρ) c).arrAt_in 1 rfl _).trans (A_eq3 (V9 m ρ) c 1))).trans h.et, (W10_of_ne m ρ c main_arg4 (by decide)).trans h.p4,
   (W10_of_ne m ρ c main_arg5 (by decide)).trans h.p5, (W10_of_ne m ρ c main_arg6 (by decide)).trans h.p6⟩

theorem inv_r4 (c : Dev nD) {a1 : IVec S2x600000 32} {a2 : IVec S600000 32} {a4 : FVec Ideal S3x4x128x128 .f32} {a5 : FVec Ideal S3x128x128 .f32} {a6 : FVec Ideal S3x128 .f32}
    (h : Inv (W11 m ρ c) a1 a2 a4 a5 a6) : Inv (W12 m ρ c) a1 a2 a4 a5 a6 :=
  ⟨(W12_of_ne m ρ c main_v2 (by decide)).trans h.src, (W12_of_ne m ρ c main_v4 (by decide)).trans h.dst,
   (W12_of_ne m ρ c main_v5 (by decide)).trans h.et, (W12_of_ne m ρ c main_arg4 (by decide)).trans h.p4,
   (W12_of_ne m ρ c main_arg5 (by decide)).trans h.p5, (W12_of_ne m ρ c main_arg6 (by decide)).trans h.p6⟩

theorem inv_r5 (c : Dev nD) {a1 : IVec S2x600000 32} {a2 : IVec S600000 32} {a4 : FVec Ideal S3x4x128x128 .f32} {a5 : FVec Ideal S3x128x128 .f32} {a6 : FVec Ideal S3x128 .f32}
    (h : Inv (W14 m ρ c) a1 a2 a4 a5 a6) : Inv (W15 m ρ c) a1 a2 a4 a5 a6 :=
  ⟨(W15_of_ne m ρ c main_v2 (by decide)).trans h.src, (W15_of_ne m ρ c main_v4 (by decide)).trans h.dst,
   ((W15_arr m ρ c 1).trans (((dat5 (V14 m ρ) c).arrAt_in 1 rfl _).trans (A_eq5 (V14 m ρ) c 1))).trans h.et, (W15_of_ne m ρ c main_arg4 (by decide)).trans h.p4,
   (W15_of_ne m ρ c main_arg5 (by decide)).trans h.p5, (W15_of_ne m ρ c main_arg6 (by decide)).trans h.p6⟩

theorem inv_r6 (c : Dev nD) {a1 : IVec S2x600000 32} {a2 : IVec S600000 32} {a4 : FVec Ideal S3x4x128x128 .f32} {a5 : FVec Ideal S3x128x128 .f32} {a6 : FVec Ideal S3x128 .f32}
    (h : Inv (W16 m ρ c) a1 a2 a4 a5 a6) : Inv (W17 m ρ c) a1 a2 a4 a5 a6 :=
  ⟨(W17_of_ne m ρ c main_v2 (by decide)).trans h.src, (W17_of_ne m ρ c main_v4 (by decide)).trans h.dst,
   (W17_of_ne m ρ c main_v5 (by decide)).trans h.et, (W17_of_ne m ρ c main_arg4 (by decide)).trans h.p4,
   (W17_of_ne m ρ c main_arg5 (by decide)).trans h.p5, (W17_of_ne m ρ c main_arg6 (by decide)).trans h.p6⟩

/-! ## One layer -/

/-- Through layer 0: the boundary after its update region holds, at the region's output, one layer of the kernel
    program over what the boundary before the layer held at the layer's input. -/
theorem layer0_fold (c : Dev nD) (x : FVec Ideal S50000x128 .f32) {a1 : IVec S2x600000 32} {a2 : IVec S600000 32}
    {a4 : FVec Ideal S3x4x128x128 .f32} {a5 : FVec Ideal S3x128x128 .f32} {a6 : FVec Ideal S3x128 .f32}
    (hI : Inv (W2 m ρ c) a1 a2 a4 a5 a6) (hx : W2 m ρ c (Proc.devRef .tc main_v6) = x) :
    W7 m ρ c (Proc.devRef .tc main_v19) = KDefs.layer x a1 a2 (KDefs.Wl0 (F := Ideal) a4) (KDefs.rootl0 (F := Ideal) a5) (KDefs.biasl0 (F := Ideal) a6) := by
  have hIb : Inv (W3 m ρ c) a1 a2 a4 a5 a6 := inv_hostOps1 hI
  have hIc : Inv (W4 m ρ c) a1 a2 a4 a5 a6 := inv_hostOps1_1 hIb
  have hId : Inv (W5 m ρ c) a1 a2 a4 a5 a6 := inv_r1 m ρ c hIc
  -- the taken rows, the edge types and the layer's matrices at the message region's entry
  have e7 : W4 m ρ c (Proc.devRef .tc main_v7) = KDefs.take (F := Ideal) x (KDefs.srcOf a1) := by
    have k : W4 m ρ c (Proc.devRef .tc main_v7) = W3 m ρ c (Proc.devRef .tc main_v7) := by host_keep hostOps1_1
    rw [k]; show StableHlo.after hostOps1 (W2 m ρ c) (Proc.devRef .tc main_v7) = _
    rw [take_hostOps1, hx, hI.src]
  have e9 : W4 m ρ c (Proc.devRef .tc main_v9) = KDefs.Wl0 (F := Ideal) a4 := by
    show StableHlo.after hostOps1_1 (W3 m ρ c) (Proc.devRef .tc main_v9) = _
    rw [w_hostOps1_1, hIb.p4]
  have e10 : W5 m ρ c (Proc.devRef .tc main_v10) = Cert.Spec.msgArr (KDefs.take (F := Ideal) x (KDefs.srcOf a1)) (KDefs.etCol a2) (KDefs.Wl0 (F := Ideal) a4) := by
    have := W5_arr m ρ c 3
    rw [show W5 m ρ c (Proc.devRef .tc main_v10) = (dat1 (V4 m ρ) c).arrAt 3 cfg1.N from this,
      Cert.KernelIdeal.KVal.arr1 (V4 m ρ) c]
    show Cert.Spec.msgArr (W4 m ρ c (Proc.devRef .tc main_v7)) (W4 m ρ c (Proc.devRef .tc main_v5)) (W4 m ρ c (Proc.devRef .tc main_v9)) = _
    rw [e7, e9, hIc.et]
  -- the update region's four inputs at its entry
  have e6 : W6 m ρ c (Proc.devRef .tc main_v6) = x := by
    have k1 : W6 m ρ c (Proc.devRef .tc main_v6) = W5 m ρ c (Proc.devRef .tc main_v6) := by host_keep hostOps2
    have k2 : W4 m ρ c (Proc.devRef .tc main_v6) = W3 m ρ c (Proc.devRef .tc main_v6) := by host_keep hostOps1_1
    have k3 : W3 m ρ c (Proc.devRef .tc main_v6) = W2 m ρ c (Proc.devRef .tc main_v6) := by host_keep hostOps1
    rw [k1, W5_of_ne m ρ c main_v6 (by decide), k2, k3, hx]
  have e13 : W6 m ρ c (Proc.devRef .tc main_v13) = KDefs.segsum (F := Ideal) (KDefs.dstOf a1) (Cert.Spec.msgArr (KDefs.take (F := Ideal) x (KDefs.srcOf a1)) (KDefs.etCol a2) (KDefs.Wl0 (F := Ideal) a4)) := by
    show StableHlo.after hostOps2 (W5 m ρ c) (Proc.devRef .tc main_v13) = _
    rw [seg_hostOps2, hId.dst, e10]
  have e18 : W6 m ρ c (Proc.devRef .tc main_v18) = KDefs.rootl0 (F := Ideal) a5 := by
    show StableHlo.after hostOps2 (W5 m ρ c) (Proc.devRef .tc main_v18) = _
    rw [root_hostOps2, hId.p5]
  have e16 : W6 m ρ c (Proc.devRef .tc main_v16) = KDefs.biasl0 (F := Ideal) a6 := by
    show StableHlo.after hostOps2 (W5 m ρ c) (Proc.devRef .tc main_v16) = _
    rw [bias_hostOps2, hId.p6]
  have := W7_arr m ρ c 4
  rw [show W7 m ρ c (Proc.devRef .tc main_v19) = (dat2 (V6 m ρ) c).arrAt 4 cfg2.N from this,
    Cert.KernelIdeal.KVal.arr2 (V6 m ρ) c]
  show Cert.Spec.updArr (W6 m ρ c (Proc.devRef .tc main_v6)) (W6 m ρ c (Proc.devRef .tc main_v13)) (W6 m ρ c (Proc.devRef .tc main_v18)) (W6 m ρ c (Proc.devRef .tc main_v16)) = _
  rw [e6, e13, e18, e16]
  rfl

/-- Through layer 1: the boundary after its update region holds, at the region's output, one layer of the kernel
    program over what the boundary before the layer held at the layer's input. -/
theorem layer1_fold (c : Dev nD) (x : FVec Ideal S50000x128 .f32) {a1 : IVec S2x600000 32} {a2 : IVec S600000 32}
    {a4 : FVec Ideal S3x4x128x128 .f32} {a5 : FVec Ideal S3x128x128 .f32} {a6 : FVec Ideal S3x128 .f32}
    (hI : Inv (W7 m ρ c) a1 a2 a4 a5 a6) (hx : W7 m ρ c (Proc.devRef .tc main_v19) = x) :
    W12 m ρ c (Proc.devRef .tc main_v32) = KDefs.layer x a1 a2 (KDefs.Wl1 (F := Ideal) a4) (KDefs.rootl1 (F := Ideal) a5) (KDefs.biasl1 (F := Ideal) a6) := by
  have hIb : Inv (W8 m ρ c) a1 a2 a4 a5 a6 := inv_hostOps3 hI
  have hIc : Inv (W9 m ρ c) a1 a2 a4 a5 a6 := inv_hostOps3_1 hIb
  have hId : Inv (W10 m ρ c) a1 a2 a4 a5 a6 := inv_r3 m ρ c hIc
  -- the taken rows, the edge types and the layer's matrices at the message region's entry
  have e7 : W9 m ρ c (Proc.devRef .tc main_v20) = KDefs.take (F := Ideal) x (KDefs.srcOf a1) := by
    have k : W9 m ρ c (Proc.devRef .tc main_v20) = W8 m ρ c (Proc.devRef .tc main_v20) := by host_keep hostOps3_1
    rw [k]; show StableHlo.after hostOps3 (W7 m ρ c) (Proc.devRef .tc main_v20) = _
    rw [take_hostOps3, hx, hI.src]
  have e9 : W9 m ρ c (Proc.devRef .tc main_v22) = KDefs.Wl1 (F := Ideal) a4 := by
    show StableHlo.after hostOps3_1 (W8 m ρ c) (Proc.devRef .tc main_v22) = _
    rw [w_hostOps3_1, hIb.p4]
  have e10 : W10 m ρ c (Proc.devRef .tc main_v23) = Cert.Spec.msgArr (KDefs.take (F := Ideal) x (KDefs.srcOf a1)) (KDefs.etCol a2) (KDefs.Wl1 (F := Ideal) a4) := by
    have := W10_arr m ρ c 3
    rw [show W10 m ρ c (Proc.devRef .tc main_v23) = (dat3 (V9 m ρ) c).arrAt 3 cfg3.N from this,
      Cert.KernelIdeal.KVal.arr3 (V9 m ρ) c]
    show Cert.Spec.msgArr (W9 m ρ c (Proc.devRef .tc main_v20)) (W9 m ρ c (Proc.devRef .tc main_v5)) (W9 m ρ c (Proc.devRef .tc main_v22)) = _
    rw [e7, e9, hIc.et]
  -- the update region's four inputs at its entry
  have e6 : W11 m ρ c (Proc.devRef .tc main_v19) = x := by
    have k1 : W11 m ρ c (Proc.devRef .tc main_v19) = W10 m ρ c (Proc.devRef .tc main_v19) := by host_keep hostOps4
    have k2 : W9 m ρ c (Proc.devRef .tc main_v19) = W8 m ρ c (Proc.devRef .tc main_v19) := by host_keep hostOps3_1
    have k3 : W8 m ρ c (Proc.devRef .tc main_v19) = W7 m ρ c (Proc.devRef .tc main_v19) := by host_keep hostOps3
    rw [k1, W10_of_ne m ρ c main_v19 (by decide), k2, k3, hx]
  have e13 : W11 m ρ c (Proc.devRef .tc main_v26) = KDefs.segsum (F := Ideal) (KDefs.dstOf a1) (Cert.Spec.msgArr (KDefs.take (F := Ideal) x (KDefs.srcOf a1)) (KDefs.etCol a2) (KDefs.Wl1 (F := Ideal) a4)) := by
    show StableHlo.after hostOps4 (W10 m ρ c) (Proc.devRef .tc main_v26) = _
    rw [seg_hostOps4, hId.dst, e10]
  have e18 : W11 m ρ c (Proc.devRef .tc main_v31) = KDefs.rootl1 (F := Ideal) a5 := by
    show StableHlo.after hostOps4 (W10 m ρ c) (Proc.devRef .tc main_v31) = _
    rw [root_hostOps4, hId.p5]
  have e16 : W11 m ρ c (Proc.devRef .tc main_v29) = KDefs.biasl1 (F := Ideal) a6 := by
    show StableHlo.after hostOps4 (W10 m ρ c) (Proc.devRef .tc main_v29) = _
    rw [bias_hostOps4, hId.p6]
  have := W12_arr m ρ c 4
  rw [show W12 m ρ c (Proc.devRef .tc main_v32) = (dat4 (V11 m ρ) c).arrAt 4 cfg4.N from this,
    Cert.KernelIdeal.KVal.arr4 (V11 m ρ) c]
  show Cert.Spec.updArr (W11 m ρ c (Proc.devRef .tc main_v19)) (W11 m ρ c (Proc.devRef .tc main_v26)) (W11 m ρ c (Proc.devRef .tc main_v31)) (W11 m ρ c (Proc.devRef .tc main_v29)) = _
  rw [e6, e13, e18, e16]
  rfl

/-- Through layer 2: the boundary after its update region holds, at the region's output, one layer of the kernel
    program over what the boundary before the layer held at the layer's input. -/
theorem layer2_fold (c : Dev nD) (x : FVec Ideal S50000x128 .f32) {a1 : IVec S2x600000 32} {a2 : IVec S600000 32}
    {a4 : FVec Ideal S3x4x128x128 .f32} {a5 : FVec Ideal S3x128x128 .f32} {a6 : FVec Ideal S3x128 .f32}
    (hI : Inv (W12 m ρ c) a1 a2 a4 a5 a6) (hx : W12 m ρ c (Proc.devRef .tc main_v32) = x) :
    W17 m ρ c (Proc.devRef .tc main_v45) = KDefs.layer x a1 a2 (KDefs.Wl2 (F := Ideal) a4) (KDefs.rootl2 (F := Ideal) a5) (KDefs.biasl2 (F := Ideal) a6) := by
  have hIb : Inv (W13 m ρ c) a1 a2 a4 a5 a6 := inv_hostOps5 hI
  have hIc : Inv (W14 m ρ c) a1 a2 a4 a5 a6 := inv_hostOps5_1 hIb
  have hId : Inv (W15 m ρ c) a1 a2 a4 a5 a6 := inv_r5 m ρ c hIc
  -- the taken rows, the edge types and the layer's matrices at the message region's entry
  have e7 : W14 m ρ c (Proc.devRef .tc main_v33) = KDefs.take (F := Ideal) x (KDefs.srcOf a1) := by
    have k : W14 m ρ c (Proc.devRef .tc main_v33) = W13 m ρ c (Proc.devRef .tc main_v33) := by host_keep hostOps5_1
    rw [k]; show StableHlo.after hostOps5 (W12 m ρ c) (Proc.devRef .tc main_v33) = _
    rw [take_hostOps5, hx, hI.src]
  have e9 : W14 m ρ c (Proc.devRef .tc main_v35) = KDefs.Wl2 (F := Ideal) a4 := by
    show StableHlo.after hostOps5_1 (W13 m ρ c) (Proc.devRef .tc main_v35) = _
    rw [w_hostOps5_1, hIb.p4]
  have e10 : W15 m ρ c (Proc.devRef .tc main_v36) = Cert.Spec.msgArr (KDefs.take (F := Ideal) x (KDefs.srcOf a1)) (KDefs.etCol a2) (KDefs.Wl2 (F := Ideal) a4) := by
    have := W15_arr m ρ c 3
    rw [show W15 m ρ c (Proc.devRef .tc main_v36) = (dat5 (V14 m ρ) c).arrAt 3 cfg5.N from this,
      Cert.KernelIdeal.KVal.arr5 (V14 m ρ) c]
    show Cert.Spec.msgArr (W14 m ρ c (Proc.devRef .tc main_v33)) (W14 m ρ c (Proc.devRef .tc main_v5)) (W14 m ρ c (Proc.devRef .tc main_v35)) = _
    rw [e7, e9, hIc.et]
  -- the update region's four inputs at its entry
  have e6 : W16 m ρ c (Proc.devRef .tc main_v32) = x := by
    have k1 : W16 m ρ c (Proc.devRef .tc main_v32) = W15 m ρ c (Proc.devRef .tc main_v32) := by host_keep hostOps6
    have k2 : W14 m ρ c (Proc.devRef .tc main_v32) = W13 m ρ c (Proc.devRef .tc main_v32) := by host_keep hostOps5_1
    have k3 : W13 m ρ c (Proc.devRef .tc main_v32) = W12 m ρ c (Proc.devRef .tc main_v32) := by host_keep hostOps5
    rw [k1, W15_of_ne m ρ c main_v32 (by decide), k2, k3, hx]
  have e13 : W16 m ρ c (Proc.devRef .tc main_v39) = KDefs.segsum (F := Ideal) (KDefs.dstOf a1) (Cert.Spec.msgArr (KDefs.take (F := Ideal) x (KDefs.srcOf a1)) (KDefs.etCol a2) (KDefs.Wl2 (F := Ideal) a4)) := by
    show StableHlo.after hostOps6 (W15 m ρ c) (Proc.devRef .tc main_v39) = _
    rw [seg_hostOps6, hId.dst, e10]
  have e18 : W16 m ρ c (Proc.devRef .tc main_v44) = KDefs.rootl2 (F := Ideal) a5 := by
    show StableHlo.after hostOps6 (W15 m ρ c) (Proc.devRef .tc main_v44) = _
    rw [root_hostOps6, hId.p5]
  have e16 : W16 m ρ c (Proc.devRef .tc main_v42) = KDefs.biasl2 (F := Ideal) a6 := by
    show StableHlo.after hostOps6 (W15 m ρ c) (Proc.devRef .tc main_v42) = _
    rw [bias_hostOps6, hId.p6]
  have := W17_arr m ρ c 4
  rw [show W17 m ρ c (Proc.devRef .tc main_v45) = (dat6 (V16 m ρ) c).arrAt 4 cfg6.N from this,
    Cert.KernelIdeal.KVal.arr6 (V16 m ρ) c]
  show Cert.Spec.updArr (W16 m ρ c (Proc.devRef .tc main_v32)) (W16 m ρ c (Proc.devRef .tc main_v39)) (W16 m ρ c (Proc.devRef .tc main_v44)) (W16 m ρ c (Proc.devRef .tc main_v42)) = _
  rw [e6, e13, e18, e16]
  rfl

/-! ## The whole run -/

/-- The result buffer at the last boundary: three layers of the kernel program over the embedding region's array of
    the launch memory's arguments. -/
theorem value_fold (c : Dev nD) :
    W17 m ρ c (Proc.devRef .tc main_v45)
      = KDefs.value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hI1 : Inv (W1 m ρ c) (m ((c : Thread nD τ).loc main_arg1)) (m ((c : Thread nD τ).loc main_arg2)) (m ((c : Thread nD τ).loc main_arg4)) (m ((c : Thread nD τ).loc main_arg5)) (m ((c : Thread nD τ).loc main_arg6)) :=
    ⟨src_hostOps0 _, dst_hostOps0 _, et_hostOps0 _, by host_keep hostOps0, by host_keep hostOps0, by host_keep hostOps0⟩
  have hI2 := inv_r0 m ρ c hI1
  have hx0 : W2 m ρ c (Proc.devRef .tc main_v6) = Cert.Spec.embArr (KDefs.ntCol (m ((c : Thread nD τ).loc main_arg0))) (m ((c : Thread nD τ).loc main_arg3)) := by
    have := W2_arr m ρ c 2
    rw [show W2 m ρ c (Proc.devRef .tc main_v6) = (dat0 (V1 m ρ) c).arrAt 2 cfg0.N from this,
      Cert.KernelIdeal.KVal.arr0 (V1 m ρ) c]
    show Cert.Spec.embArr (StableHlo.after hostOps0 (W0 m ρ c) (Proc.devRef .tc main_v0)) (StableHlo.after hostOps0 (W0 m ρ c) (Proc.devRef .tc main_arg3)) = _
    rw [nt_hostOps0, show StableHlo.after hostOps0 (W0 m ρ c) (Proc.devRef .tc main_arg3) = W0 m ρ c (Proc.devRef .tc main_arg3) by host_keep hostOps0]
  have h1 := layer0_fold m ρ c _ hI2 hx0
  have hI7 := inv_r2 m ρ c (inv_hostOps2 (inv_r1 m ρ c (inv_hostOps1_1 (inv_hostOps1 hI2))))
  have h2 := layer1_fold m ρ c _ hI7 h1
  have hI12 := inv_r4 m ρ c (inv_hostOps4 (inv_r3 m ρ c (inv_hostOps3_1 (inv_hostOps3 hI7))))
  have h3 := layer2_fold m ρ c _ hI12 h2
  exact h3

end Cert.KernelIdeal.KFold

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.KMath.lean ====
/-
  The host side of the program, composed with the regions' functions, is the specification.

  • The reshapes and slices of the integer inputs read the words they name: the node types and edge types as
    columns, rows 0 and 1 of the edge index.
  • Layer l's slices of the parameter arrays are the specification's: the weights, the root matrix, the bias row.
  • The rows of u added into zeros at the destination words give, at node n, the sum over the edges whose
    destination word, read signed, is n (0 + that sum).
  • A source word w with 0 ≤ w < 50000 is not below 0, so it is not moved; it lies in [0, 49999], so the in-range
    mask — an "and" over a one-element axis, from 1 — is 1 and the taken row is the gathered one, at the row
    min w 49999 = w names.
  • A layer of the program is then a layer of the specification, and so are the three layers over the embedded
    node types.
-/
import proofs.«411858_j26792005992743_1_alg».proof.Proof.KDefs
import proofs.«411858_j26792005992743_1_alg».proof.Proof.LibRows
import Idealize.ShloMosaic.Lib.ValueIdx
import Idealize.ShloMosaic.Lib.Pipeline.Value
import Idealize.ShloMosaic.PureOps.Reduce
import Idealize.ShloMosaic.PureOps.Ideal.Laws

noncomputable section

namespace Cert.KernelIdeal.KMath

open Cert.KernelIdeal Cert.KernelIdeal.Gen Idealize.ShloMosaic Idealize.ShloMosaic.ValueIdx

/-! ## The integer inputs, reshaped and sliced -/

/-- The node types as a column: row n holds the n-th word. -/
theorem ntCol_eq (a0 : IVec S50000 32) : KDefs.ntCol a0 = fun j => a0 (ix1 (j 0)) := by
  funext j
  unfold KDefs.ntCol
  refine shapeCast_apply a0 _ j (ix1 (j 0)) ?_
  rw [Shape.rowMajor_val_one, Shape.rowMajor_val_two]
  have := idx2_lt1 j
  show (j 0).val = (j 0).val * 1 + (j 1).val
  omega

/-- The edge types as a column. -/
theorem etCol_eq (a2 : IVec S600000 32) : KDefs.etCol a2 = fun j => a2 (ix1 (j 0)) := by
  funext j
  unfold KDefs.etCol
  refine shapeCast_apply a2 _ j (ix1 (j 0)) ?_
  rw [Shape.rowMajor_val_one, Shape.rowMajor_val_two]
  have := idx2_lt1 j
  show (j 0).val = (j 0).val * 1 + (j 1).val
  omega

/-- Row 0 of the edge index. -/
theorem srcOf_eq (a1 : IVec S2x600000 32) : KDefs.srcOf a1 = Cert.Spec.srcOf a1 := by
  funext j
  unfold KDefs.srcOf Cert.Spec.srcOf
  refine (shapeCast_apply _ _ j (ix2 (0 : Fin 1) (j 0)) ?_).trans ?_
  · rw [Shape.rowMajor_val_one, Shape.rowMajor_val_two]
    show 0 * 600000 + (j 0).val = (j 0).val
    omega
  · refine extractStridedSlice_apply _ a1 _ _ (ix2 (0 : Fin 2) (j 0)) fun a => ?_
    match a with
    | ⟨0, _⟩ => rfl
    | ⟨1, _⟩ => show (j 0).val = 0 + (j 0).val; omega

/-- Row 1 of the edge index. -/
theorem dstOf_eq (a1 : IVec S2x600000 32) : KDefs.dstOf a1 = Cert.Spec.dstOf a1 := by
  funext j
  unfold KDefs.dstOf Cert.Spec.dstOf
  refine (shapeCast_apply _ _ j (ix2 (0 : Fin 1) (j 0)) ?_).trans ?_
  · rw [Shape.rowMajor_val_one, Shape.rowMajor_val_two]
    show 0 * 600000 + (j 0).val = (j 0).val
    omega
  · refine extractStridedSlice_apply _ a1 _ _ (ix2 (1 : Fin 2) (j 0)) fun a => ?_
    match a with
    | ⟨0, _⟩ => rfl
    | ⟨1, _⟩ => show (j 0).val = 0 + (j 0).val; omega

/-! ## Layer l's slices of the parameter arrays -/

theorem Wl0_eq (a4 : FVec Ideal S3x4x128x128 .f32) : KDefs.Wl0 (F := Ideal) a4 = Cert.Spec.Wat a4 0 := by
  funext j
  unfold KDefs.Wl0 Cert.Spec.Wat
  refine (shapeCast_apply _ _ j (ix4 (0 : Fin 1) (j 0) (j 1) (j 2)) ?_).trans ?_
  · rw [Shape.rowMajor_val_three, Shape.rowMajor_val_four]
    show (((0 * 4 + (j 0).val) * 128 + (j 1).val) * 128 + (j 2).val) = ((j 0).val * 128 + (j 1).val) * 128 + (j 2).val
    omega
  · refine extractStridedSlice_apply _ a4 _ _ (ix4 (0 : Fin 3) (j 0) (j 1) (j 2)) fun a => ?_
    match a with
    | ⟨0, _⟩ => rfl
    | ⟨1, _⟩ => show (j 0).val = 0 + (j 0).val; omega
    | ⟨2, _⟩ => show (j 1).val = 0 + (j 1).val; omega
    | ⟨3, _⟩ => show (j 2).val = 0 + (j 2).val; omega

theorem Wl1_eq (a4 : FVec Ideal S3x4x128x128 .f32) : KDefs.Wl1 (F := Ideal) a4 = Cert.Spec.Wat a4 1 := by
  funext j
  unfold KDefs.Wl1 Cert.Spec.Wat
  refine (shapeCast_apply _ _ j (ix4 (0 : Fin 1) (j 0) (j 1) (j 2)) ?_).trans ?_
  · rw [Shape.rowMajor_val_three, Shape.rowMajor_val_four]
    show (((0 * 4 + (j 0).val) * 128 + (j 1).val) * 128 + (j 2).val) = ((j 0).val * 128 + (j 1).val) * 128 + (j 2).val
    omega
  · refine extractStridedSlice_apply _ a4 _ _ (ix4 (1 : Fin 3) (j 0) (j 1) (j 2)) fun a => ?_
    match a with
    | ⟨0, _⟩ => rfl
    | ⟨1, _⟩ => show (j 0).val = 0 + (j 0).val; omega
    | ⟨2, _⟩ => show (j 1).val = 0 + (j 1).val; omega
    | ⟨3, _⟩ => show (j 2).val = 0 + (j 2).val; omega

theorem Wl2_eq (a4 : FVec Ideal S3x4x128x128 .f32) : KDefs.Wl2 (F := Ideal) a4 = Cert.Spec.Wat a4 2 := by
  funext j
  unfold KDefs.Wl2 Cert.Spec.Wat
  refine (shapeCast_apply _ _ j (ix4 (0 : Fin 1) (j 0) (j 1) (j 2)) ?_).trans ?_
  · rw [Shape.rowMajor_val_three, Shape.rowMajor_val_four]
    show (((0 * 4 + (j 0).val) * 128 + (j 1).val) * 128 + (j 2).val) = ((j 0).val * 128 + (j 1).val) * 128 + (j 2).val
    omega
  · refine extractStridedSlice_apply _ a4 _ _ (ix4 (2 : Fin 3) (j 0) (j 1) (j 2)) fun a => ?_
    match a with
    | ⟨0, _⟩ => rfl
    | ⟨1, _⟩ => show (j 0).val = 0 + (j 0).val; omega
    | ⟨2, _⟩ => show (j 1).val = 0 + (j 1).val; omega
    | ⟨3, _⟩ => show (j 2).val = 0 + (j 2).val; omega

theorem rootl0_eq (a5 : FVec Ideal S3x128x128 .f32) : KDefs.rootl0 (F := Ideal) a5 = Cert.Spec.rootAt a5 0 := by
  funext j
  unfold KDefs.rootl0 Cert.Spec.rootAt
  refine (shapeCast_apply _ _ j (ix3 (0 : Fin 1) (j 0) (j 1)) ?_).trans ?_
  · rw [Shape.rowMajor_val_two, Shape.rowMajor_val_three]
    show ((0 * 128 + (j 0).val) * 128 + (j 1).val) = (j 0).val * 128 + (j 1).val
    omega
  · refine extractStridedSlice_apply _ a5 _ _ (ix3 (0 : Fin 3) (j 0) (j 1)) fun a => ?_
    match a with
    | ⟨0, _⟩ => rfl
    | ⟨1, _⟩ => show (j 0).val = 0 + (j 0).val; omega
    | ⟨2, _⟩ => show (j 1).val = 0 + (j 1).val; omega

theorem rootl1_eq (a5 : FVec Ideal S3x128x128 .f32) : KDefs.rootl1 (F := Ideal) a5 = Cert.Spec.rootAt a5 1 := by
  funext j
  unfold KDefs.rootl1 Cert.Spec.rootAt
  refine (shapeCast_apply _ _ j (ix3 (0 : Fin 1) (j 0) (j 1)) ?_).trans ?_
  · rw [Shape.rowMajor_val_two, Shape.rowMajor_val_three]
    show ((0 * 128 + (j 0).val) * 128 + (j 1).val) = (j 0).val * 128 + (j 1).val
    omega
  · refine extractStridedSlice_apply _ a5 _ _ (ix3 (1 : Fin 3) (j 0) (j 1)) fun a => ?_
    match a with
    | ⟨0, _⟩ => rfl
    | ⟨1, _⟩ => show (j 0).val = 0 + (j 0).val; omega
    | ⟨2, _⟩ => show (j 1).val = 0 + (j 1).val; omega

theorem rootl2_eq (a5 : FVec Ideal S3x128x128 .f32) : KDefs.rootl2 (F := Ideal) a5 = Cert.Spec.rootAt a5 2 := by
  funext j
  unfold KDefs.rootl2 Cert.Spec.rootAt
  refine (shapeCast_apply _ _ j (ix3 (0 : Fin 1) (j 0) (j 1)) ?_).trans ?_
  · rw [Shape.rowMajor_val_two, Shape.rowMajor_val_three]
    show ((0 * 128 + (j 0).val) * 128 + (j 1).val) = (j 0).val * 128 + (j 1).val
    omega
  · refine extractStridedSlice_apply _ a5 _ _ (ix3 (2 : Fin 3) (j 0) (j 1)) fun a => ?_
    match a with
    | ⟨0, _⟩ => rfl
    | ⟨1, _⟩ => show (j 0).val = 0 + (j 0).val; omega
    | ⟨2, _⟩ => show (j 1).val = 0 + (j 1).val; omega

theorem biasl0_eq (a6 : FVec Ideal S3x128 .f32) :
    KDefs.biasl0 (F := Ideal) a6 = fun j => Cert.Spec.biasAt a6 0 (j 1) := by
  funext j
  unfold KDefs.biasl0 Cert.Spec.biasAt
  rw [shapeCast_shapeCast]
  refine extractStridedSlice_apply _ a6 _ _ (ix2 (0 : Fin 3) (j 1)) fun a => ?_
  have h0 := idx2_lt0 j
  match a with
  | ⟨0, _⟩ => show 0 = 0 + (j 0).val; omega
  | ⟨1, _⟩ => show (j 1).val = 0 + (j 1).val; omega

theorem biasl1_eq (a6 : FVec Ideal S3x128 .f32) :
    KDefs.biasl1 (F := Ideal) a6 = fun j => Cert.Spec.biasAt a6 1 (j 1) := by
  funext j
  unfold KDefs.biasl1 Cert.Spec.biasAt
  rw [shapeCast_shapeCast]
  refine extractStridedSlice_apply _ a6 _ _ (ix2 (1 : Fin 3) (j 1)) fun a => ?_
  have h0 := idx2_lt0 j
  match a with
  | ⟨0, _⟩ => show 1 = 1 + (j 0).val; omega
  | ⟨1, _⟩ => show (j 1).val = 0 + (j 1).val; omega

theorem biasl2_eq (a6 : FVec Ideal S3x128 .f32) :
    KDefs.biasl2 (F := Ideal) a6 = fun j => Cert.Spec.biasAt a6 2 (j 1) := by
  funext j
  unfold KDefs.biasl2 Cert.Spec.biasAt
  rw [shapeCast_shapeCast]
  refine extractStridedSlice_apply _ a6 _ _ (ix2 (2 : Fin 3) (j 1)) fun a => ?_
  have h0 := idx2_lt0 j
  match a with
  | ⟨0, _⟩ => show 2 = 2 + (j 0).val; omega
  | ⟨1, _⟩ => show (j 1).val = 0 + (j 1).val; omega

/-! ## The sum at the destinations -/

/-- The rows of u added into zeros at the destination words: node n's row is the sum over the edges whose
    destination word, read signed, is n. -/
theorem segsum_eq (dst : IVec S600000 32) (u : FVec Ideal S600000x128 .f32) :
    KDefs.segsum (F := Ideal) dst u = Cert.Spec.seg dst u := by
  funext i
  obtain ⟨r, q, rfl⟩ : ∃ r q, i = ix2 r q := ⟨i 0, i 1, eq_ix2 i⟩
  unfold KDefs.segsum Cert.Spec.seg
  show Host.scatterAdd (F := Ideal) (φ := .f32)
      (Cert.LibRows.rowScatterDims 50000 600000 128 scatter_S50000x128_S600000x1_S600000x128_1_0_0_1_wf) _ _ u (ix2 r q) = _
  rw [Cert.LibRows.rowScatterAdd_apply]
  have hz : (broadcastInDim S50000x128 ![] bcast_S_S50000x128 (constant (F := Ideal) S_ .f32 0x00000000#32)) (ix2 r q) = 0 :=
    Ideal.ofBits_zero_f32
  rw [hz, zero_add]
  refine Finset.sum_congr rfl fun p _ => ?_
  have hb : (broadcastInDim S600000x1 ![0] bcast_S600000_S600000x1_0 dst) (ix2 p (0 : Fin 1)) = dst (ix1 p) := by
    refine broadcastInDim_apply _ _ dst _ (ix1 p) fun a => ?_
    match a with
    | ⟨0, _⟩ => rfl
  rw [hb]

/-! ## The rows taken at the source words -/

/-- A left fold by "and" from 1 over one-bit words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_one f l fun n hn => h n (List.mem_cons_of_mem _ hn)

/-- A word that reads non-negative is not below 0 … -/
theorem slt_zero_of_nonneg (w : BitVec 32) (h : 0 ≤ w.toInt) : IntOp.cmpi .slt w 0#32 = 0#1 := by
  have hz : (0#32 : BitVec 32).toInt = 0 := by decide
  have : w.slt 0#32 = false := by
    simp only [BitVec.slt, hz, decide_eq_false_iff_not, not_lt]
    exact h
  show BitVec.ofBool (w.slt 0#32) = 0#1
  rw [this]; rfl

/-- … is at least 0 … -/
theorem sge_zero_of_nonneg (w : BitVec 32) (h : 0 ≤ w.toInt) : IntOp.cmpi .sge w 0#32 = 1#1 := by
  have hz : (0#32 : BitVec 32).toInt = 0 := by decide
  have : (0#32 : BitVec 32).sle w = true := by
    simp only [BitVec.sle, hz, decide_eq_true_eq]
    exact h
  show BitVec.ofBool ((0#32 : BitVec 32).sle w) = 1#1
  rw [this]; rfl

/-- … and one that reads below 50000 is at most 49999. -/
theorem sle_max_of_lt (w : BitVec 32) (h : w.toInt < 50000) : IntOp.cmpi .sle w 49999#32 = 1#1 := by
  have hz : (49999#32 : BitVec 32).toInt = 49999 := by decide
  have : w.sle 49999#32 = true := by
    simp only [BitVec.sle, hz, decide_eq_true_eq]
    omega
  show BitVec.ofBool (w.sle 49999#32) = 1#1
  rw [this]; rfl

/-- Non-negative source words are not moved: the column holds the words themselves. -/
theorem wrapCol_apply (src : IVec S600000 32) (hs : ∀ e : Fin 600000, 0 ≤ (src (ix1 e)).toInt) (p : Fin 600000) :
    KDefs.wrapCol src (ix2 p (0 : Fin 1)) = src (ix1 p) := by
  unfold KDefs.wrapCol
  refine (broadcastInDim_apply _ _ _ (ix2 p (0 : Fin 1)) (ix1 p) fun a => ?_).trans ?_
  · match a with
    | ⟨0, _⟩ => rfl
  · have hc : cmpi .slt src (broadcastInDim S600000 ![] bcast_S_S600000 (constantI S_ 32 0#32)) (ix1 p) = 0#1 :=
      slt_zero_of_nonneg _ (hs p)
    rw [select_apply, hc, select_zero]

/-- Every edge's source word is in range: the mask is 1 everywhere. -/
theorem inb_apply (src : IVec S600000 32)
    (hs : ∀ e : Fin 600000, 0 ≤ (src (ix1 e)).toInt ∧ (src (ix1 e)).toInt < 50000) (j : S600000.Idx) :
    KDefs.inb src j = 1#1 := by
  unfold KDefs.inb
  show Host.reduce IntOp.andi _ _ reducesTo_S600000x1_S600000_d1 h_S_ j = 1#1
  rw [Host.reduce_eq_foldl]
  show List.foldl _ 1#1 _ = 1#1
  refine foldl_andi_one _ _ fun i _ => ?_
  obtain ⟨p, z, rfl⟩ : ∃ (p : Fin 600000) (z : Fin 1), i = ix2 p z := ⟨i 0, i 1, eq_ix2 i⟩
  obtain rfl : z = 0 := Subsingleton.elim _ _
  show IntOp.andi (IntOp.cmpi .sge (KDefs.wrapCol src (ix2 p (0 : Fin 1))) 0#32)
    (IntOp.cmpi .sle (KDefs.wrapCol src (ix2 p (0 : Fin 1))) 49999#32) = 1#1
  rw [wrapCol_apply src (fun e => (hs e).1) p, sge_zero_of_nonneg _ (hs p).1, sle_max_of_lt _ (hs p).2]
  decide

/-- With every source word in range the rows taken are the rows the words name. -/
theorem take_eq (x : FVec Ideal S50000x128 .f32) (src : IVec S600000 32)
    (hs : ∀ e : Fin 600000, 0 ≤ (src (ix1 e)).toInt ∧ (src (ix1 e)).toInt < 50000) :
    KDefs.take (F := Ideal) x src = Cert.Spec.gath x src := by
  funext i
  obtain ⟨p, q, rfl⟩ : ∃ (p : Fin 600000) (q : Fin 128), i = ix2 p q := ⟨i 0, i 1, eq_ix2 i⟩
  unfold KDefs.take Cert.Spec.gath
  have hm : (broadcastInDim S600000x128 ![0] bcast_S600000_S600000x128_0 (KDefs.inb src)) (ix2 p q) = 1#1 := by
    refine (broadcastInDim_apply _ _ (KDefs.inb src) _ (ix1 p) fun a => ?_).trans (inb_apply src hs _)
    match a with
    | ⟨0, _⟩ => rfl
  rw [select_apply, hm, select_one]
  show Host.gather (Cert.LibRows.rowGatherDims 50000 600000 128 gather_S50000x128_S600000x1_S600000x128_1_0_n_n_0_1_1128_wf)
      x (KDefs.wrapCol src) (ix2 p q) = _
  rw [Cert.LibRows.rowGather_apply (by decide)]
  refine congrArg x (congrArg (fun r : Fin 50000 => ix2 r q) (Fin.ext ?_))
  show min (KDefs.wrapCol src (ix2 p (0 : Fin 1))).toInt.toNat (50000 - 1) = min (src (ix1 p)).toInt.toNat 49999
  rw [wrapCol_apply src (fun e => (hs e).1) p]

/-! ## A layer, and the three layers -/

/-- One layer of the program is one layer of the specification when the source words are in range. -/
theorem layer_eq (x : FVec Ideal S50000x128 .f32) (a1 : IVec S2x600000 32) (a2 : IVec S600000 32)
    (Wl : FVec Ideal S4x128x128 .f32) (rootl : FVec Ideal S128x128 .f32) (b : Fin 128 → EReal)
    (hs : ∀ e : Fin 600000, 0 ≤ (Cert.Spec.srcOf a1 (ix1 e)).toInt ∧ (Cert.Spec.srcOf a1 (ix1 e)).toInt < 50000) :
    KDefs.layer x a1 a2 Wl rootl (fun j => b (j 1))
      = Cert.Spec.layer x (Cert.Spec.srcOf a1) (Cert.Spec.dstOf a1) a2 Wl rootl b := by
  unfold KDefs.layer Cert.Spec.layer
  rw [srcOf_eq, dstOf_eq, etCol_eq, take_eq x _ hs, segsum_eq]

/-- The host side of the program, composed with the regions' functions, is the specification on its domain. -/
theorem value_eq (a0 : IVec S50000 32) (a1 : IVec S2x600000 32) (a2 : IVec S600000 32) (a3 : FVec Ideal S16x128 .f32)
    (a4 : FVec Ideal S3x4x128x128 .f32) (a5 : FVec Ideal S3x128x128 .f32) (a6 : FVec Ideal S3x128 .f32)
    (h : Cert.Spec.InRange a0 a1) :
    Cert.KernelIdeal.KDefs.value a0 a1 a2 a3 a4 a5 a6 = Cert.Spec.result a0 a1 a2 a3 a4 a5 a6 := by
  have hs : ∀ e : Fin 600000,
      0 ≤ (Cert.Spec.srcOf a1 (ix1 e)).toInt ∧ (Cert.Spec.srcOf a1 (ix1 e)).toInt < 50000 := fun e => h.2 e
  unfold KDefs.value Cert.Spec.result
  rw [ntCol_eq, Wl0_eq, Wl1_eq, Wl2_eq, rootl0_eq, rootl1_eq, rootl2_eq, biasl0_eq, biasl1_eq, biasl2_eq,
    layer_eq _ a1 a2 _ _ (Cert.Spec.biasAt a6 0) hs, layer_eq _ a1 a2 _ _ (Cert.Spec.biasAt a6 1) hs,
    layer_eq _ a1 a2 _ _ (Cert.Spec.biasAt a6 2) hs]

end Cert.KernelIdeal.KMath

end
-- ==== Proof.ROps.lean ====
/-
  The operations of the idealized reference program, in the program's order, as lists: one list per
  stretch of the program that ends at a call of an outlined function or at a window's end, an outlined
  function's operations written at its call over the call's own buffers (the callee's arguments the
  operands, its values the record's fields). A window's list is its stretches joined, the program's
  the windows' joined. With each list, that every operation in it touches TensorCore buffers only.
-/
import proofs.«411858_j26792005992743_1_alg».proof.Proof.Gen.ReferenceIdeal
import Idealize.ShloMosaic.Lib.StableHlo.Run

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- Stretch 0 (in window 0): 19 operations. -/
abbrev seg0 : List (HloOp τ sig (Elt F)) :=
  [ StableHlo.nullary main_c (constantI S_ 32 0#32),
    StableHlo.unary main_c main_v0 (broadcastInDim S50000 ![] bcast_S_S50000 : (⟨S_, .i32⟩ : BufTy).Contents (Elt F) → (⟨S50000, .i32⟩ : BufTy).Contents (Elt F)),
    StableHlo.binary main_arg0 main_v0 main_v1 (cmpi .slt : (⟨S50000, .i32⟩ : BufTy).Contents (Elt F) → (⟨S50000, .i32⟩ : BufTy).Contents (Elt F) → (⟨S50000, .i1⟩ : BufTy).Contents (Elt F)),
    StableHlo.nullary main_c_0 (constantI S_ 32 16#32),
    StableHlo.unary main_c_0 main_v2 (broadcastInDim S50000 ![] bcast_S_S50000 : (⟨S_, .i32⟩ : BufTy).Contents (Elt F) → (⟨S50000, .i32⟩ : BufTy).Contents (Elt F)),
    StableHlo.binary main_arg0 main_v2 main_v3 (addi : (⟨S50000, .i32⟩ : BufTy).Contents (Elt F) → (⟨S50000, .i32⟩ : BufTy).Contents (Elt F) → (⟨S50000, .i32⟩ : BufTy).Contents (Elt F)),
    StableHlo.ternary main_v1 main_v3 main_arg0 main_v4 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    StableHlo.unary main_v4 main_v5 (broadcastInDim S50000x1 ![0] bcast_S50000_S50000x1_0 : (⟨S50000, .i32⟩ : BufTy).Contents (Elt F) → (⟨S50000x1, .i32⟩ : BufTy).Contents (Elt F)),
    StableHlo.binary main_arg3 main_v5 main_v6 ((fun x i => Host.gather gather_S16x128_S50000x1_S50000x128_1_0_n_n_0_1_1128 x i) : (⟨S16x128, .f32⟩ : BufTy).Contents (Elt F) → (⟨S50000x1, .i32⟩ : BufTy).Contents (Elt F) → (⟨S50000x128, .f32⟩ : BufTy).Contents (Elt F)),
    StableHlo.unary main_arg1 main_v7 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v7 main_v8 rfl shapeCasts_S1x600000_S600000,
    StableHlo.unary main_arg1 main_v9 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v9 main_v10 rfl shapeCasts_S1x600000_S600000,
    StableHlo.TRef.unary (.of main_arg2 : StableHlo.TRef sig ⟨S600000, .i32⟩) main_call0.v0 (broadcastInDim S600000x1 ![0] bcast_S600000_S600000x1_0),
    StableHlo.TRef.nullary main_call0.v1 (iotaInDim S1x4 32 1),
    StableHlo.TRef.unary main_call0.v0 main_call0.v2 (broadcastInDim S600000x4 ![0, 1] bcast_S600000x1_S600000x4_0_1),
    StableHlo.TRef.unary main_call0.v1 main_call0.v3 (broadcastInDim S600000x4 ![0, 1] bcast_S1x4_S600000x4_0_1),
    StableHlo.TRef.binary main_call0.v2 main_call0.v3 main_call0.v4 (cmpi .eq),
    StableHlo.TRef.unary main_call0.v4 main_call0.v5 (uitofp .f32) ]

theorem seg0_sub : (seg0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., nullary_bufs_sub .., unary_bufs_sub .., unary_bufs_sub .., binary_bufs_sub .., unary_bufs_sub ..⟩

/-- Stretch 1 (in window 0): 46 operations. -/
abbrev seg1 : List (HloOp τ sig (Elt F)) :=
  [ StableHlo.nullary main_c_1 (constantI S_ 32 0#32),
    StableHlo.unary main_c_1 main_v12 (broadcastInDim S600000 ![] bcast_S_S600000 : (⟨S_, .i32⟩ : BufTy).Contents (Elt F) → (⟨S600000, .i32⟩ : BufTy).Contents (Elt F)),
    StableHlo.binary main_v8 main_v12 main_v13 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 50000#32),
    StableHlo.unary main_c_2 main_v14 (broadcastInDim S600000 ![] bcast_S_S600000 : (⟨S_, .i32⟩ : BufTy).Contents (Elt F) → (⟨S600000, .i32⟩ : BufTy).Contents (Elt F)),
    StableHlo.binary main_v8 main_v14 main_v15 (addi : (⟨S600000, .i32⟩ : BufTy).Contents (Elt F) → (⟨S600000, .i32⟩ : BufTy).Contents (Elt F) → (⟨S600000, .i32⟩ : BufTy).Contents (Elt F)),
    StableHlo.ternary main_v13 main_v15 main_v8 main_v16 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v16 main_v17 (broadcastInDim S600000x1 ![0] bcast_S600000_S600000x1_0 : (⟨S600000, .i32⟩ : BufTy).Contents (Elt F) → (⟨S600000x1, .i32⟩ : BufTy).Contents (Elt F)),
    StableHlo.binary main_v6 main_v17 main_v18 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v19 (broadcastInDim S50000x128 ![] bcast_S_S50000x128 : (⟨S_, .f32⟩ : BufTy).Contents (Elt F) → (⟨S50000x128, .f32⟩ : BufTy).Contents (Elt F)),
    StableHlo.unary main_v11 main_v20 ((extractStridedSlice S600000x1 ![0, 0] · slices_S600000x4_S600000x1_0_0) : (⟨S600000x4, .f32⟩ : BufTy).Contents (Elt F) → (⟨S600000x1, .f32⟩ : BufTy).Contents (Elt F)),
    StableHlo.unary main_v20 main_v21 (broadcastInDim S600000x128 ![0, 1] bcast_S600000x1_S600000x128_0_1 : (⟨S600000x1, .f32⟩ : BufTy).Contents (Elt F) → (⟨S600000x128, .f32⟩ : BufTy).Contents (Elt F)),
    StableHlo.binary main_v18 main_v21 main_v22 (mulf : (⟨S600000x128, .f32⟩ : BufTy).Contents (Elt F) → (⟨S600000x128, .f32⟩ : BufTy).Contents (Elt F) → (⟨S600000x128, .f32⟩ : BufTy).Contents (Elt F)),
    StableHlo.unary main_arg4 main_v23 ((extractStridedSlice S1x1x128x128 ![0, 0, 0, 0] · slices_S3x4x128x128_S1x1x128x128_0_0_0_0) : (⟨S3x4x128x128, .f32⟩ : BufTy).Contents (Elt F) → (⟨S1x1x128x128, .f32⟩ : BufTy).Contents (Elt F)),
    StableHlo.reshape main_v23 main_v24 rfl shapeCasts_S1x1x128x128_S128x128,
    StableHlo.binary main_v22 main_v24 main_v25 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_3 (constant S_ .f32 0x00000000#32),
    StableHlo.unary main_cst_3 main_v26 (broadcastInDim S50000x128 ![] bcast_S_S50000x128 : (⟨S_, .f32⟩ : BufTy).Contents (Elt F) → (⟨S50000x128, .f32⟩ : BufTy).Contents (Elt F)),
    StableHlo.unary main_v10 main_v27 (broadcastInDim S600000x1 ![0] bcast_S600000_S600000x1_0 : (⟨S600000, .i32⟩ : BufTy).Contents (Elt F) → (⟨S600000x1, .i32⟩ : BufTy).Contents (Elt F)),
    StableHlo.ternary main_v26 main_v27 main_v25 main_v28 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v19 main_v28 main_v29 (addf : (⟨S50000x128, .f32⟩ : BufTy).Contents (Elt F) → (⟨S50000x128, .f32⟩ : BufTy).Contents (Elt F) → (⟨S50000x128, .f32⟩ : BufTy).Contents (Elt F)),
    StableHlo.unary main_v11 main_v30 ((extractStridedSlice S600000x1 ![0, 1] · slices_S600000x4_S600000x1_0_1) : (⟨S600000x4, .f32⟩ : BufTy).Contents (Elt F) → (⟨S600000x1, .f32⟩ : BufTy).Contents (Elt F)),
    StableHlo.unary main_v30 main_v31 (broadcastInDim S600000x128 ![0, 1] bcast_S600000x1_S600000x128_0_1 : (⟨S600000x1, .f32⟩ : BufTy).Contents (Elt F) → (⟨S600000x128, .f32⟩ : BufTy).Contents (Elt F)),
    StableHlo.binary main_v18 main_v31 main_v32 (mulf : (⟨S600000x128, .f32⟩ : BufTy).Contents (Elt F) → (⟨S600000x128, .f32⟩ : BufTy).Contents (Elt F) → (⟨S600000x128, .f32⟩ : BufTy).Contents (Elt F)),
    StableHlo.unary main_arg4 main_v33 ((extractStridedSlice S1x1x128x128 ![0, 1, 0, 0] · slices_S3x4x128x128_S1x1x128x128_0_1_0_0) : (⟨S3x4x128x128, .f32⟩ : BufTy).Contents (Elt F) → (⟨S1x1x128x128, .f32⟩ : BufTy).Contents (Elt F)),
    StableHlo.reshape main_v33 main_v34 rfl shapeCasts_S1x1x128x128_S128x128,
    StableHlo.binary main_v32 main_v34 main_v35 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_4 (constant S_ .f32 0x00000000#32),
    StableHlo.unary main_cst_4 main_v36 (broadcastInDim S50000x128 ![] bcast_S_S50000x128 : (⟨S_, .f32⟩ : BufTy).Contents (Elt F) → (⟨S50000x128, .f32⟩ : BufTy).Contents (Elt F)),
    StableHlo.unary main_v10 main_v37 (broadcastInDim S600000x1 ![0] bcast_S600000_S600000x1_0 : (⟨S600000, .i32⟩ : BufTy).Contents (Elt F) → (⟨S600000x1, .i32⟩ : BufTy).Contents (Elt F)),
    StableHlo.ternary main_v36 main_v37 main_v35 main_v38 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v29 main_v38 main_v39 (addf : (⟨S50000x128, .f32⟩ : BufTy).Contents (Elt F) → (⟨S50000x128, .f32⟩ : BufTy).Contents (Elt F) → (⟨S50000x128, .f32⟩ : BufTy).Contents (Elt F)),
    StableHlo.unary main_v11 main_v40 ((extractStridedSlice S600000x1 ![0, 2] · slices_S600000x4_S600000x1_0_2) : (⟨S600000x4, .f32⟩ : BufTy).Contents (Elt F) → (⟨S600000x1, .f32⟩ : BufTy).Contents (Elt F)),
    StableHlo.unary main_v40 main_v41 (broadcastInDim S600000x128 ![0, 1] bcast_S600000x1_S600000x128_0_1 : (⟨S600000x1, .f32⟩ : BufTy).Contents (Elt F) → (⟨S600000x128, .f32⟩ : BufTy).Contents (Elt F)),
    StableHlo.binary main_v18 main_v41 main_v42 (mulf : (⟨S600000x128, .f32⟩ : BufTy).Contents (Elt F) → (⟨S600000x128, .f32⟩ : BufTy).Contents (Elt F) → (⟨S600000x128, .f32⟩ : BufTy).Contents (Elt F)),
    StableHlo.unary main_arg4 main_v43 ((extractStridedSlice S1x1x128x128 ![0, 2, 0, 0] · slices_S3x4x128x128_S1x1x128x128_0_2_0_0) : (⟨S3x4x128x128, .f32⟩ : BufTy).Contents (Elt F) → (⟨S1x1x128x128, .f32⟩ : BufTy).Contents (Elt F)),
    StableHlo.reshape main_v43 main_v44 rfl shapeCasts_S1x1x128x128_S128x128,
    StableHlo.binary main_v42 main_v44 main_v45 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_5 (constant S_ .f32 0x00000000#32),
    StableHlo.unary main_cst_5 main_v46 (broadcastInDim S50000x128 ![] bcast_S_S50000x128 : (⟨S_, .f32⟩ : BufTy).Contents (Elt F) → (⟨S50000x128, .f32⟩ : BufTy).Contents (Elt F)),
    StableHlo.unary main_v10 main_v47 (broadcastInDim S600000x1 ![0] bcast_S600000_S600000x1_0 : (⟨S600000, .i32⟩ : BufTy).Contents (Elt F) → (⟨S600000x1, .i32⟩ : BufTy).Contents (Elt F)),
    StableHlo.ternary main_v46 main_v47 main_v45 main_v48 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v39 main_v48 main_v49 (addf : (⟨S50000x128, .f32⟩ : BufTy).Contents (Elt F) → (⟨S50000x128, .f32⟩ : BufTy).Contents (Elt F) → (⟨S50000x128, .f32⟩ : BufTy).Contents (Elt F)),
    StableHlo.unary main_v11 main_v50 ((extractStridedSlice S600000x1 ![0, 3] · slices_S600000x4_S600000x1_0_3) : (⟨S600000x4, .f32⟩ : BufTy).Contents (Elt F) → (⟨S600000x1, .f32⟩ : BufTy).Contents (Elt F)),
    StableHlo.unary main_v50 main_v51 (broadcastInDim S600000x128 ![0, 1] bcast_S600000x1_S600000x128_0_1 : (⟨S600000x1, .f32⟩ : BufTy).Contents (Elt F) → (⟨S600000x128, .f32⟩ : BufTy).Contents (Elt F)) ]

theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., binary_bufs_sub .., unary_bufs_sub .., reshape_bufs_sub .., binary_bufs_sub .., nullary_bufs_sub .., unary_bufs_sub .., unary_bufs_sub .., ternary_bufs_sub .., binary_bufs_sub .., unary_bufs_sub .., unary_bufs_sub .., binary_bufs_sub .., unary_bufs_sub .., reshape_bufs_sub .., binary_bufs_sub .., nullary_bufs_sub .., unary_bufs_sub .., unary_bufs_sub .., ternary_bufs_sub .., binary_bufs_sub .., unary_bufs_sub .., unary_bufs_sub .., binary_bufs_sub .., unary_bufs_sub .., reshape_bufs_sub .., binary_bufs_sub .., nullary_bufs_sub .., unary_bufs_sub .., unary_bufs_sub .., ternary_bufs_sub .., binary_bufs_sub .., unary_bufs_sub .., unary_bufs_sub ..⟩

/-- Stretch 2 (in window 1): 26 operations. -/
abbrev seg2 : List (HloOp τ sig (Elt F)) :=
  [ StableHlo.binary main_v18 main_v51 main_v52 (mulf : (⟨S600000x128, .f32⟩ : BufTy).Contents (Elt F) → (⟨S600000x128, .f32⟩ : BufTy).Contents (Elt F) → (⟨S600000x128, .f32⟩ : BufTy).Contents (Elt F)),
    StableHlo.unary main_arg4 main_v53 ((extractStridedSlice S1x1x128x128 ![0, 3, 0, 0] · slices_S3x4x128x128_S1x1x128x128_0_3_0_0) : (⟨S3x4x128x128, .f32⟩ : BufTy).Contents (Elt F) → (⟨S1x1x128x128, .f32⟩ : BufTy).Contents (Elt F)),
    StableHlo.reshape main_v53 main_v54 rfl shapeCasts_S1x1x128x128_S128x128,
    StableHlo.binary main_v52 main_v54 main_v55 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_6 (constant S_ .f32 0x00000000#32),
    StableHlo.unary main_cst_6 main_v56 (broadcastInDim S50000x128 ![] bcast_S_S50000x128 : (⟨S_, .f32⟩ : BufTy).Contents (Elt F) → (⟨S50000x128, .f32⟩ : BufTy).Contents (Elt F)),
    StableHlo.unary main_v10 main_v57 (broadcastInDim S600000x1 ![0] bcast_S600000_S600000x1_0 : (⟨S600000, .i32⟩ : BufTy).Contents (Elt F) → (⟨S600000x1, .i32⟩ : BufTy).Contents (Elt F)),
    StableHlo.ternary main_v56 main_v57 main_v55 main_v58 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v49 main_v58 main_v59 (addf : (⟨S50000x128, .f32⟩ : BufTy).Contents (Elt F) → (⟨S50000x128, .f32⟩ : BufTy).Contents (Elt F) → (⟨S50000x128, .f32⟩ : BufTy).Contents (Elt F)),
    StableHlo.unary main_arg5 main_v60 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v60 main_v61 rfl shapeCasts_S1x128x128_S128x128,
    StableHlo.binary main_v6 main_v61 main_v62 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v59 main_v62 main_v63 (addf : (⟨S50000x128, .f32⟩ : BufTy).Contents (Elt F) → (⟨S50000x128, .f32⟩ : BufTy).Contents (Elt F) → (⟨S50000x128, .f32⟩ : BufTy).Contents (Elt F)),
    StableHlo.unary main_arg6 main_v64 ((extractStridedSlice S1x128 ![0, 0] · slices_S3x128_S1x128_0_0) : (⟨S3x128, .f32⟩ : BufTy).Contents (Elt F) → (⟨S1x128, .f32⟩ : BufTy).Contents (Elt F)),
    StableHlo.reshape main_v64 main_v65 rfl shapeCasts_S1x128_S128,
    StableHlo.unary main_v65 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v67 main_v68 (addf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3C23D70A#32),
    StableHlo.TRef.nullary main_call1.cst (constant S_ .f32 0x00000000#32),
    StableHlo.TRef.unary main_call1.cst main_call1.v0 (broadcastInDim S50000x128 ![] bcast_S_S50000x128),
    StableHlo.TRef.binary (.of main_v68 : StableHlo.TRef sig ⟨S50000x128, .f32⟩) main_call1.v0 main_call1.v1 (cmpf .oge),
    StableHlo.TRef.unary (.of main_cst_7 : StableHlo.TRef sig ⟨S_, .f32⟩) main_call1.v2 id,
    StableHlo.TRef.unary main_call1.v2 main_call1.v3 (broadcastInDim S50000x128 ![] bcast_S_S50000x128),
    StableHlo.TRef.binary main_call1.v3 (.of main_v68 : StableHlo.TRef sig ⟨S50000x128, .f32⟩) main_call1.v4 mulf,
    StableHlo.TRef.ternary main_call1.v1 (.of main_v68 : StableHlo.TRef sig ⟨S50000x128, .f32⟩) main_call1.v4 main_call1.call0.v0 select ]

theorem seg2_sub : (seg2 : List (HloOp τ sig (Elt F))).Forall fun op => op.bufs ⊆ tcRefs τ sig :=
  ⟨binary_bufs_sub .., unary_bufs_sub .., reshape_bufs_sub .., binary_bufs_sub .., nullary_bufs_sub .., unary_bufs_sub .., unary_bufs_sub .., ternary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Stretch 3 (in window 1): 40 operations. -/
abbrev seg3 : List (HloOp τ sig (Elt F)) :=
  [ StableHlo.nullary main_c_8 (constantI S_ 32 0#32),
    StableHlo.unary main_c_8 main_v70 (broadcastInDim S600000 ![] bcast_S_S600000 : (⟨S_, .i32⟩ : BufTy).Contents (Elt F) → (⟨S600000, .i32⟩ : BufTy).Contents (Elt F)),
    StableHlo.binary main_v8 main_v70 main_v71 (cmpi .slt : (⟨S600000, .i32⟩ : BufTy).Contents (Elt F) → (⟨S600000, .i32⟩ : BufTy).Contents (Elt F) → (⟨S600000, .i1⟩ : BufTy).Contents (Elt F)),
    StableHlo.nullary main_c_9 (constantI S_ 32 50000#32),
    StableHlo.unary main_c_9 main_v72 (broadcastInDim S600000 ![] bcast_S_S600000 : (⟨S_, .i32⟩ : BufTy).Contents (Elt F) → (⟨S600000, .i32⟩ : BufTy).Contents (Elt F)),
    StableHlo.binary main_v8 main_v72 main_v73 (addi : (⟨S600000, .i32⟩ : BufTy).Contents (Elt F) → (⟨S600000, .i32⟩ : BufTy).Contents (Elt F) → (⟨S600000, .i32⟩ : BufTy).Contents (Elt F)),
    StableHlo.ternary main_v71 main_v73 main_v8 main_v74 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v74 main_v75 (broadcastInDim S600000x1 ![0] bcast_S600000_S600000x1_0 : (⟨S600000, .i32⟩ : BufTy).Contents (Elt F) → (⟨S600000x1, .i32⟩ : BufTy).Contents (Elt F)),
    StableHlo.binary main_v69 main_v75 main_v76 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_10 (constant S_ .f32 0x00000000#32),
    StableHlo.unary main_cst_10 main_v77 (broadcastInDim S50000x128 ![] bcast_S_S50000x128 : (⟨S_, .f32⟩ : BufTy).Contents (Elt F) → (⟨S50000x128, .f32⟩ : BufTy).Contents (Elt F)),
    StableHlo.unary main_v11 main_v78 ((extractStridedSlice S600000x1 ![0, 0] · slices_S600000x4_S600000x1_0_0) : (⟨S600000x4, .f32⟩ : BufTy).Contents (Elt F) → (⟨S600000x1, .f32⟩ : BufTy).Contents (Elt F)),
    StableHlo.unary main_v78 main_v79 (broadcastInDim S600000x128 ![0, 1] bcast_S600000x1_S600000x128_0_1 : (⟨S600000x1, .f32⟩ : BufTy).Contents (Elt F) → (⟨S600000x128, .f32⟩ : BufTy).Contents (Elt F)),
    StableHlo.binary main_v76 main_v79 main_v80 (mulf : (⟨S600000x128, .f32⟩ : BufTy).Contents (Elt F) → (⟨S600000x128, .f32⟩ : BufTy).Contents (Elt F) → (⟨S600000x128, .f32⟩ : BufTy).Contents (Elt F)),
    StableHlo.unary main_arg4 main_v81 ((extractStridedSlice S1x1x128x128 ![1, 0, 0, 0] · slices_S3x4x128x128_S1x1x128x128_1_0_0_0) : (⟨S3x4x128x128, .f32⟩ : BufTy).Contents (Elt F) → (⟨S1x1x128x128, .f32⟩ : BufTy).Contents (Elt F)),
    StableHlo.reshape main_v81 main_v82 rfl shapeCasts_S1x1x128x128_S128x128,
    StableHlo.binary main_v80 main_v82 main_v83 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_11 (constant S_ .f32 0x00000000#32),
    StableHlo.unary main_cst_11 main_v84 (broadcastInDim S50000x128 ![] bcast_S_S50000x128 : (⟨S_, .f32⟩ : BufTy).Contents (Elt F) → (⟨S50000x128, .f32⟩ : BufTy).Contents (Elt F)),
    StableHlo.unary main_v10 main_v85 (broadcastInDim S600000x1 ![0] bcast_S600000_S600000x1_0 : (⟨S600000, .i32⟩ : BufTy).Contents (Elt F) → (⟨S600000x1, .i32⟩ : BufTy).Contents (Elt F)),
    StableHlo.ternary main_v84 main_v85 main_v83 main_v86 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v77 main_v86 main_v87 (addf : (⟨S50000x128, .f32⟩ : BufTy).Contents (Elt F) → (⟨S50000x128, .f32⟩ : BufTy).Contents (Elt F) → (⟨S50000x128, .f32⟩ : BufTy).Contents (Elt F)),
    StableHlo.unary main_v11 main_v88 ((extractStridedSlice S600000x1 ![0, 1] · slices_S600000x4_S600000x1_0_1) : (⟨S600000x4, .f32⟩ : BufTy).Contents (Elt F) → (⟨S600000x1, .f32⟩ : BufTy).Contents (Elt F)),
    StableHlo.unary main_v88 main_v89 (broadcastInDim S600000x128 ![0, 1] bcast_S600000x1_S600000x128_0_1 : (⟨S600000x1, .f32⟩ : BufTy).Contents (Elt F) → (⟨S600000x128, .f32⟩ : BufTy).Contents (Elt F)),
    StableHlo.binary main_v76 main_v89 main_v90 (mulf : (⟨S600000x128, .f32⟩ : BufTy).Contents (Elt F) → (⟨S600000x128, .f32⟩ : BufTy).Contents (Elt F) → (⟨S600000x128, .f32⟩ : BufTy).Contents (Elt F)),
    StableHlo.unary main_arg4 main_v91 ((extractStridedSlice S1x1x128x128 ![1, 1, 0, 0] · slices_S3x4x128x128_S1x1x128x128_1_1_0_0) : (⟨S3x4x128x128, .f32⟩ : BufTy).Contents (Elt F) → (⟨S1x1x128x128, .f32⟩ : BufTy).Contents (Elt F)),
    StableHlo.reshape main_v91 main_v92 rfl shapeCasts_S1x1x128x128_S128x128,
    StableHlo.binary main_v90 main_v92 main_v93 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_12 (constant S_ .f32 0x00000000#32),
    StableHlo.unary main_cst_12 main_v94 (broadcastInDim S50000x128 ![] bcast_S_S50000x128 : (⟨S_, .f32⟩ : BufTy).Contents (Elt F) → (⟨S50000x128, .f32⟩ : BufTy).Contents (Elt F)),
    StableHlo.unary main_v10 main_v95 (broadcastInDim S600000x1 ![0] bcast_S600000_S600000x1_0 : (⟨S600000, .i32⟩ : BufTy).Contents (Elt F) → (⟨S600000x1, .i32⟩ : BufTy).Contents (Elt F)),
    StableHlo.ternary main_v94 main_v95 main_v93 main_v96 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v87 main_v96 main_v97 (addf : (⟨S50000x128, .f32⟩ : BufTy).Contents (Elt F) → (⟨S50000x128, .f32⟩ : BufTy).Contents (Elt F) → (⟨S50000x128, .f32⟩ : BufTy).Contents (Elt F)),
    StableHlo.unary main_v11 main_v98 ((extractStridedSlice S600000x1 ![0, 2] · slices_S600000x4_S600000x1_0_2) : (⟨S600000x4, .f32⟩ : BufTy).Contents (Elt F) → (⟨S600000x1, .f32⟩ : BufTy).Contents (Elt F)),
    StableHlo.unary main_v98 main_v99 (broadcastInDim S600000x128 ![0, 1] bcast_S600000x1_S600000x128_0_1 : (⟨S600000x1, .f32⟩ : BufTy).Contents (Elt F) → (⟨S600000x128, .f32⟩ : BufTy).Contents (Elt F)),
    StableHlo.binary main_v76 main_v99 main_v100 (mulf : (⟨S600000x128, .f32⟩ : BufTy).Contents (Elt F) → (⟨S600000x128, .f32⟩ : BufTy).Contents (Elt F) → (⟨S600000x128, .f32⟩ : BufTy).Contents (Elt F)),
    StableHlo.unary main_arg4 main_v101 ((extractStridedSlice S1x1x128x128 ![1, 2, 0, 0] · slices_S3x4x128x128_S1x1x128x128_1_2_0_0) : (⟨S3x4x128x128, .f32⟩ : BufTy).Contents (Elt F) → (⟨S1x1x128x128, .f32⟩ : BufTy).Contents (Elt F)),
    StableHlo.reshape main_v101 main_v102 rfl shapeCasts_S1x1x128x128_S128x128,
    StableHlo.binary main_v100 main_v102 main_v103 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_13 (constant S_ .f32 0x00000000#32) ]

theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., binary_bufs_sub .., unary_bufs_sub .., reshape_bufs_sub .., binary_bufs_sub .., nullary_bufs_sub .., unary_bufs_sub .., unary_bufs_sub .., ternary_bufs_sub .., binary_bufs_sub .., unary_bufs_sub .., unary_bufs_sub .., binary_bufs_sub .., unary_bufs_sub .., reshape_bufs_sub .., binary_bufs_sub .., nullary_bufs_sub .., unary_bufs_sub .., unary_bufs_sub .., ternary_bufs_sub .., binary_bufs_sub .., unary_bufs_sub .., unary_bufs_sub .., binary_bufs_sub .., unary_bufs_sub .., reshape_bufs_sub .., binary_bufs_sub .., nullary_bufs_sub ..⟩

/-- Stretch 4 (in window 2): 32 operations. -/
abbrev seg4 : List (HloOp τ sig (Elt F)) :=
  [ StableHlo.unary main_cst_13 main_v104 (broadcastInDim S50000x128 ![] bcast_S_S50000x128 : (⟨S_, .f32⟩ : BufTy).Contents (Elt F) → (⟨S50000x128, .f32⟩ : BufTy).Contents (Elt F)),
    StableHlo.unary main_v10 main_v105 (broadcastInDim S600000x1 ![0] bcast_S600000_S600000x1_0 : (⟨S600000, .i32⟩ : BufTy).Contents (Elt F) → (⟨S600000x1, .i32⟩ : BufTy).Contents (Elt F)),
    StableHlo.ternary main_v104 main_v105 main_v103 main_v106 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v97 main_v106 main_v107 (addf : (⟨S50000x128, .f32⟩ : BufTy).Contents (Elt F) → (⟨S50000x128, .f32⟩ : BufTy).Contents (Elt F) → (⟨S50000x128, .f32⟩ : BufTy).Contents (Elt F)),
    StableHlo.unary main_v11 main_v108 ((extractStridedSlice S600000x1 ![0, 3] · slices_S600000x4_S600000x1_0_3) : (⟨S600000x4, .f32⟩ : BufTy).Contents (Elt F) → (⟨S600000x1, .f32⟩ : BufTy).Contents (Elt F)),
    StableHlo.unary main_v108 main_v109 (broadcastInDim S600000x128 ![0, 1] bcast_S600000x1_S600000x128_0_1 : (⟨S600000x1, .f32⟩ : BufTy).Contents (Elt F) → (⟨S600000x128, .f32⟩ : BufTy).Contents (Elt F)),
    StableHlo.binary main_v76 main_v109 main_v110 (mulf : (⟨S600000x128, .f32⟩ : BufTy).Contents (Elt F) → (⟨S600000x128, .f32⟩ : BufTy).Contents (Elt F) → (⟨S600000x128, .f32⟩ : BufTy).Contents (Elt F)),
    StableHlo.unary main_arg4 main_v111 ((extractStridedSlice S1x1x128x128 ![1, 3, 0, 0] · slices_S3x4x128x128_S1x1x128x128_1_3_0_0) : (⟨S3x4x128x128, .f32⟩ : BufTy).Contents (Elt F) → (⟨S1x1x128x128, .f32⟩ : BufTy).Contents (Elt F)),
    StableHlo.reshape main_v111 main_v112 rfl shapeCasts_S1x1x128x128_S128x128,
    StableHlo.binary main_v110 main_v112 main_v113 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_14 (constant S_ .f32 0x00000000#32),
    StableHlo.unary main_cst_14 main_v114 (broadcastInDim S50000x128 ![] bcast_S_S50000x128 : (⟨S_, .f32⟩ : BufTy).Contents (Elt F) → (⟨S50000x128, .f32⟩ : BufTy).Contents (Elt F)),
    StableHlo.unary main_v10 main_v115 (broadcastInDim S600000x1 ![0] bcast_S600000_S600000x1_0 : (⟨S600000, .i32⟩ : BufTy).Contents (Elt F) → (⟨S600000x1, .i32⟩ : BufTy).Contents (Elt F)),
    StableHlo.ternary main_v114 main_v115 main_v113 main_v116 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v107 main_v116 main_v117 (addf : (⟨S50000x128, .f32⟩ : BufTy).Contents (Elt F) → (⟨S50000x128, .f32⟩ : BufTy).Contents (Elt F) → (⟨S50000x128, .f32⟩ : BufTy).Contents (Elt F)),
    StableHlo.unary main_arg5 main_v118 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v118 main_v119 rfl shapeCasts_S1x128x128_S128x128,
    StableHlo.binary main_v69 main_v119 main_v120 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v117 main_v120 main_v121 (addf : (⟨S50000x128, .f32⟩ : BufTy).Contents (Elt F) → (⟨S50000x128, .f32⟩ : BufTy).Contents (Elt F) → (⟨S50000x128, .f32⟩ : BufTy).Contents (Elt F)),
    StableHlo.unary main_arg6 main_v122 ((extractStridedSlice S1x128 ![1, 0] · slices_S3x128_S1x128_1_0) : (⟨S3x128, .f32⟩ : BufTy).Contents (Elt F) → (⟨S1x128, .f32⟩ : BufTy).Contents (Elt F)),
    StableHlo.reshape main_v122 main_v123 rfl shapeCasts_S1x128_S128,
    StableHlo.unary main_v123 main_v124 (broadcastInDim S1x128 ![1] bcast_S128_S1x128_1 : (⟨S128, .f32⟩ : BufTy).Contents (Elt F) → (⟨S1x128, .f32⟩ : BufTy).Contents (Elt F)),
    StableHlo.unary main_v124 main_v125 (broadcastInDim S50000x128 ![0, 1] bcast_S1x128_S50000x128_0_1 : (⟨S1x128, .f32⟩ : BufTy).Contents (Elt F) → (⟨S50000x128, .f32⟩ : BufTy).Contents (Elt F)),
    StableHlo.binary main_v121 main_v125 main_v126 (addf : (⟨S50000x128, .f32⟩ : BufTy).Contents (Elt F) → (⟨S50000x128, .f32⟩ : BufTy).Contents (Elt F) → (⟨S50000x128, .f32⟩ : BufTy).Contents (Elt F)),
    StableHlo.nullary main_cst_15 (constant S_ .f32 0x3C23D70A#32),
    StableHlo.TRef.nullary main_call2.cst (constant S_ .f32 0x00000000#32),
    StableHlo.TRef.unary main_call2.cst main_call2.v0 (broadcastInDim S50000x128 ![] bcast_S_S50000x128),
    StableHlo.TRef.binary (.of main_v126 : StableHlo.TRef sig ⟨S50000x128, .f32⟩) main_call2.v0 main_call2.v1 (cmpf .oge),
    StableHlo.TRef.unary (.of main_cst_15 : StableHlo.TRef sig ⟨S_, .f32⟩) main_call2.v2 id,
    StableHlo.TRef.unary main_call2.v2 main_call2.v3 (broadcastInDim S50000x128 ![] bcast_S_S50000x128),
    StableHlo.TRef.binary main_call2.v3 (.of main_v126 : StableHlo.TRef sig ⟨S50000x128, .f32⟩) main_call2.v4 mulf,
    StableHlo.TRef.ternary main_call2.v1 (.of main_v126 : StableHlo.TRef sig ⟨S50000x128, .f32⟩) main_call2.v4 main_call2.call0.v0 select ]

theorem seg4_sub : (seg4 : List (HloOp τ sig (Elt F))).Forall fun op => op.bufs ⊆ tcRefs τ sig :=
  ⟨unary_bufs_sub .., unary_bufs_sub .., ternary_bufs_sub .., binary_bufs_sub .., unary_bufs_sub .., unary_bufs_sub .., binary_bufs_sub .., unary_bufs_sub .., reshape_bufs_sub .., binary_bufs_sub .., nullary_bufs_sub .., unary_bufs_sub .., unary_bufs_sub .., ternary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Stretch 5 (in window 2): 34 operations. -/
abbrev seg5 : List (HloOp τ sig (Elt F)) :=
  [ StableHlo.nullary main_c_16 (constantI S_ 32 0#32),
    StableHlo.unary main_c_16 main_v128 (broadcastInDim S600000 ![] bcast_S_S600000 : (⟨S_, .i32⟩ : BufTy).Contents (Elt F) → (⟨S600000, .i32⟩ : BufTy).Contents (Elt F)),
    StableHlo.binary main_v8 main_v128 main_v129 (cmpi .slt : (⟨S600000, .i32⟩ : BufTy).Contents (Elt F) → (⟨S600000, .i32⟩ : BufTy).Contents (Elt F) → (⟨S600000, .i1⟩ : BufTy).Contents (Elt F)),
    StableHlo.nullary main_c_17 (constantI S_ 32 50000#32),
    StableHlo.unary main_c_17 main_v130 (broadcastInDim S600000 ![] bcast_S_S600000 : (⟨S_, .i32⟩ : BufTy).Contents (Elt F) → (⟨S600000, .i32⟩ : BufTy).Contents (Elt F)),
    StableHlo.binary main_v8 main_v130 main_v131 (addi : (⟨S600000, .i32⟩ : BufTy).Contents (Elt F) → (⟨S600000, .i32⟩ : BufTy).Contents (Elt F) → (⟨S600000, .i32⟩ : BufTy).Contents (Elt F)),
    StableHlo.ternary main_v129 main_v131 main_v8 main_v132 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v132 main_v133 (broadcastInDim S600000x1 ![0] bcast_S600000_S600000x1_0 : (⟨S600000, .i32⟩ : BufTy).Contents (Elt F) → (⟨S600000x1, .i32⟩ : BufTy).Contents (Elt F)),
    StableHlo.binary main_v127 main_v133 main_v134 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_18 (constant S_ .f32 0x00000000#32),
    StableHlo.unary main_cst_18 main_v135 (broadcastInDim S50000x128 ![] bcast_S_S50000x128 : (⟨S_, .f32⟩ : BufTy).Contents (Elt F) → (⟨S50000x128, .f32⟩ : BufTy).Contents (Elt F)),
    StableHlo.unary main_v11 main_v136 ((extractStridedSlice S600000x1 ![0, 0] · slices_S600000x4_S600000x1_0_0) : (⟨S600000x4, .f32⟩ : BufTy).Contents (Elt F) → (⟨S600000x1, .f32⟩ : BufTy).Contents (Elt F)),
    StableHlo.unary main_v136 main_v137 (broadcastInDim S600000x128 ![0, 1] bcast_S600000x1_S600000x128_0_1 : (⟨S600000x1, .f32⟩ : BufTy).Contents (Elt F) → (⟨S600000x128, .f32⟩ : BufTy).Contents (Elt F)),
    StableHlo.binary main_v134 main_v137 main_v138 (mulf : (⟨S600000x128, .f32⟩ : BufTy).Contents (Elt F) → (⟨S600000x128, .f32⟩ : BufTy).Contents (Elt F) → (⟨S600000x128, .f32⟩ : BufTy).Contents (Elt F)),
    StableHlo.unary main_arg4 main_v139 ((extractStridedSlice S1x1x128x128 ![2, 0, 0, 0] · slices_S3x4x128x128_S1x1x128x128_2_0_0_0) : (⟨S3x4x128x128, .f32⟩ : BufTy).Contents (Elt F) → (⟨S1x1x128x128, .f32⟩ : BufTy).Contents (Elt F)),
    StableHlo.reshape main_v139 main_v140 rfl shapeCasts_S1x1x128x128_S128x128,
    StableHlo.binary main_v138 main_v140 main_v141 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_19 (constant S_ .f32 0x00000000#32),
    StableHlo.unary main_cst_19 main_v142 (broadcastInDim S50000x128 ![] bcast_S_S50000x128 : (⟨S_, .f32⟩ : BufTy).Contents (Elt F) → (⟨S50000x128, .f32⟩ : BufTy).Contents (Elt F)),
    StableHlo.unary main_v10 main_v143 (broadcastInDim S600000x1 ![0] bcast_S600000_S600000x1_0 : (⟨S600000, .i32⟩ : BufTy).Contents (Elt F) → (⟨S600000x1, .i32⟩ : BufTy).Contents (Elt F)),
    StableHlo.ternary main_v142 main_v143 main_v141 main_v144 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v135 main_v144 main_v145 (addf : (⟨S50000x128, .f32⟩ : BufTy).Contents (Elt F) → (⟨S50000x128, .f32⟩ : BufTy).Contents (Elt F) → (⟨S50000x128, .f32⟩ : BufTy).Contents (Elt F)),
    StableHlo.unary main_v11 main_v146 ((extractStridedSlice S600000x1 ![0, 1] · slices_S600000x4_S600000x1_0_1) : (⟨S600000x4, .f32⟩ : BufTy).Contents (Elt F) → (⟨S600000x1, .f32⟩ : BufTy).Contents (Elt F)),
    StableHlo.unary main_v146 main_v147 (broadcastInDim S600000x128 ![0, 1] bcast_S600000x1_S600000x128_0_1 : (⟨S600000x1, .f32⟩ : BufTy).Contents (Elt F) → (⟨S600000x128, .f32⟩ : BufTy).Contents (Elt F)),
    StableHlo.binary main_v134 main_v147 main_v148 (mulf : (⟨S600000x128, .f32⟩ : BufTy).Contents (Elt F) → (⟨S600000x128, .f32⟩ : BufTy).Contents (Elt F) → (⟨S600000x128, .f32⟩ : BufTy).Contents (Elt F)),
    StableHlo.unary main_arg4 main_v149 ((extractStridedSlice S1x1x128x128 ![2, 1, 0, 0] · slices_S3x4x128x128_S1x1x128x128_2_1_0_0) : (⟨S3x4x128x128, .f32⟩ : BufTy).Contents (Elt F) → (⟨S1x1x128x128, .f32⟩ : BufTy).Contents (Elt F)),
    StableHlo.reshape main_v149 main_v150 rfl shapeCasts_S1x1x128x128_S128x128,
    StableHlo.binary main_v148 main_v150 main_v151 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_20 (constant S_ .f32 0x00000000#32),
    StableHlo.unary main_cst_20 main_v152 (broadcastInDim S50000x128 ![] bcast_S_S50000x128 : (⟨S_, .f32⟩ : BufTy).Contents (Elt F) → (⟨S50000x128, .f32⟩ : BufTy).Contents (Elt F)),
    StableHlo.unary main_v10 main_v153 (broadcastInDim S600000x1 ![0] bcast_S600000_S600000x1_0 : (⟨S600000, .i32⟩ : BufTy).Contents (Elt F) → (⟨S600000x1, .i32⟩ : BufTy).Contents (Elt F)),
    StableHlo.ternary main_v152 main_v153 main_v151 main_v154 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v145 main_v154 main_v155 (addf : (⟨S50000x128, .f32⟩ : BufTy).Contents (Elt F) → (⟨S50000x128, .f32⟩ : BufTy).Contents (Elt F) → (⟨S50000x128, .f32⟩ : BufTy).Contents (Elt F)),
    StableHlo.unary main_v11 main_v156 ((extractStridedSlice S600000x1 ![0, 2] · slices_S600000x4_S600000x1_0_2) : (⟨S600000x4, .f32⟩ : BufTy).Contents (Elt F) → (⟨S600000x1, .f32⟩ : BufTy).Contents (Elt F)) ]

theorem seg5_sub : (seg5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., unary_bufs_sub .., binary_bufs_sub .., unary_bufs_sub .., reshape_bufs_sub .., binary_bufs_sub .., nullary_bufs_sub .., unary_bufs_sub .., unary_bufs_sub .., ternary_bufs_sub .., binary_bufs_sub .., unary_bufs_sub .., unary_bufs_sub .., binary_bufs_sub .., unary_bufs_sub .., reshape_bufs_sub .., binary_bufs_sub .., nullary_bufs_sub .., unary_bufs_sub .., unary_bufs_sub .., ternary_bufs_sub .., binary_bufs_sub .., unary_bufs_sub ..⟩

/-- Stretch 6 (in window 3): 38 operations. -/
abbrev seg6 : List (HloOp τ sig (Elt F)) :=
  [ StableHlo.unary main_v156 main_v157 (broadcastInDim S600000x128 ![0, 1] bcast_S600000x1_S600000x128_0_1 : (⟨S600000x1, .f32⟩ : BufTy).Contents (Elt F) → (⟨S600000x128, .f32⟩ : BufTy).Contents (Elt F)),
    StableHlo.binary main_v134 main_v157 main_v158 (mulf : (⟨S600000x128, .f32⟩ : BufTy).Contents (Elt F) → (⟨S600000x128, .f32⟩ : BufTy).Contents (Elt F) → (⟨S600000x128, .f32⟩ : BufTy).Contents (Elt F)),
    StableHlo.unary main_arg4 main_v159 ((extractStridedSlice S1x1x128x128 ![2, 2, 0, 0] · slices_S3x4x128x128_S1x1x128x128_2_2_0_0) : (⟨S3x4x128x128, .f32⟩ : BufTy).Contents (Elt F) → (⟨S1x1x128x128, .f32⟩ : BufTy).Contents (Elt F)),
    StableHlo.reshape main_v159 main_v160 rfl shapeCasts_S1x1x128x128_S128x128,
    StableHlo.binary main_v158 main_v160 main_v161 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_21 (constant S_ .f32 0x00000000#32),
    StableHlo.unary main_cst_21 main_v162 (broadcastInDim S50000x128 ![] bcast_S_S50000x128 : (⟨S_, .f32⟩ : BufTy).Contents (Elt F) → (⟨S50000x128, .f32⟩ : BufTy).Contents (Elt F)),
    StableHlo.unary main_v10 main_v163 (broadcastInDim S600000x1 ![0] bcast_S600000_S600000x1_0 : (⟨S600000, .i32⟩ : BufTy).Contents (Elt F) → (⟨S600000x1, .i32⟩ : BufTy).Contents (Elt F)),
    StableHlo.ternary main_v162 main_v163 main_v161 main_v164 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v155 main_v164 main_v165 (addf : (⟨S50000x128, .f32⟩ : BufTy).Contents (Elt F) → (⟨S50000x128, .f32⟩ : BufTy).Contents (Elt F) → (⟨S50000x128, .f32⟩ : BufTy).Contents (Elt F)),
    StableHlo.unary main_v11 main_v166 ((extractStridedSlice S600000x1 ![0, 3] · slices_S600000x4_S600000x1_0_3) : (⟨S600000x4, .f32⟩ : BufTy).Contents (Elt F) → (⟨S600000x1, .f32⟩ : BufTy).Contents (Elt F)),
    StableHlo.unary main_v166 main_v167 (broadcastInDim S600000x128 ![0, 1] bcast_S600000x1_S600000x128_0_1 : (⟨S600000x1, .f32⟩ : BufTy).Contents (Elt F) → (⟨S600000x128, .f32⟩ : BufTy).Contents (Elt F)),
    StableHlo.binary main_v134 main_v167 main_v168 (mulf : (⟨S600000x128, .f32⟩ : BufTy).Contents (Elt F) → (⟨S600000x128, .f32⟩ : BufTy).Contents (Elt F) → (⟨S600000x128, .f32⟩ : BufTy).Contents (Elt F)),
    StableHlo.unary main_arg4 main_v169 ((extractStridedSlice S1x1x128x128 ![2, 3, 0, 0] · slices_S3x4x128x128_S1x1x128x128_2_3_0_0) : (⟨S3x4x128x128, .f32⟩ : BufTy).Contents (Elt F) → (⟨S1x1x128x128, .f32⟩ : BufTy).Contents (Elt F)),
    StableHlo.reshape main_v169 main_v170 rfl shapeCasts_S1x1x128x128_S128x128,
    StableHlo.binary main_v168 main_v170 main_v171 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.nullary main_cst_22 (constant S_ .f32 0x00000000#32),
    StableHlo.unary main_cst_22 main_v172 (broadcastInDim S50000x128 ![] bcast_S_S50000x128 : (⟨S_, .f32⟩ : BufTy).Contents (Elt F) → (⟨S50000x128, .f32⟩ : BufTy).Contents (Elt F)),
    StableHlo.unary main_v10 main_v173 (broadcastInDim S600000x1 ![0] bcast_S600000_S600000x1_0 : (⟨S600000, .i32⟩ : BufTy).Contents (Elt F) → (⟨S600000x1, .i32⟩ : BufTy).Contents (Elt F)),
    StableHlo.ternary main_v172 main_v173 main_v171 main_v174 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.binary main_v165 main_v174 main_v175 (addf : (⟨S50000x128, .f32⟩ : BufTy).Contents (Elt F) → (⟨S50000x128, .f32⟩ : BufTy).Contents (Elt F) → (⟨S50000x128, .f32⟩ : BufTy).Contents (Elt F)),
    StableHlo.unary main_arg5 main_v176 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v176 main_v177 rfl shapeCasts_S1x128x128_S128x128,
    StableHlo.binary main_v127 main_v177 main_v178 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v175 main_v178 main_v179 (addf : (⟨S50000x128, .f32⟩ : BufTy).Contents (Elt F) → (⟨S50000x128, .f32⟩ : BufTy).Contents (Elt F) → (⟨S50000x128, .f32⟩ : BufTy).Contents (Elt F)),
    StableHlo.unary main_arg6 main_v180 ((extractStridedSlice S1x128 ![2, 0] · slices_S3x128_S1x128_2_0) : (⟨S3x128, .f32⟩ : BufTy).Contents (Elt F) → (⟨S1x128, .f32⟩ : BufTy).Contents (Elt F)),
    StableHlo.reshape main_v180 main_v181 rfl shapeCasts_S1x128_S128,
    StableHlo.unary main_v181 main_v182 (broadcastInDim S1x128 ![1] bcast_S128_S1x128_1 : (⟨S128, .f32⟩ : BufTy).Contents (Elt F) → (⟨S1x128, .f32⟩ : BufTy).Contents (Elt F)),
    StableHlo.unary main_v182 main_v183 (broadcastInDim S50000x128 ![0, 1] bcast_S1x128_S50000x128_0_1 : (⟨S1x128, .f32⟩ : BufTy).Contents (Elt F) → (⟨S50000x128, .f32⟩ : BufTy).Contents (Elt F)),
    StableHlo.binary main_v179 main_v183 main_v184 (addf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3C23D70A#32),
    StableHlo.TRef.nullary main_call3.cst (constant S_ .f32 0x00000000#32),
    StableHlo.TRef.unary main_call3.cst main_call3.v0 (broadcastInDim S50000x128 ![] bcast_S_S50000x128),
    StableHlo.TRef.binary (.of main_v184 : StableHlo.TRef sig ⟨S50000x128, .f32⟩) main_call3.v0 main_call3.v1 (cmpf .oge),
    StableHlo.TRef.unary (.of main_cst_23 : StableHlo.TRef sig ⟨S_, .f32⟩) main_call3.v2 id,
    StableHlo.TRef.unary main_call3.v2 main_call3.v3 (broadcastInDim S50000x128 ![] bcast_S_S50000x128),
    StableHlo.TRef.binary main_call3.v3 (.of main_v184 : StableHlo.TRef sig ⟨S50000x128, .f32⟩) main_call3.v4 mulf,
    StableHlo.TRef.ternary main_call3.v1 (.of main_v184 : StableHlo.TRef sig ⟨S50000x128, .f32⟩) main_call3.v4 main_call3.call0.v0 select ]

theorem seg6_sub : (seg6 : List (HloOp τ sig (Elt F))).Forall fun op => op.bufs ⊆ tcRefs τ sig :=
  ⟨unary_bufs_sub .., binary_bufs_sub .., unary_bufs_sub .., reshape_bufs_sub .., binary_bufs_sub .., nullary_bufs_sub .., unary_bufs_sub .., unary_bufs_sub .., ternary_bufs_sub .., binary_bufs_sub .., unary_bufs_sub .., unary_bufs_sub .., binary_bufs_sub .., unary_bufs_sub .., reshape_bufs_sub .., binary_bufs_sub .., nullary_bufs_sub .., unary_bufs_sub .., unary_bufs_sub .., ternary_bufs_sub .., binary_bufs_sub .., unary_bufs_sub .., reshape_bufs_sub .., binary_bufs_sub .., binary_bufs_sub .., unary_bufs_sub .., reshape_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Window 0: 65 operations. -/
abbrev ops0 : List (HloOp τ sig (Elt F)) := seg0 ++ seg1
/-- Window 1: 66 operations. -/
abbrev ops1 : List (HloOp τ sig (Elt F)) := seg2 ++ seg3
/-- Window 2: 66 operations. -/
abbrev ops2 : List (HloOp τ sig (Elt F)) := seg4 ++ seg5
/-- Window 3: 38 operations. -/
abbrev ops3 : List (HloOp τ sig (Elt F)) := seg6

/-- The program: 235 operations. -/
abbrev ops : List (HloOp τ sig (Elt F)) := ops0 ++ (ops1 ++ (ops2 ++ ops3))

end Cert.ReferenceIdeal.RRun

end
-- ==== Proof.RRun.lean ====
/-
  The idealized reference program is the straight line of its operations, and its run.

  Each window of the program, the outlined functions' bodies read at their calls, is the sequence of that
  window's operations; the program runs the windows in order, so it is the sequence of all of them. None of
  its buffers is scoped and none of its operations leaves a result undetermined, so every weakly fair
  execution from a memory with zero counters ends, each buffer holding the fold of the operations' results
  over what the launch dealt it.
-/
import proofs.«411858_j26792005992743_1_alg».proof.Proof.ROps

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-! ## Each window is the sequence of its operations -/

set_option maxRecDepth 8192 in
set_option maxHeartbeats 4000000 in
theorem part0_eq (c : Dev nD) : main_part0 (F := F) c = seq ops0 := by
  rw [show (ops0 (F := F)) = seg0 ++ seg1 from rfl, seq_append]
  simp only [main_part0, fn_one_hot.body, fn_leaky_relu.body, fn_where.body, seq, bind_assoc, pure_bind]
  rfl

set_option maxRecDepth 8192 in
set_option maxHeartbeats 4000000 in
theorem part1_eq (c : Dev nD) : main_part1 (F := F) c = seq ops1 := by
  rw [show (ops1 (F := F)) = seg2 ++ seg3 from rfl, seq_append]
  simp only [main_part1, fn_one_hot.body, fn_leaky_relu.body, fn_where.body, seq, bind_assoc, pure_bind]
  rfl

set_option maxRecDepth 8192 in
set_option maxHeartbeats 4000000 in
theorem part2_eq (c : Dev nD) : main_part2 (F := F) c = seq ops2 := by
  rw [show (ops2 (F := F)) = seg4 ++ seg5 from rfl, seq_append]
  simp only [main_part2, fn_one_hot.body, fn_leaky_relu.body, fn_where.body, seq, bind_assoc, pure_bind]
  rfl

set_option maxRecDepth 8192 in
set_option maxHeartbeats 4000000 in
theorem part3_eq (c : Dev nD) : main_part3 (F := F) c = seq ops3 := by
  simp only [main_part3, fn_one_hot.body, fn_leaky_relu.body, fn_where.body, seq, bind_assoc, pure_bind]

/-- The program is the sequence of all its operations: the windows in order, joined. -/
theorem main_eq (c : Dev nD) : main (F := F) c = seq ops := by
  rw [show (ops (F := F)) = ops0 ++ (ops1 ++ (ops2 ++ ops3)) from rfl, seq_append ops0, seq_append ops1, seq_append ops2,
    ← part0_eq c, ← part1_eq c, ← part2_eq c, ← part3_eq c]
  rfl

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

/-- A property of every entry of two lists holds of every entry of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- Every operation touches TensorCore buffers only. -/
theorem ops_sub : (ops : List (HloOp τ sig (Elt F))).Forall fun op => op.bufs ⊆ tcRefs τ sig :=
  forall_append (forall_append seg0_sub seg1_sub)
    (forall_append (forall_append seg2_sub seg3_sub) (forall_append (forall_append seg4_sub seg5_sub) seg6_sub))

theorem seg0_fresh : ∀ op ∈ (seg0 : List (HloOp τ sig (Elt F))), op.fresh = ∅ := by
  intro _ h; (repeat (cases h with | head => rfl | tail _ h => ?_)); exact nomatch h
theorem seg1_fresh : ∀ op ∈ (seg1 : List (HloOp τ sig (Elt F))), op.fresh = ∅ := by
  intro _ h; (repeat (cases h with | head => rfl | tail _ h => ?_)); exact nomatch h
theorem seg2_fresh : ∀ op ∈ (seg2 : List (HloOp τ sig (Elt F))), op.fresh = ∅ := by
  intro _ h; (repeat (cases h with | head => rfl | tail _ h => ?_)); exact nomatch h
theorem seg3_fresh : ∀ op ∈ (seg3 : List (HloOp τ sig (Elt F))), op.fresh = ∅ := by
  intro _ h; (repeat (cases h with | head => rfl | tail _ h => ?_)); exact nomatch h
theorem seg4_fresh : ∀ op ∈ (seg4 : List (HloOp τ sig (Elt F))), op.fresh = ∅ := by
  intro _ h; (repeat (cases h with | head => rfl | tail _ h => ?_)); exact nomatch h
theorem seg5_fresh : ∀ op ∈ (seg5 : List (HloOp τ sig (Elt F))), op.fresh = ∅ := by
  intro _ h; (repeat (cases h with | head => rfl | tail _ h => ?_)); exact nomatch h
theorem seg6_fresh : ∀ op ∈ (seg6 : List (HloOp τ sig (Elt F))), op.fresh = ∅ := by
  intro _ h; (repeat (cases h with | head => rfl | tail _ h => ?_)); exact nomatch h

/-- Every operation determines its results. -/
theorem ops_fresh : ∀ op ∈ (ops : List (HloOp τ sig (Elt F))), op.fresh = ∅ := by
  intro op h
  rcases List.mem_append.1 h with h | h
  · rcases List.mem_append.1 h with h | h
    · exact seg0_fresh op h
    · exact seg1_fresh op h
  rcases List.mem_append.1 h with h | h
  · rcases List.mem_append.1 h with h | h
    · exact seg2_fresh op h
    · exact seg3_fresh op h
  rcases List.mem_append.1 h with h | h
  · rcases List.mem_append.1 h with h | h
    · exact seg4_fresh op h
    · exact seg5_fresh op h
  exact seg6_fresh op h

/-! ## The run -/

/-- At the compiled mesh, for any float values, from any memory with zero counters: every weakly fair execution of
    the program on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RRun

end
-- ==== Proof.RDefs.lean ====
/-
  The idealized reference program as pure functions of arrays, each the composition of the program's own operations
  in the program's order.

  • emb: the table's rows at the node-type words (a negative word first moved up by 16).
  • srcOf, dstOf: rows 0 and 1 of the edge index. onehot: edge type against 0..3, as numbers.
  • xsrc: the rows of x at the source words (a negative word first moved up by 50000).
  • msg: the source rows times one column of the one-hot array, times one relation's matrix.
  • segsum: rows added into a zero array at the destination words.
  • leaky: y where y ≥ 0, the slope constant times y elsewhere.
  • layer: zeros plus the four relations' sums in turn, plus x times the root matrix, plus the bias row, then leaky.
  • value: three layers over emb.
-/
import proofs.«411858_j26792005992743_1_alg».proof.Proof.Gen.ReferenceIdeal
import proofs.«411858_j26792005992743_1_alg».proof.Proof.Spec

noncomputable section

namespace Cert.ReferenceIdeal.RDefs

open Cert.ReferenceIdeal Cert.ReferenceIdeal.Gen Idealize.ShloMosaic

variable {F : FTy → Type} [FloatOps F]

def emb (a0 : IVec S50000 32) (a3 : FVec F S16x128 .f32) : FVec F S50000x128 .f32 :=
  (fun x i => Host.gather gather_S16x128_S50000x1_S50000x128_1_0_n_n_0_1_1128 x i) a3
    (broadcastInDim S50000x1 ![0] bcast_S50000_S50000x1_0
      (select (cmpi .slt a0 (broadcastInDim S50000 ![] bcast_S_S50000 (constantI S_ 32 0#32)))
        (addi a0 (broadcastInDim S50000 ![] bcast_S_S50000 (constantI S_ 32 16#32))) a0))

def srcOf (a1 : IVec S2x600000 32) : IVec S600000 32 :=
  shapeCast S600000 (extractStridedSlice S1x600000 ![0, 0] a1 slices_S2x600000_S1x600000_0_0) shapeCasts_S1x600000_S600000
def dstOf (a1 : IVec S2x600000 32) : IVec S600000 32 :=
  shapeCast S600000 (extractStridedSlice S1x600000 ![1, 0] a1 slices_S2x600000_S1x600000_1_0) shapeCasts_S1x600000_S600000

def onehot (a2 : IVec S600000 32) : FVec F S600000x4 .f32 :=
  uitofp .f32 (cmpi .eq
    (broadcastInDim S600000x4 ![0, 1] bcast_S600000x1_S600000x4_0_1 (broadcastInDim S600000x1 ![0] bcast_S600000_S600000x1_0 a2))
    (broadcastInDim S600000x4 ![0, 1] bcast_S1x4_S600000x4_0_1 (iotaInDim S1x4 32 1)))

def xsrc (x : FVec F S50000x128 .f32) (src : IVec S600000 32) : FVec F S600000x128 .f32 :=
  (fun x i => Host.gather gather_S50000x128_S600000x1_S600000x128_1_0_n_n_0_1_1128 x i) x
    (broadcastInDim S600000x1 ![0] bcast_S600000_S600000x1_0
      (select (cmpi .slt src (broadcastInDim S600000 ![] bcast_S_S600000 (constantI S_ 32 0#32)))
        (addi src (broadcastInDim S600000 ![] bcast_S_S600000 (constantI S_ 32 50000#32))) src))

def msg (xs : FVec F S600000x128 .f32) (col : FVec F S600000x1 .f32) (Wr : FVec F S128x128 .f32) : FVec F S600000x128 .f32 :=
  (fun l r => Host.dotGeneral dot_S600000x128_S128x128_S600000x128_1_0_0_1_n_n none l r)
    (mulf xs (broadcastInDim S600000x128 ![0, 1] bcast_S600000x1_S600000x128_0_1 col)) Wr

def zerosN : FVec F S50000x128 .f32 := broadcastInDim S50000x128 ![] bcast_S_S50000x128 (constant S_ .f32 0x00000000#32)

def segsum (dst : IVec S600000 32) (u : FVec F S600000x128 .f32) : FVec F S50000x128 .f32 :=
  (fun x i u => Host.scatterAdd scatter_S50000x128_S600000x1_S600000x128_1_0_0_1 x i u)
    (zerosN (F := F)) (broadcastInDim S600000x1 ![0] bcast_S600000_S600000x1_0 dst) u

def leaky (y : FVec F S50000x128 .f32) : FVec F S50000x128 .f32 :=
  select (cmpf .oge y (broadcastInDim S50000x128 ![] bcast_S_S50000x128 (constant S_ .f32 0x00000000#32))) y
    (mulf (broadcastInDim S50000x128 ![] bcast_S_S50000x128 (id (constant S_ .f32 0x3C23D70A#32))) y)

def layer (x : FVec F S50000x128 .f32) (src dst : IVec S600000 32) (oh : FVec F S600000x4 .f32)
    (W0 W1 W2 W3 rootl : FVec F S128x128 .f32) (biasl : FVec F S128 .f32) : FVec F S50000x128 .f32 :=
  leaky (addf (addf
    (addf (addf (addf (addf (zerosN (F := F))
      (segsum dst (msg (xsrc x src) (extractStridedSlice S600000x1 ![0, 0] oh slices_S600000x4_S600000x1_0_0) W0)))
      (segsum dst (msg (xsrc x src) (extractStridedSlice S600000x1 ![0, 1] oh slices_S600000x4_S600000x1_0_1) W1)))
      (segsum dst (msg (xsrc x src) (extractStridedSlice S600000x1 ![0, 2] oh slices_S600000x4_S600000x1_0_2) W2)))
      (segsum dst (msg (xsrc x src) (extractStridedSlice S600000x1 ![0, 3] oh slices_S600000x4_S600000x1_0_3) W3)))
    ((fun l r => Host.dotGeneral dot_S50000x128_S128x128_S50000x128_1_0_0_1_n_n none l r) x rootl))
    (broadcastInDim S50000x128 ![0, 1] bcast_S1x128_S50000x128_0_1 (broadcastInDim S1x128 ![1] bcast_S128_S1x128_1 biasl)))

def x1 (a0 : IVec S50000 32) (a1 : IVec S2x600000 32) (a2 : IVec S600000 32) (a3 : FVec F S16x128 .f32)
    (a4 : FVec F S3x4x128x128 .f32) (a5 : FVec F S3x128x128 .f32) (a6 : FVec F S3x128 .f32) : FVec F S50000x128 .f32 :=
  layer (emb a0 a3) (srcOf a1) (dstOf a1) (onehot (F := F) a2)
      (shapeCast S128x128 (extractStridedSlice S1x1x128x128 ![0, 0, 0, 0] a4 slices_S3x4x128x128_S1x1x128x128_0_0_0_0) shapeCasts_S1x1x128x128_S128x128)
      (shapeCast S128x128 (extractStridedSlice S1x1x128x128 ![0, 1, 0, 0] a4 slices_S3x4x128x128_S1x1x128x128_0_1_0_0) shapeCasts_S1x1x128x128_S128x128)
      (shapeCast S128x128 (extractStridedSlice S1x1x128x128 ![0, 2, 0, 0] a4 slices_S3x4x128x128_S1x1x128x128_0_2_0_0) shapeCasts_S1x1x128x128_S128x128)
      (shapeCast S128x128 (extractStridedSlice S1x1x128x128 ![0, 3, 0, 0] a4 slices_S3x4x128x128_S1x1x128x128_0_3_0_0) shapeCasts_S1x1x128x128_S128x128)
      (shapeCast S128x128 (extractStridedSlice S1x128x128 ![0, 0, 0] a5 slices_S3x128x128_S1x128x128_0_0_0) shapeCasts_S1x128x128_S128x128)
      (shapeCast S128 (extractStridedSlice S1x128 ![0, 0] a6 slices_S3x128_S1x128_0_0) shapeCasts_S1x128_S128)

def x2 (a0 : IVec S50000 32) (a1 : IVec S2x600000 32) (a2 : IVec S600000 32) (a3 : FVec F S16x128 .f32)
    (a4 : FVec F S3x4x128x128 .f32) (a5 : FVec F S3x128x128 .f32) (a6 : FVec F S3x128 .f32) : FVec F S50000x128 .f32 :=
  layer (x1 a0 a1 a2 a3 a4 a5 a6) (srcOf a1) (dstOf a1) (onehot (F := F) a2)
      (shapeCast S128x128 (extractStridedSlice S1x1x128x128 ![1, 0, 0, 0] a4 slices_S3x4x128x128_S1x1x128x128_1_0_0_0) shapeCasts_S1x1x128x128_S128x128)
      (shapeCast S128x128 (extractStridedSlice S1x1x128x128 ![1, 1, 0, 0] a4 slices_S3x4x128x128_S1x1x128x128_1_1_0_0) shapeCasts_S1x1x128x128_S128x128)
      (shapeCast S128x128 (extractStridedSlice S1x1x128x128 ![1, 2, 0, 0] a4 slices_S3x4x128x128_S1x1x128x128_1_2_0_0) shapeCasts_S1x1x128x128_S128x128)
      (shapeCast S128x128 (extractStridedSlice S1x1x128x128 ![1, 3, 0, 0] a4 slices_S3x4x128x128_S1x1x128x128_1_3_0_0) shapeCasts_S1x1x128x128_S128x128)
      (shapeCast S128x128 (extractStridedSlice S1x128x128 ![1, 0, 0] a5 slices_S3x128x128_S1x128x128_1_0_0) shapeCasts_S1x128x128_S128x128)
      (shapeCast S128 (extractStridedSlice S1x128 ![1, 0] a6 slices_S3x128_S1x128_1_0) shapeCasts_S1x128_S128)

def value (a0 : IVec S50000 32) (a1 : IVec S2x600000 32) (a2 : IVec S600000 32) (a3 : FVec F S16x128 .f32)
    (a4 : FVec F S3x4x128x128 .f32) (a5 : FVec F S3x128x128 .f32) (a6 : FVec F S3x128 .f32) : FVec F S50000x128 .f32 :=
  layer (x2 a0 a1 a2 a3 a4 a5 a6) (srcOf a1) (dstOf a1) (onehot (F := F) a2)
      (shapeCast S128x128 (extractStridedSlice S1x1x128x128 ![2, 0, 0, 0] a4 slices_S3x4x128x128_S1x1x128x128_2_0_0_0) shapeCasts_S1x1x128x128_S128x128)
      (shapeCast S128x128 (extractStridedSlice S1x1x128x128 ![2, 1, 0, 0] a4 slices_S3x4x128x128_S1x1x128x128_2_1_0_0) shapeCasts_S1x1x128x128_S128x128)
      (shapeCast S128x128 (extractStridedSlice S1x1x128x128 ![2, 2, 0, 0] a4 slices_S3x4x128x128_S1x1x128x128_2_2_0_0) shapeCasts_S1x1x128x128_S128x128)
      (shapeCast S128x128 (extractStridedSlice S1x1x128x128 ![2, 3, 0, 0] a4 slices_S3x4x128x128_S1x1x128x128_2_3_0_0) shapeCasts_S1x1x128x128_S128x128)
      (shapeCast S128x128 (extractStridedSlice S1x128x128 ![2, 0, 0] a5 slices_S3x128x128_S1x128x128_2_0_0) shapeCasts_S1x128x128_S128x128)
      (shapeCast S128 (extractStridedSlice S1x128 ![2, 0] a6 slices_S3x128_S1x128_2_0) shapeCasts_S1x128_S128)

end Cert.ReferenceIdeal.RDefs

end
-- ==== Proof.RRead.lean ====
/-
  What the idealized reference program's run leaves in its result buffer: the function RDefs.value of the seven
  argument arrays, which the run leaves as they were.

  The operations are read stretch by stretch. The first stretch writes the embedding rows (RDefs.emb), the two rows of
  the edge index (RDefs.srcOf, RDefs.dstOf) and the one-hot array of the edge types (RDefs.onehot). Each of the
  three layers is then one stretch that reads its input x, those three arrays and its own slices of the weight
  arguments, and writes RDefs.layer of them; it writes none of the arrays the later layers read, and no stretch
  writes an argument. Composing the three layers over the first stretch is RDefs.value by definition
  (RDefs.x1, RDefs.x2).
-/
import proofs.«411858_j26792005992743_1_alg».proof.Proof.RRun
import proofs.«411858_j26792005992743_1_alg».proof.Proof.RDefs

noncomputable section

namespace Cert.ReferenceIdeal.RRun

open Cert.ReferenceIdeal Cert.ReferenceIdeal.Gen Idealize.ShloMosaic Idealize.ShloMosaic.TcCoe Idealize.SL.Sem Idealize.ShloMosaic.StableHlo

variable {F : FTy → Type} [FloatOps F]

/-- The fold over two lists joined is the fold over the second from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, ih]; rfl

/-- The whole fold, layer by layer: the first stretch, then each layer's. -/
theorem after_ops (V : Valuation τ sig (Elt F)) :
    after ops V = after (seg5 ++ seg6) (after (seg3 ++ seg4) (after (seg1 ++ seg2) (after seg0 V))) := by
  show after ((seg0 ++ seg1) ++ ((seg2 ++ seg3) ++ ((seg4 ++ seg5) ++ seg6))) V = _
  rw [after_append (seg0 ++ seg1), after_append (seg2 ++ seg3), after_append (seg4 ++ seg5), after_append seg0, after_append seg2,
    after_append seg4, after_append seg1, after_append seg3, after_append seg5]

/-! ## What a stretch does not write, it keeps

A buffer the list (or two lists joined) never writes holds after it what it held before: the fold unrolled, each
operation's result at a buffer other than its own is what was there. -/

theorem pre_arg0 (W : Valuation τ sig (Elt F)) : after (seg0) W (main_arg0 : DevRef τ sig) = W (main_arg0 : DevRef τ sig) := by
  simp only [after_cons, after_nil]; rfl
theorem pre_arg1 (W : Valuation τ sig (Elt F)) : after (seg0) W (main_arg1 : DevRef τ sig) = W (main_arg1 : DevRef τ sig) := by
  simp only [after_cons, after_nil]; rfl
theorem pre_arg2 (W : Valuation τ sig (Elt F)) : after (seg0) W (main_arg2 : DevRef τ sig) = W (main_arg2 : DevRef τ sig) := by
  simp only [after_cons, after_nil]; rfl
theorem pre_arg3 (W : Valuation τ sig (Elt F)) : after (seg0) W (main_arg3 : DevRef τ sig) = W (main_arg3 : DevRef τ sig) := by
  simp only [after_cons, after_nil]; rfl
theorem pre_arg4 (W : Valuation τ sig (Elt F)) : after (seg0) W (main_arg4 : DevRef τ sig) = W (main_arg4 : DevRef τ sig) := by
  simp only [after_cons, after_nil]; rfl
theorem pre_arg5 (W : Valuation τ sig (Elt F)) : after (seg0) W (main_arg5 : DevRef τ sig) = W (main_arg5 : DevRef τ sig) := by
  simp only [after_cons, after_nil]; rfl
theorem pre_arg6 (W : Valuation τ sig (Elt F)) : after (seg0) W (main_arg6 : DevRef τ sig) = W (main_arg6 : DevRef τ sig) := by
  simp only [after_cons, after_nil]; rfl
theorem layer1_v8 (W : Valuation τ sig (Elt F)) : after (seg1 ++ seg2) W (main_v8 : DevRef τ sig) = W (main_v8 : DevRef τ sig) := by
  rw [after_append]; simp only [after_cons, after_nil]; rfl
theorem layer1_v10 (W : Valuation τ sig (Elt F)) : after (seg1 ++ seg2) W (main_v10 : DevRef τ sig) = W (main_v10 : DevRef τ sig) := by
  rw [after_append]; simp only [after_cons, after_nil]; rfl
theorem layer1_v11 (W : Valuation τ sig (Elt F)) : after (seg1 ++ seg2) W (main_v11 : DevRef τ sig) = W (main_v11 : DevRef τ sig) := by
  rw [after_append]; simp only [after_cons, after_nil]; rfl
theorem layer1_arg0 (W : Valuation τ sig (Elt F)) : after (seg1 ++ seg2) W (main_arg0 : DevRef τ sig) = W (main_arg0 : DevRef τ sig) := by
  rw [after_append]; simp only [after_cons, after_nil]; rfl
theorem layer1_arg1 (W : Valuation τ sig (Elt F)) : after (seg1 ++ seg2) W (main_arg1 : DevRef τ sig) = W (main_arg1 : DevRef τ sig) := by
  rw [after_append]; simp only [after_cons, after_nil]; rfl
theorem layer1_arg2 (W : Valuation τ sig (Elt F)) : after (seg1 ++ seg2) W (main_arg2 : DevRef τ sig) = W (main_arg2 : DevRef τ sig) := by
  rw [after_append]; simp only [after_cons, after_nil]; rfl
theorem layer1_arg3 (W : Valuation τ sig (Elt F)) : after (seg1 ++ seg2) W (main_arg3 : DevRef τ sig) = W (main_arg3 : DevRef τ sig) := by
  rw [after_append]; simp only [after_cons, after_nil]; rfl
theorem layer1_arg4 (W : Valuation τ sig (Elt F)) : after (seg1 ++ seg2) W (main_arg4 : DevRef τ sig) = W (main_arg4 : DevRef τ sig) := by
  rw [after_append]; simp only [after_cons, after_nil]; rfl
theorem layer1_arg5 (W : Valuation τ sig (Elt F)) : after (seg1 ++ seg2) W (main_arg5 : DevRef τ sig) = W (main_arg5 : DevRef τ sig) := by
  rw [after_append]; simp only [after_cons, after_nil]; rfl
theorem layer1_arg6 (W : Valuation τ sig (Elt F)) : after (seg1 ++ seg2) W (main_arg6 : DevRef τ sig) = W (main_arg6 : DevRef τ sig) := by
  rw [after_append]; simp only [after_cons, after_nil]; rfl
theorem layer2_v8 (W : Valuation τ sig (Elt F)) : after (seg3 ++ seg4) W (main_v8 : DevRef τ sig) = W (main_v8 : DevRef τ sig) := by
  rw [after_append]; simp only [after_cons, after_nil]; rfl
theorem layer2_v10 (W : Valuation τ sig (Elt F)) : after (seg3 ++ seg4) W (main_v10 : DevRef τ sig) = W (main_v10 : DevRef τ sig) := by
  rw [after_append]; simp only [after_cons, after_nil]; rfl
theorem layer2_v11 (W : Valuation τ sig (Elt F)) : after (seg3 ++ seg4) W (main_v11 : DevRef τ sig) = W (main_v11 : DevRef τ sig) := by
  rw [after_append]; simp only [after_cons, after_nil]; rfl
theorem layer2_arg0 (W : Valuation τ sig (Elt F)) : after (seg3 ++ seg4) W (main_arg0 : DevRef τ sig) = W (main_arg0 : DevRef τ sig) := by
  rw [after_append]; simp only [after_cons, after_nil]; rfl
theorem layer2_arg1 (W : Valuation τ sig (Elt F)) : after (seg3 ++ seg4) W (main_arg1 : DevRef τ sig) = W (main_arg1 : DevRef τ sig) := by
  rw [after_append]; simp only [after_cons, after_nil]; rfl
theorem layer2_arg2 (W : Valuation τ sig (Elt F)) : after (seg3 ++ seg4) W (main_arg2 : DevRef τ sig) = W (main_arg2 : DevRef τ sig) := by
  rw [after_append]; simp only [after_cons, after_nil]; rfl
theorem layer2_arg3 (W : Valuation τ sig (Elt F)) : after (seg3 ++ seg4) W (main_arg3 : DevRef τ sig) = W (main_arg3 : DevRef τ sig) := by
  rw [after_append]; simp only [after_cons, after_nil]; rfl
theorem layer2_arg4 (W : Valuation τ sig (Elt F)) : after (seg3 ++ seg4) W (main_arg4 : DevRef τ sig) = W (main_arg4 : DevRef τ sig) := by
  rw [after_append]; simp only [after_cons, after_nil]; rfl
theorem layer2_arg5 (W : Valuation τ sig (Elt F)) : after (seg3 ++ seg4) W (main_arg5 : DevRef τ sig) = W (main_arg5 : DevRef τ sig) := by
  rw [after_append]; simp only [after_cons, after_nil]; rfl
theorem layer2_arg6 (W : Valuation τ sig (Elt F)) : after (seg3 ++ seg4) W (main_arg6 : DevRef τ sig) = W (main_arg6 : DevRef τ sig) := by
  rw [after_append]; simp only [after_cons, after_nil]; rfl
theorem layer3_arg0 (W : Valuation τ sig (Elt F)) : after (seg5 ++ seg6) W (main_arg0 : DevRef τ sig) = W (main_arg0 : DevRef τ sig) := by
  rw [after_append]; simp only [after_cons, after_nil]; rfl
theorem layer3_arg1 (W : Valuation τ sig (Elt F)) : after (seg5 ++ seg6) W (main_arg1 : DevRef τ sig) = W (main_arg1 : DevRef τ sig) := by
  rw [after_append]; simp only [after_cons, after_nil]; rfl
theorem layer3_arg2 (W : Valuation τ sig (Elt F)) : after (seg5 ++ seg6) W (main_arg2 : DevRef τ sig) = W (main_arg2 : DevRef τ sig) := by
  rw [after_append]; simp only [after_cons, after_nil]; rfl
theorem layer3_arg3 (W : Valuation τ sig (Elt F)) : after (seg5 ++ seg6) W (main_arg3 : DevRef τ sig) = W (main_arg3 : DevRef τ sig) := by
  rw [after_append]; simp only [after_cons, after_nil]; rfl
theorem layer3_arg4 (W : Valuation τ sig (Elt F)) : after (seg5 ++ seg6) W (main_arg4 : DevRef τ sig) = W (main_arg4 : DevRef τ sig) := by
  rw [after_append]; simp only [after_cons, after_nil]; rfl
theorem layer3_arg5 (W : Valuation τ sig (Elt F)) : after (seg5 ++ seg6) W (main_arg5 : DevRef τ sig) = W (main_arg5 : DevRef τ sig) := by
  rw [after_append]; simp only [after_cons, after_nil]; rfl
theorem layer3_arg6 (W : Valuation τ sig (Elt F)) : after (seg5 ++ seg6) W (main_arg6 : DevRef τ sig) = W (main_arg6 : DevRef τ sig) := by
  rw [after_append]; simp only [after_cons, after_nil]; rfl

/-! ## The first stretch -/

set_option maxRecDepth 8192 in
theorem pre_v6 (V : Valuation τ sig (Elt F)) :
    after seg0 V (main_v6 : DevRef τ sig) = RDefs.emb (V (main_arg0 : DevRef τ sig)) (V (main_arg3 : DevRef τ sig)) := by
  simp only [after_cons, after_nil]
  rfl

set_option maxRecDepth 8192 in
theorem pre_v8 (V : Valuation τ sig (Elt F)) :
    after seg0 V (main_v8 : DevRef τ sig) = RDefs.srcOf (V (main_arg1 : DevRef τ sig)) := by
  simp only [after_cons, after_nil]
  rfl

set_option maxRecDepth 8192 in
theorem pre_v10 (V : Valuation τ sig (Elt F)) :
    after seg0 V (main_v10 : DevRef τ sig) = RDefs.dstOf (V (main_arg1 : DevRef τ sig)) := by
  simp only [after_cons, after_nil]
  rfl

set_option maxRecDepth 8192 in
theorem pre_v11 (V : Valuation τ sig (Elt F)) :
    after seg0 V (main_v11 : DevRef τ sig) = RDefs.onehot (F := F) (V (main_arg2 : DevRef τ sig)) := by
  simp only [after_cons, after_nil]
  rfl

/-! ## The layers -/

set_option maxRecDepth 16384 in
set_option maxHeartbeats 4000000 in
/-- Layer 1, from any contents W: what the layer's stretch leaves in its result buffer is the layer function of
    what W holds in the layer's input, the two index rows, the one-hot array and the layer's slices of the weights. -/
theorem layer1_read (W : Valuation τ sig (Elt F)) :
    after (seg1 ++ seg2) W (main_v69 : DevRef τ sig)
      = RDefs.layer (W (main_v6 : DevRef τ sig)) (W (main_v8 : DevRef τ sig)) (W (main_v10 : DevRef τ sig)) (W (main_v11 : DevRef τ sig))
          (shapeCast S128x128 (extractStridedSlice S1x1x128x128 ![0, 0, 0, 0] (W (main_arg4 : DevRef τ sig)) slices_S3x4x128x128_S1x1x128x128_0_0_0_0) shapeCasts_S1x1x128x128_S128x128)
          (shapeCast S128x128 (extractStridedSlice S1x1x128x128 ![0, 1, 0, 0] (W (main_arg4 : DevRef τ sig)) slices_S3x4x128x128_S1x1x128x128_0_1_0_0) shapeCasts_S1x1x128x128_S128x128)
          (shapeCast S128x128 (extractStridedSlice S1x1x128x128 ![0, 2, 0, 0] (W (main_arg4 : DevRef τ sig)) slices_S3x4x128x128_S1x1x128x128_0_2_0_0) shapeCasts_S1x1x128x128_S128x128)
          (shapeCast S128x128 (extractStridedSlice S1x1x128x128 ![0, 3, 0, 0] (W (main_arg4 : DevRef τ sig)) slices_S3x4x128x128_S1x1x128x128_0_3_0_0) shapeCasts_S1x1x128x128_S128x128)
          (shapeCast S128x128 (extractStridedSlice S1x128x128 ![0, 0, 0] (W (main_arg5 : DevRef τ sig)) slices_S3x128x128_S1x128x128_0_0_0) shapeCasts_S1x128x128_S128x128)
          (shapeCast S128 (extractStridedSlice S1x128 ![0, 0] (W (main_arg6 : DevRef τ sig)) slices_S3x128_S1x128_0_0) shapeCasts_S1x128_S128) := by
  rw [after_append]
  simp only [after_cons, after_nil]
  rfl

set_option maxRecDepth 16384 in
set_option maxHeartbeats 4000000 in
/-- Layer 2, from any contents W: what the layer's stretch leaves in its result buffer is the layer function of
    what W holds in the layer's input, the two index rows, the one-hot array and the layer's slices of the weights. -/
theorem layer2_read (W : Valuation τ sig (Elt F)) :
    after (seg3 ++ seg4) W (main_v127 : DevRef τ sig)
      = RDefs.layer (W (main_v69 : DevRef τ sig)) (W (main_v8 : DevRef τ sig)) (W (main_v10 : DevRef τ sig)) (W (main_v11 : DevRef τ sig))
          (shapeCast S128x128 (extractStridedSlice S1x1x128x128 ![1, 0, 0, 0] (W (main_arg4 : DevRef τ sig)) slices_S3x4x128x128_S1x1x128x128_1_0_0_0) shapeCasts_S1x1x128x128_S128x128)
          (shapeCast S128x128 (extractStridedSlice S1x1x128x128 ![1, 1, 0, 0] (W (main_arg4 : DevRef τ sig)) slices_S3x4x128x128_S1x1x128x128_1_1_0_0) shapeCasts_S1x1x128x128_S128x128)
          (shapeCast S128x128 (extractStridedSlice S1x1x128x128 ![1, 2, 0, 0] (W (main_arg4 : DevRef τ sig)) slices_S3x4x128x128_S1x1x128x128_1_2_0_0) shapeCasts_S1x1x128x128_S128x128)
          (shapeCast S128x128 (extractStridedSlice S1x1x128x128 ![1, 3, 0, 0] (W (main_arg4 : DevRef τ sig)) slices_S3x4x128x128_S1x1x128x128_1_3_0_0) shapeCasts_S1x1x128x128_S128x128)
          (shapeCast S128x128 (extractStridedSlice S1x128x128 ![1, 0, 0] (W (main_arg5 : DevRef τ sig)) slices_S3x128x128_S1x128x128_1_0_0) shapeCasts_S1x128x128_S128x128)
          (shapeCast S128 (extractStridedSlice S1x128 ![1, 0] (W (main_arg6 : DevRef τ sig)) slices_S3x128_S1x128_1_0) shapeCasts_S1x128_S128) := by
  rw [after_append]
  simp only [after_cons, after_nil]
  rfl

set_option maxRecDepth 16384 in
set_option maxHeartbeats 4000000 in
/-- Layer 3, from any contents W: what the layer's stretch leaves in its result buffer is the layer function of
    what W holds in the layer's input, the two index rows, the one-hot array and the layer's slices of the weights. -/
theorem layer3_read (W : Valuation τ sig (Elt F)) :
    after (seg5 ++ seg6) W (main_v185 : DevRef τ sig)
      = RDefs.layer (W (main_v127 : DevRef τ sig)) (W (main_v8 : DevRef τ sig)) (W (main_v10 : DevRef τ sig)) (W (main_v11 : DevRef τ sig))
          (shapeCast S128x128 (extractStridedSlice S1x1x128x128 ![2, 0, 0, 0] (W (main_arg4 : DevRef τ sig)) slices_S3x4x128x128_S1x1x128x128_2_0_0_0) shapeCasts_S1x1x128x128_S128x128)
          (shapeCast S128x128 (extractStridedSlice S1x1x128x128 ![2, 1, 0, 0] (W (main_arg4 : DevRef τ sig)) slices_S3x4x128x128_S1x1x128x128_2_1_0_0) shapeCasts_S1x1x128x128_S128x128)
          (shapeCast S128x128 (extractStridedSlice S1x1x128x128 ![2, 2, 0, 0] (W (main_arg4 : DevRef τ sig)) slices_S3x4x128x128_S1x1x128x128_2_2_0_0) shapeCasts_S1x1x128x128_S128x128)
          (shapeCast S128x128 (extractStridedSlice S1x1x128x128 ![2, 3, 0, 0] (W (main_arg4 : DevRef τ sig)) slices_S3x4x128x128_S1x1x128x128_2_3_0_0) shapeCasts_S1x1x128x128_S128x128)
          (shapeCast S128x128 (extractStridedSlice S1x128x128 ![2, 0, 0] (W (main_arg5 : DevRef τ sig)) slices_S3x128x128_S1x128x128_2_0_0) shapeCasts_S1x128x128_S128x128)
          (shapeCast S128 (extractStridedSlice S1x128 ![2, 0] (W (main_arg6 : DevRef τ sig)) slices_S3x128_S1x128_2_0) shapeCasts_S1x128_S128) := by
  rw [after_append]
  simp only [after_cons, after_nil]
  rfl

/-! ## The result and the arguments after the whole program -/

/-- The result buffer holds RDefs.value of the arguments: the third layer over the second over the first over the
    embedding rows, each reading the index rows and the one-hot array the first stretch wrote. -/
theorem result_eq (V : Valuation τ sig (Elt F)) :
    after ops V (main_v185 : DevRef τ sig)
      = RDefs.value (V (main_arg0 : DevRef τ sig)) (V (main_arg1 : DevRef τ sig)) (V (main_arg2 : DevRef τ sig))
          (V (main_arg3 : DevRef τ sig)) (V (main_arg4 : DevRef τ sig)) (V (main_arg5 : DevRef τ sig)) (V (main_arg6 : DevRef τ sig)) := by
  rw [after_ops, layer3_read, layer2_read, layer1_read]
  rw [layer2_v8, layer2_v10, layer2_v11, layer2_arg4, layer2_arg5, layer2_arg6,
    layer1_v8, layer1_v10, layer1_v11, layer1_arg4, layer1_arg5, layer1_arg6,
    pre_v6, pre_v8, pre_v10, pre_v11, pre_arg4, pre_arg5, pre_arg6]
  rfl

theorem arg0_eq (V : Valuation τ sig (Elt F)) : after ops V (main_arg0 : DevRef τ sig) = V (main_arg0 : DevRef τ sig) := by
  rw [after_ops, layer3_arg0, layer2_arg0, layer1_arg0, pre_arg0]
theorem arg1_eq (V : Valuation τ sig (Elt F)) : after ops V (main_arg1 : DevRef τ sig) = V (main_arg1 : DevRef τ sig) := by
  rw [after_ops, layer3_arg1, layer2_arg1, layer1_arg1, pre_arg1]
theorem arg2_eq (V : Valuation τ sig (Elt F)) : after ops V (main_arg2 : DevRef τ sig) = V (main_arg2 : DevRef τ sig) := by
  rw [after_ops, layer3_arg2, layer2_arg2, layer1_arg2, pre_arg2]
theorem arg3_eq (V : Valuation τ sig (Elt F)) : after ops V (main_arg3 : DevRef τ sig) = V (main_arg3 : DevRef τ sig) := by
  rw [after_ops, layer3_arg3, layer2_arg3, layer1_arg3, pre_arg3]
theorem arg4_eq (V : Valuation τ sig (Elt F)) : after ops V (main_arg4 : DevRef τ sig) = V (main_arg4 : DevRef τ sig) := by
  rw [after_ops, layer3_arg4, layer2_arg4, layer1_arg4, pre_arg4]
theorem arg5_eq (V : Valuation τ sig (Elt F)) : after ops V (main_arg5 : DevRef τ sig) = V (main_arg5 : DevRef τ sig) := by
  rw [after_ops, layer3_arg5, layer2_arg5, layer1_arg5, pre_arg5]
theorem arg6_eq (V : Valuation τ sig (Elt F)) : after ops V (main_arg6 : DevRef τ sig) = V (main_arg6 : DevRef τ sig) := by
  rw [after_ops, layer3_arg6, layer2_arg6, layer1_arg6, pre_arg6]

/-! ## The run, at the result and the arguments -/

/-- At the compiled mesh, for any float values, from any memory with zero counters: every weakly fair execution of the
    program terminates with the result buffer at RDefs.value of the argument arrays as launched, and each argument array
    as launched. -/
theorem run_value (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v185) = Cert.ReferenceIdeal.RDefs.value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v185).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_main m ρ)

end Cert.ReferenceIdeal.RRun

end
-- ==== Proof.RLayer.lean ====
/-
  One layer of the idealized reference program is the specification's layer, over the extended reals, when the
  source words are in range.

  At a node n and a feature q the reference computes
    leaky_ref (((((0 + S 0) + S 1) + S 2) + S 3 + Σ k, x (n, k) · root (k, q)) + bias q),
  where S r (n, q) = 0 + Σ over the edges e whose destination word, read signed, is n, of M r (e, q),
  M r (e, q) = Σ k, (xs (e, k) · oh (e, r)) · W r (k, q), xs the rows of x at the source words, oh (e, r) = 1 when
  the edge's type word is r and 0 otherwise, and leaky_ref y = y where y ≥ 0, slope · y elsewhere.

  The specification has leaky ((Σ e [dst e = n] (Σ r, Σ k, (xs (e, k) · hot t r) · W (r, k, q)) + Σ k, x (n, k) · root (k, q)) + bias q),
  leaky y = y where y > 0, slope · y elsewhere.

  The two agree: 0 + a = a; a sum of four terms is the sum over the four relations; a conditional of a finite sum
  is the sum of the conditionals, and two finite sums commute (only the additive commutative monoid structure of the
  extended reals is used); at y = 0 both forms of leaky give 0. A source word in [0, 50000) is not negative, so it is
  kept as it is, and its clamp into [0, 49999] is the row the specification names.
-/
import proofs.«411858_j26792005992743_1_alg».proof.Proof.RDefs
import proofs.«411858_j26792005992743_1_alg».proof.Proof.LibRows
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.ReferenceIdeal.RLayer

open Cert.ReferenceIdeal Cert.ReferenceIdeal.Gen Idealize.ShloMosaic Idealize.ShloMosaic.ValueIdx

open scoped BigOperators

/-! ## Layout operations read at an index -/

/-- Row 0 of the edge index, as a vector, reads the word (0, e). -/
theorem srcOf_apply (a1 : IVec S2x600000 32) (e : Fin 600000) :
    RDefs.srcOf a1 (ix1 e) = a1 (ix2 (0 : Fin 2) e) := by
  unfold RDefs.srcOf
  refine (shapeCast_1a_a_apply _ _ e).trans ?_
  exact slice2_axis0_apply 0 a1 _ (0 : Fin 1) e (0 : Fin 2) rfl

/-- Row 1 of the edge index, as a vector, reads the word (1, e). -/
theorem dstOf_apply (a1 : IVec S2x600000 32) (e : Fin 600000) :
    RDefs.dstOf a1 (ix1 e) = a1 (ix2 (1 : Fin 2) e) := by
  unfold RDefs.dstOf
  refine (shapeCast_1a_a_apply _ _ e).trans ?_
  exact slice2_axis0_apply 1 a1 _ (0 : Fin 1) e (1 : Fin 2) rfl

/-- A vector as a one-column array reads, at (e, 0), the vector at e. -/
theorem col_apply {α : Type} (v : S600000.Idx → α) (e : Fin 600000) :
    broadcastInDim S600000x1 ![0] bcast_S600000_S600000x1_0 v (ix2 e (0 : Fin 1)) = v (ix1 e) := by
  refine broadcastInDim_apply _ _ _ _ (ix1 e) ?_
  intro a
  match a with
  | ⟨0, _⟩ => rfl

/-- A one-column array laid across 128 columns reads, at (e, k), the column at (e, 0). -/
theorem colAcross_apply {α : Type} (v : S600000x1.Idx → α) (e : Fin 600000) (k : Fin 128) :
    broadcastInDim S600000x128 ![0, 1] bcast_S600000x1_S600000x128_0_1 v (ix2 e k) = v (ix2 e (0 : Fin 1)) := by
  refine broadcastInDim_apply _ _ _ _ (ix2 e (0 : Fin 1)) ?_
  intro a
  match a with
  | ⟨0, _⟩ => rfl
  | ⟨1, _⟩ => rfl

/-- Column r of the one-hot array, as a one-column array, reads at (e, 0) the array at (e, r). -/
theorem ohCol0_apply {α : Type} (oh : S600000x4.Idx → α) (e : Fin 600000) :
    extractStridedSlice S600000x1 ![0, 0] oh slices_S600000x4_S600000x1_0_0 (ix2 e (0 : Fin 1)) = oh (ix2 e (0 : Fin 4)) :=
  slice2_axis1_apply 0 oh _ e (0 : Fin 1) (0 : Fin 4) rfl
theorem ohCol1_apply {α : Type} (oh : S600000x4.Idx → α) (e : Fin 600000) :
    extractStridedSlice S600000x1 ![0, 1] oh slices_S600000x4_S600000x1_0_1 (ix2 e (0 : Fin 1)) = oh (ix2 e (1 : Fin 4)) :=
  slice2_axis1_apply 1 oh _ e (0 : Fin 1) (1 : Fin 4) rfl
theorem ohCol2_apply {α : Type} (oh : S600000x4.Idx → α) (e : Fin 600000) :
    extractStridedSlice S600000x1 ![0, 2] oh slices_S600000x4_S600000x1_0_2 (ix2 e (0 : Fin 1)) = oh (ix2 e (2 : Fin 4)) :=
  slice2_axis1_apply 2 oh _ e (0 : Fin 1) (2 : Fin 4) rfl
theorem ohCol3_apply {α : Type} (oh : S600000x4.Idx → α) (e : Fin 600000) :
    extractStridedSlice S600000x1 ![0, 3] oh slices_S600000x4_S600000x1_0_3 (ix2 e (0 : Fin 1)) = oh (ix2 e (3 : Fin 4)) :=
  slice2_axis1_apply 3 oh _ e (0 : Fin 1) (3 : Fin 4) rfl

/-- The bias vector as a row laid down 50000 rows reads, at (n, q), the vector at q. -/
theorem biasRows_apply {α : Type} (b : S128.Idx → α) (n : Fin 50000) (q : Fin 128) :
    broadcastInDim S50000x128 ![0, 1] bcast_S1x128_S50000x128_0_1 (broadcastInDim S1x128 ![1] bcast_S128_S1x128_1 b) (ix2 n q)
      = b (ix1 q) := by
  refine (broadcastInDim_apply _ _ _ _ (ix2 (0 : Fin 1) q) ?_).trans (broadcastInDim_apply _ _ _ _ (ix1 q) ?_)
  · intro a
    match a with
    | ⟨0, _⟩ => rfl
    | ⟨1, _⟩ => rfl
  · intro a
    match a with
    | ⟨0, _⟩ => rfl

/-- The one-hot array at (e, r): 1 when the edge-type word is r, 0 otherwise. -/
theorem onehot_apply (a2 : IVec S600000 32) (e : Fin 600000) (r : Fin 4) :
    RDefs.onehot (F := Ideal) a2 (ix2 e r) = Cert.Spec.hot (a2 (ix1 e)) (BitVec.ofNat 32 r.val) := by
  unfold RDefs.onehot
  show FloatOps.uitofp (F := Ideal) .f32 (IntOp.cmpi .eq
    (broadcastInDim S600000x4 ![0, 1] bcast_S600000x1_S600000x4_0_1 (broadcastInDim S600000x1 ![0] bcast_S600000_S600000x1_0 a2) (ix2 e r))
    (broadcastInDim S600000x4 ![0, 1] bcast_S1x4_S600000x4_0_1 (iotaInDim S1x4 32 1) (ix2 e r))) = _
  have h1 : broadcastInDim S600000x4 ![0, 1] bcast_S600000x1_S600000x4_0_1 (broadcastInDim S600000x1 ![0] bcast_S600000_S600000x1_0 a2) (ix2 e r)
      = a2 (ix1 e) := by
    refine (broadcastInDim_apply _ _ _ _ (ix2 e (0 : Fin 1)) ?_).trans (col_apply a2 e)
    intro a
    match a with
    | ⟨0, _⟩ => rfl
    | ⟨1, _⟩ => rfl
  have h2 : broadcastInDim S600000x4 ![0, 1] bcast_S1x4_S600000x4_0_1 (iotaInDim S1x4 32 1) (ix2 e r) = BitVec.ofNat 32 r.val := by
    refine (broadcastInDim_apply _ _ _ _ (ix2 (0 : Fin 1) r) ?_).trans rfl
    intro a
    match a with
    | ⟨0, _⟩ => rfl
    | ⟨1, _⟩ => rfl
  rw [h1, h2]
  show (((IntOp.cmpi .eq (a2 (ix1 e)) (BitVec.ofNat 32 r.val)).toNat : ℝ) : EReal) = _
  unfold Cert.Spec.hot IntOp.cmpi
  by_cases h : a2 (ix1 e) = BitVec.ofNat 32 r.val
  · rw [if_pos h, h]; simp
  · rw [if_neg h]
    have : (a2 (ix1 e) == BitVec.ofNat 32 r.val) = false := by simpa using h
    simp [this]

/-! ## The host operations read at an index -/

/-- The product of the edge rows with one relation's matrix, at (e, q): the sum over the contracted coordinate. -/
theorem dotE_apply (A : FVec Ideal S600000x128 .f32) (B : FVec Ideal S128x128 .f32) (e : Fin 600000) (q : Fin 128) :
    Host.dotGeneral (F := Ideal) dot_S600000x128_S128x128_S600000x128_1_0_0_1_n_n none A B (ix2 e q)
      = ∑ k : Fin 128, A (ix2 e k) * B (ix2 k q) :=
  StackMember.dotGeneral_plain_apply (m := 600000) (n := 128) (k := 128) none A B e q

/-- The product of the node rows with the root matrix, at (n, q). -/
theorem dotN_apply (A : FVec Ideal S50000x128 .f32) (B : FVec Ideal S128x128 .f32) (n : Fin 50000) (q : Fin 128) :
    Host.dotGeneral (F := Ideal) dot_S50000x128_S128x128_S50000x128_1_0_0_1_n_n none A B (ix2 n q)
      = ∑ k : Fin 128, A (ix2 n k) * B (ix2 k q) :=
  StackMember.dotGeneral_plain_apply (m := 50000) (n := 128) (k := 128) none A B n q

/-- The rows of x at a column of words, at (e, k): x at the row the word names (read signed, clamped), column k. -/
theorem gatherRows_apply (x : FVec Ideal S50000x128 .f32) (idx : IVec S600000x1 32) (e : Fin 600000) (k : Fin 128) :
    Host.gather gather_S50000x128_S600000x1_S600000x128_1_0_n_n_0_1_1128 x idx (ix2 e k)
      = x (ix2 ⟨min (idx (ix2 e (0 : Fin 1))).toInt.toNat (50000 - 1), by omega⟩ k) :=
  Cert.LibRows.rowGather_apply (n := 50000) (e := 600000) (c := 128) (by omega)
    gather_S50000x128_S600000x1_S600000x128_1_0_n_n_0_1_1128_wf x idx e k

/-- Rows added into an array at a column of words, at (n, q). -/
theorem scatterRows_apply (z : FVec Ideal S50000x128 .f32) (idx : IVec S600000x1 32) (u : FVec Ideal S600000x128 .f32)
    (n : Fin 50000) (q : Fin 128) :
    Host.scatterAdd (F := Ideal) scatter_S50000x128_S600000x1_S600000x128_1_0_0_1 z idx u (ix2 n q)
      = z (ix2 n q) + ∑ p : Fin 600000, if (idx (ix2 p (0 : Fin 1))).toInt = (n.val : Int) then u (ix2 p q) else 0 :=
  Cert.LibRows.rowScatterAdd_apply (n := 50000) (e := 600000) (c := 128)
    scatter_S50000x128_S600000x1_S600000x128_1_0_0_1_wf z idx u n q

/-- The zero array reads 0. -/
theorem zerosN_apply (i : S50000x128.Idx) : RDefs.zerosN (F := Ideal) i = 0 := by
  show Ideal.ofBits .f32 0x00000000#32 = 0
  exact Ideal.ofBits_zero_f32

/-! ## The reference's composite steps read at an index -/

/-- A source word in range is not negative: the word the gather is given is the source word itself. -/
theorem srcWord_apply (a1 : IVec S2x600000 32)
    (hsrc : ∀ e : Fin 600000, 0 ≤ (a1 (ix2 (0 : Fin 2) e)).toInt ∧ (a1 (ix2 (0 : Fin 2) e)).toInt < 50000) (e : Fin 600000) :
    select (cmpi .slt (RDefs.srcOf a1) (broadcastInDim S600000 ![] bcast_S_S600000 (constantI S_ 32 0#32)))
        (addi (RDefs.srcOf a1) (broadcastInDim S600000 ![] bcast_S_S600000 (constantI S_ 32 50000#32))) (RDefs.srcOf a1) (ix1 e)
      = a1 (ix2 (0 : Fin 2) e) := by
  show Scalar.select (IntOp.cmpi .slt (RDefs.srcOf a1 (ix1 e)) 0#32) (IntOp.addi (RDefs.srcOf a1 (ix1 e)) 50000#32)
      (RDefs.srcOf a1 (ix1 e)) = _
  rw [srcOf_apply]
  have h0 : IntOp.cmpi .slt (a1 (ix2 (0 : Fin 2) e)) 0#32 = 0#1 := by
    show BitVec.ofBool (decide ((a1 (ix2 (0 : Fin 2) e)).toInt < (0#32 : BitVec 32).toInt)) = 0#1
    have hz : (0#32 : BitVec 32).toInt = 0 := by decide
    rw [hz, decide_eq_false (not_lt.mpr (hsrc e).1)]
    rfl
  rw [h0, select_zero]

/-- The rows of x at the source words are the specification's gathered rows. -/
theorem xsrc_apply (x : FVec Ideal S50000x128 .f32) (a1 : IVec S2x600000 32)
    (hsrc : ∀ e : Fin 600000, 0 ≤ (a1 (ix2 (0 : Fin 2) e)).toInt ∧ (a1 (ix2 (0 : Fin 2) e)).toInt < 50000)
    (e : Fin 600000) (k : Fin 128) :
    RDefs.xsrc (F := Ideal) x (RDefs.srcOf a1) (ix2 e k) = Cert.Spec.gath x (Cert.Spec.srcOf a1) (ix2 e k) := by
  unfold RDefs.xsrc
  refine (gatherRows_apply x _ e k).trans ?_
  show _ = x (ix2 (Cert.Spec.rowOf (a1 (ix2 (0 : Fin 2) e))) k)
  refine congrArg (fun r => x (ix2 r k)) (Fin.ext ?_)
  show min _ (50000 - 1) = min (a1 (ix2 (0 : Fin 2) e)).toInt.toNat 49999
  rw [col_apply, srcWord_apply a1 hsrc e]

/-- An edge's message for one relation, at (e, q). -/
theorem msg_apply (xs : FVec Ideal S600000x128 .f32) (col : FVec Ideal S600000x1 .f32) (W : FVec Ideal S128x128 .f32)
    (e : Fin 600000) (q : Fin 128) :
    RDefs.msg (F := Ideal) xs col W (ix2 e q) = ∑ k : Fin 128, (xs (ix2 e k) * col (ix2 e (0 : Fin 1))) * W (ix2 k q) := by
  unfold RDefs.msg
  refine (dotE_apply _ _ e q).trans ?_
  refine Finset.sum_congr rfl fun k _ => ?_
  rw [mulf_apply, colAcross_apply]

/-- The rows of u summed at the destination words, at (n, q). -/
theorem segsum_apply (dst : IVec S600000 32) (u : FVec Ideal S600000x128 .f32) (n : Fin 50000) (q : Fin 128) :
    RDefs.segsum (F := Ideal) dst u (ix2 n q)
      = ∑ e : Fin 600000, if (dst (ix1 e)).toInt = (n.val : Int) then u (ix2 e q) else 0 := by
  unfold RDefs.segsum
  refine (scatterRows_apply _ _ _ n q).trans ?_
  rw [zerosN_apply, zero_add]
  refine Finset.sum_congr rfl fun e _ => ?_
  rw [col_apply]

/-- The reference's leaky (y where y ≥ 0) is the specification's (y where y > 0): at 0 both give 0. -/
theorem leaky_apply (y : FVec Ideal S50000x128 .f32) (i : S50000x128.Idx) :
    RDefs.leaky (F := Ideal) y i = Cert.Spec.leaky (y i) := by
  show Scalar.select (BitVec.ofBool (decide (Ideal.ofBits .f32 0x00000000#32 ≤ y i))) (y i)
      (Ideal.ofBits .f32 0x3C23D70A#32 * y i) = _
  rw [Ideal.ofBits_zero_f32]
  unfold Cert.Spec.leaky Cert.Spec.slope
  by_cases h' : 0 ≤ y i
  · rw [decide_eq_true h']
    show Scalar.select 1#1 _ _ = _
    rw [select_one]
    by_cases h : 0 < y i
    · rw [if_pos h]
    · rw [if_neg h, le_antisymm (not_lt.mp h) h', mul_zero]
  · rw [decide_eq_false h']
    show Scalar.select 0#1 _ _ = _
    rw [select_zero, if_neg (fun h => h' h.le)]

/-! ## One relation's summand, the specification's aggregate, and the layer -/

/-- One relation's summand at (n, q): over the edges into n, the edge's message through relation r. -/
theorem summand_apply (x : FVec Ideal S50000x128 .f32) (a1 : IVec S2x600000 32) (a2 : IVec S600000 32)
    (hsrc : ∀ e : Fin 600000, 0 ≤ (a1 (ix2 (0 : Fin 2) e)).toInt ∧ (a1 (ix2 (0 : Fin 2) e)).toInt < 50000)
    (col : FVec Ideal S600000x1 .f32) (W : FVec Ideal S128x128 .f32)
    (Wl : (⟨3, ![4, 128, 128]⟩ : Shape).Idx → EReal) (r : Fin 4)
    (hcol : ∀ e : Fin 600000, col (ix2 e (0 : Fin 1)) = Cert.Spec.hot (a2 (ix1 e)) (BitVec.ofNat 32 r.val))
    (hW : ∀ (k q : Fin 128), Wl (ix3 r k q) = W (ix2 k q)) (n : Fin 50000) (q : Fin 128) :
    RDefs.segsum (F := Ideal) (RDefs.dstOf a1) (RDefs.msg (RDefs.xsrc x (RDefs.srcOf a1)) col W) (ix2 n q)
      = ∑ e : Fin 600000, if (a1 (ix2 (1 : Fin 2) e)).toInt = (n.val : Int) then
          ∑ k : Fin 128, (Cert.Spec.gath x (Cert.Spec.srcOf a1) (ix2 e k)
            * Cert.Spec.hot (a2 (ix1 e)) (BitVec.ofNat 32 r.val)) * Wl (ix3 r k q) else 0 := by
  rw [segsum_apply]
  refine Finset.sum_congr rfl fun e _ => ?_
  rw [dstOf_apply, msg_apply]
  refine congrArg (fun t => if (a1 (ix2 (1 : Fin 2) e)).toInt = (n.val : Int) then t else 0) ?_
  refine Finset.sum_congr rfl fun k _ => ?_
  rw [xsrc_apply x a1 hsrc e k, hcol e, hW k q]

/-- The specification's aggregate at (n, q), relation by relation: a conditional of a finite sum is the sum of the
    conditionals, and the two finite sums commute. -/
theorem specAgg_apply (x : Cert.Spec.NArr) (a1 : IVec S2x600000 32) (a2 : IVec S600000 32)
    (Wl : (⟨3, ![4, 128, 128]⟩ : Shape).Idx → EReal) (n : Fin 50000) (q : Fin 128) :
    Cert.Spec.seg (Cert.Spec.dstOf a1)
        (Cert.Spec.msgArr (Cert.Spec.gath x (Cert.Spec.srcOf a1)) (fun j => a2 (ix1 (j 0))) Wl) (ix2 n q)
      = ∑ r : Fin 4, ∑ e : Fin 600000, if (a1 (ix2 (1 : Fin 2) e)).toInt = (n.val : Int) then
          ∑ k : Fin 128, (Cert.Spec.gath x (Cert.Spec.srcOf a1) (ix2 e k)
            * Cert.Spec.hot (a2 (ix1 e)) (BitVec.ofNat 32 r.val)) * Wl (ix3 r k q) else 0 := by
  show (∑ e : Fin 600000, if (a1 (ix2 (1 : Fin 2) e)).toInt = (n.val : Int) then
      ∑ r : Fin 4, ∑ k : Fin 128, (Cert.Spec.gath x (Cert.Spec.srcOf a1) (ix2 e k)
        * Cert.Spec.hot (a2 (ix1 e)) (BitVec.ofNat 32 r.val)) * Wl (ix3 r k q) else 0) = _
  rw [Finset.sum_comm]
  refine Finset.sum_congr rfl fun e _ => ?_
  by_cases h : (a1 (ix2 (1 : Fin 2) e)).toInt = (n.val : Int)
  · simp only [if_pos h]
  · simp only [if_neg h, Finset.sum_const_zero]

/-- The specification's layer at (n, q). -/
theorem specLayer_apply (x : Cert.Spec.NArr) (src dst et : (⟨1, ![600000]⟩ : Shape).Idx → BitVec 32)
    (Wl : (⟨3, ![4, 128, 128]⟩ : Shape).Idx → EReal) (rootl : (⟨2, ![128, 128]⟩ : Shape).Idx → EReal)
    (biasl : Fin 128 → EReal) (n : Fin 50000) (q : Fin 128) :
    Cert.Spec.layer x src dst et Wl rootl biasl (ix2 n q)
      = Cert.Spec.leaky ((Cert.Spec.seg dst (Cert.Spec.msgArr (Cert.Spec.gath x src) (fun j => et (ix1 (j 0))) Wl) (ix2 n q)
          + ∑ k : Fin 128, x (ix2 n k) * rootl (ix2 k q)) + biasl q) := rfl

/-- The two sides' sums agree term by term: 0 + a = a, and the four relations' terms in the same order. -/
theorem assemble (z s0 s1 s2 s3 r b t0 t1 t2 t3 r' b' : EReal) (hz : z = 0) (h0 : s0 = t0) (h1 : s1 = t1)
    (h2 : s2 = t2) (h3 : s3 = t3) (hr : r = r') (hb : b = b') :
    ((((((z + s0) + s1) + s2) + s3) + r) + b) = ((t0 + t1 + t2 + t3) + r') + b' := by
  subst hz h0 h1 h2 h3 hr hb
  rw [zero_add]

/-- ONE LAYER of the reference is the specification's layer, when the source words are in range. -/
theorem layer_eq (x : FVec Ideal S50000x128 .f32) (a1 : IVec S2x600000 32) (a2 : IVec S600000 32)
    (W0 W1 W2 W3 rootl : FVec Ideal S128x128 .f32) (biasl : FVec Ideal S128 .f32)
    (Wl : (⟨3, ![4, 128, 128]⟩ : Shape).Idx → EReal)
    (hW0 : ∀ (k q : Fin 128), Wl (ix3 (0 : Fin 4) k q) = W0 (ix2 k q))
    (hW1 : ∀ (k q : Fin 128), Wl (ix3 (1 : Fin 4) k q) = W1 (ix2 k q))
    (hW2 : ∀ (k q : Fin 128), Wl (ix3 (2 : Fin 4) k q) = W2 (ix2 k q))
    (hW3 : ∀ (k q : Fin 128), Wl (ix3 (3 : Fin 4) k q) = W3 (ix2 k q))
    (hsrc : ∀ e : Fin 600000, 0 ≤ (a1 (ix2 (0 : Fin 2) e)).toInt ∧ (a1 (ix2 (0 : Fin 2) e)).toInt < 50000) :
    Cert.ReferenceIdeal.RDefs.layer (F := Ideal) x (Cert.ReferenceIdeal.RDefs.srcOf a1) (Cert.ReferenceIdeal.RDefs.dstOf a1)
        (Cert.ReferenceIdeal.RDefs.onehot (F := Ideal) a2) W0 W1 W2 W3 rootl biasl
      = Cert.Spec.layer x (Cert.Spec.srcOf a1) (Cert.Spec.dstOf a1) a2 Wl rootl (fun q => biasl (ix1 q)) := by
  funext i
  obtain ⟨n, q, rfl⟩ : ∃ (n : Fin 50000) (q : Fin 128), i = ix2 n q := ⟨i 0, i 1, eq_ix2 i⟩
  rw [specLayer_apply, specAgg_apply, Fin.sum_univ_four]
  unfold RDefs.layer
  rw [leaky_apply]
  refine congrArg Cert.Spec.leaky ?_
  rw [addf_apply, addf_apply, addf_apply, addf_apply, addf_apply, addf_apply]
  exact assemble _ _ _ _ _ _ _ _ _ _ _ _ _ (zerosN_apply _)
    (summand_apply x a1 a2 hsrc _ W0 Wl 0 (fun e => (ohCol0_apply _ e).trans (onehot_apply a2 e 0)) hW0 n q)
    (summand_apply x a1 a2 hsrc _ W1 Wl 1 (fun e => (ohCol1_apply _ e).trans (onehot_apply a2 e 1)) hW1 n q)
    (summand_apply x a1 a2 hsrc _ W2 Wl 2 (fun e => (ohCol2_apply _ e).trans (onehot_apply a2 e 2)) hW2 n q)
    (summand_apply x a1 a2 hsrc _ W3 Wl 3 (fun e => (ohCol3_apply _ e).trans (onehot_apply a2 e 3)) hW3 n q)
    (dotN_apply x rootl n q) (biasRows_apply biasl n q)

end Cert.ReferenceIdeal.RLayer

end
-- ==== Proof.RMath.lean ====
/-
  The idealized reference program's value is the specification's result, when node types and source words are in range.

  • The starting rows. The program takes the table's row at the word idx = (w + 16 where w < 0, w elsewhere), read signed
    and clamped into [0, 15]. For a node-type word w in [0, 16) this is row w. The specification's row is
    Σ k < 16, hot k w · table[k, q]; every term but k = w vanishes and that term is table[w, q].
  • The parameter slices. Relation r's matrix of layer l is the block of one matrix at (l, r, 0, 0) of the
    [3, 4, 128, 128] array, flattened to [128, 128]: its element (k, q) is the array's element (l, r, k, q), since
    flattening keeps the row-major position ((0·1 + 0)·128 + k)·128 + q = k·128 + q. Likewise the root matrix of layer l
    is the block at (l, 0, 0) of the [3, 128, 128] array and the bias row is the block at (l, 0) of the [3, 128] array.
  • The layers. One layer of the program with layer l's slices is the specification's layer l (the per-layer statement,
    proved elsewhere, applied with these slice facts); the value is three of them over the starting rows.
-/
import proofs.«411858_j26792005992743_1_alg».proof.Proof.RDefs
import proofs.«411858_j26792005992743_1_alg».proof.Proof.LibRows
import proofs.«411858_j26792005992743_1_alg».proof.Proof.RLayer
import Idealize.ShloMosaic.Lib.Pipeline.Value

noncomputable section

namespace Cert.ReferenceIdeal.RMath

open Cert.ReferenceIdeal Cert.ReferenceIdeal.Gen Idealize.ShloMosaic Idealize.ShloMosaic.ValueIdx

open scoped BigOperators

/-! ## Words in range -/

/-- A word whose signed value lies in [0, n) has that value as its unsigned value. -/
theorem toNat_of_range (w : BitVec 32) (n : Nat) (h0 : 0 ≤ w.toInt) (h1 : w.toInt < n) :
    w.toInt = (w.toNat : Int) ∧ w.toNat < n := by
  have hlt := w.isLt
  have e : w.toInt = (w.toNat : Int) := by
    rw [BitVec.toInt_eq_toNat_cond] at h0 ⊢
    split at h0
    · rename_i hc; rw [if_pos hc]
    · omega
  exact ⟨e, by omega⟩

/-- "w + c where w < 0, w elsewhere" is w for a word that is not negative. -/
theorem sel_nonneg (w c : BitVec 32) (h0 : 0 ≤ w.toInt) :
    Scalar.select (IntOp.cmpi .slt w 0#32) (IntOp.addi w c) w = w := by
  unfold Scalar.select
  refine if_neg fun hc => ?_
  have hlt := IntOp.cmpi_slt.1 hc
  rw [show (0#32 : BitVec 32).toInt = 0 from by decide] at hlt
  omega

/-- For k below 16 and a word w below 16, the word of k is w exactly when k is w's value. -/
theorem ofNat_eq_iff (k : Fin 16) (w : BitVec 32) (hw : w.toNat < 16) : BitVec.ofNat 32 k.val = w ↔ k.val = w.toNat := by
  have hk := k.isLt
  constructor
  · intro h
    have := congrArg BitVec.toNat h
    rw [BitVec.toNat_ofNat] at this
    omega
  · intro h
    apply BitVec.eq_of_toNat_eq
    rw [BitVec.toNat_ofNat]
    omega

/-! ## The embedded node types -/

/-- The table's rows at the node-type words are, for words in [0, 16), the one-hot sums of the specification. -/
theorem emb_eq (a0 : IVec S50000 32) (a3 : FVec Ideal S16x128 .f32)
    (hnt : ∀ n : Fin 50000, 0 ≤ (a0 (ix1 n)).toInt ∧ (a0 (ix1 n)).toInt < 16) :
    Cert.ReferenceIdeal.RDefs.emb (F := Ideal) a0 a3 = Cert.Spec.embArr (fun j => a0 (ix1 (j 0))) a3 := by
  funext i
  obtain ⟨p, q, rfl⟩ : ∃ p q, i = ix2 p q := ⟨i 0, i 1, eq_ix2 i⟩
  obtain ⟨e, hw⟩ := toNat_of_range (a0 (ix1 p)) 16 (hnt p).1 (hnt p).2
  unfold Cert.ReferenceIdeal.RDefs.emb
  refine (Cert.LibRows.rowGather_apply (n := 16) (e := 50000) (c := 128) (by decide)
    gather_S16x128_S50000x1_S50000x128_1_0_n_n_0_1_1128_wf a3 _ p q).trans ?_
  have hval : broadcastInDim S50000x1 ![0] bcast_S50000_S50000x1_0
      (select (cmpi .slt a0 (broadcastInDim S50000 ![] bcast_S_S50000 (constantI S_ 32 0#32)))
        (addi a0 (broadcastInDim S50000 ![] bcast_S_S50000 (constantI S_ 32 16#32))) a0) (ix2 p (0 : Fin 1))
      = a0 (ix1 p) := by
    refine (broadcastInDim_apply _ _ _ _ (ix1 p) (fun a => by
      match a with
      | ⟨0, _⟩ => exact (if_neg (by show ¬ (50000 : Nat) = 1; omega)).symm)).trans ?_
    exact sel_nonneg (a0 (ix1 p)) 16#32 (hnt p).1
  have key : ∀ r : Fin 16, r.val = (a0 (ix1 p)).toNat → a3 (ix2 r q) = Cert.Spec.embRow (a0 (ix1 p)) a3 q := by
    intro r hr
    unfold Cert.Spec.embRow
    rw [Finset.sum_eq_single r]
    · have hh : Cert.Spec.hot (BitVec.ofNat 32 r.val) (a0 (ix1 p)) = 1 := if_pos ((ofNat_eq_iff r _ hw).2 hr)
      rw [hh, one_mul]
    · intro k _ hk
      have hh : Cert.Spec.hot (BitVec.ofNat 32 k.val) (a0 (ix1 p)) = 0 :=
        if_neg fun hc => hk (Fin.ext (((ofNat_eq_iff k _ hw).1 hc).trans hr.symm))
      rw [hh, zero_mul]
    · intro hn
      exact absurd (Finset.mem_univ _) hn
  refine key _ ?_
  show min (_ : BitVec 32).toInt.toNat (16 - 1) = _
  rw [hval]
  omega

/-! ## The parameter arrays' slices -/

/-- Relation r's matrix of layer l, cut out of the [3, 4, 128, 128] array and flattened to [128, 128], at (k, q). -/
theorem W_apply (a4 : FVec Ideal S3x4x128x128 .f32) (off : Fin 4 → Nat) (hs : S3x4x128x128.Slices off S1x1x128x128)
    (hc : S1x1x128x128.ShapeCasts S128x128) (l : Fin 3) (r : Fin 4)
    (h0 : off 0 = l.val) (h1 : off 1 = r.val) (h2 : off 2 = 0) (h3 : off 3 = 0) (k q : Fin 128) :
    shapeCast S128x128 (extractStridedSlice S1x1x128x128 off a4 hs) hc (ix2 k q) = a4 (ix4 l r k q) := by
  refine (shapeCast_apply _ hc (ix2 k q) (ix4 (0 : Fin 1) (0 : Fin 1) k q) (by
    rw [Shape.rowMajor_val_four, Shape.rowMajor_val_two]
    show ((0 * 1 + 0) * 128 + k.val) * 128 + q.val = k.val * 128 + q.val
    omega)).trans ?_
  exact extractStridedSlice_apply off a4 hs (ix4 (0 : Fin 1) (0 : Fin 1) k q) (ix4 l r k q) (by
    intro a
    match a with
    | ⟨0, _⟩ => show l.val = off 0 + 0; omega
    | ⟨1, _⟩ => show r.val = off 1 + 0; omega
    | ⟨2, _⟩ => show k.val = off 2 + k.val; omega
    | ⟨3, _⟩ => show q.val = off 3 + q.val; omega)

/-- Layer l's root matrix, cut out of the [3, 128, 128] array and flattened to [128, 128]. -/
theorem root_eq (a5 : FVec Ideal S3x128x128 .f32) (off : Fin 3 → Nat) (hs : S3x128x128.Slices off S1x128x128)
    (hc : S1x128x128.ShapeCasts S128x128) (l : Fin 3) (h0 : off 0 = l.val) (h1 : off 1 = 0) (h2 : off 2 = 0) :
    shapeCast S128x128 (extractStridedSlice S1x128x128 off a5 hs) hc = Cert.Spec.rootAt a5 l := by
  funext j
  obtain ⟨k, q, rfl⟩ : ∃ k q, j = ix2 k q := ⟨j 0, j 1, eq_ix2 j⟩
  refine (shapeCast_apply _ hc (ix2 k q) (ix3 (0 : Fin 1) k q) (by
    rw [Shape.rowMajor_val_three, Shape.rowMajor_val_two]
    show (0 * 128 + k.val) * 128 + q.val = k.val * 128 + q.val
    omega)).trans ?_
  exact extractStridedSlice_apply off a5 hs (ix3 (0 : Fin 1) k q) (ix3 l k q) (by
    intro a
    match a with
    | ⟨0, _⟩ => show l.val = off 0 + 0; omega
    | ⟨1, _⟩ => show k.val = off 1 + k.val; omega
    | ⟨2, _⟩ => show q.val = off 2 + q.val; omega)

/-- Layer l's bias row, cut out of the [3, 128] array and flattened to [128]. -/
theorem bias_eq (a6 : FVec Ideal S3x128 .f32) (off : Fin 2 → Nat) (hs : S3x128.Slices off S1x128)
    (hc : S1x128.ShapeCasts S128) (l : Fin 3) (h0 : off 0 = l.val) (h1 : off 1 = 0) :
    (fun q : Fin 128 => shapeCast S128 (extractStridedSlice S1x128 off a6 hs) hc (ix1 q)) = Cert.Spec.biasAt a6 l := by
  funext q
  refine (shapeCast_apply _ hc (ix1 q) (ix2 (0 : Fin 1) q) (by
    rw [Shape.rowMajor_val_two, Shape.rowMajor_val_one]
    show 0 * 128 + q.val = q.val
    omega)).trans ?_
  exact extractStridedSlice_apply off a6 hs (ix2 (0 : Fin 1) q) (ix2 l q) (by
    intro a
    match a with
    | ⟨0, _⟩ => show l.val = off 0 + 0; omega
    | ⟨1, _⟩ => show q.val = off 1 + q.val; omega)

/-! ## The layers -/

/-- One layer of the program with layer l's slices of the parameter arrays is the specification's layer l. -/
theorem layer_at (x : FVec Ideal S50000x128 .f32) (a1 : IVec S2x600000 32) (a2 : IVec S600000 32)
    (a4 : FVec Ideal S3x4x128x128 .f32) (a5 : FVec Ideal S3x128x128 .f32) (a6 : FVec Ideal S3x128 .f32) (l : Fin 3)
    (o0 o1 o2 o3 : Fin 4 → Nat) (orr : Fin 3 → Nat) (ob : Fin 2 → Nat)
    (hs0 : S3x4x128x128.Slices o0 S1x1x128x128) (hs1 : S3x4x128x128.Slices o1 S1x1x128x128)
    (hs2 : S3x4x128x128.Slices o2 S1x1x128x128) (hs3 : S3x4x128x128.Slices o3 S1x1x128x128)
    (hsr : S3x128x128.Slices orr S1x128x128) (hsb : S3x128.Slices ob S1x128)
    (e0 : o0 = ![l.val, 0, 0, 0]) (e1 : o1 = ![l.val, 1, 0, 0]) (e2 : o2 = ![l.val, 2, 0, 0]) (e3 : o3 = ![l.val, 3, 0, 0])
    (er : orr = ![l.val, 0, 0]) (eb : ob = ![l.val, 0])
    (hsrc : ∀ e : Fin 600000, 0 ≤ (a1 (ix2 (0 : Fin 2) e)).toInt ∧ (a1 (ix2 (0 : Fin 2) e)).toInt < 50000) :
    Cert.ReferenceIdeal.RDefs.layer (F := Ideal) x (Cert.ReferenceIdeal.RDefs.srcOf a1) (Cert.ReferenceIdeal.RDefs.dstOf a1)
        (Cert.ReferenceIdeal.RDefs.onehot (F := Ideal) a2)
        (shapeCast S128x128 (extractStridedSlice S1x1x128x128 o0 a4 hs0) shapeCasts_S1x1x128x128_S128x128)
        (shapeCast S128x128 (extractStridedSlice S1x1x128x128 o1 a4 hs1) shapeCasts_S1x1x128x128_S128x128)
        (shapeCast S128x128 (extractStridedSlice S1x1x128x128 o2 a4 hs2) shapeCasts_S1x1x128x128_S128x128)
        (shapeCast S128x128 (extractStridedSlice S1x1x128x128 o3 a4 hs3) shapeCasts_S1x1x128x128_S128x128)
        (shapeCast S128x128 (extractStridedSlice S1x128x128 orr a5 hsr) shapeCasts_S1x128x128_S128x128)
        (shapeCast S128 (extractStridedSlice S1x128 ob a6 hsb) shapeCasts_S1x128_S128)
      = Cert.Spec.layer x (Cert.Spec.srcOf a1) (Cert.Spec.dstOf a1) a2 (Cert.Spec.Wat a4 l) (Cert.Spec.rootAt a5 l)
          (Cert.Spec.biasAt a6 l) := by
  subst e0 e1 e2 e3 er eb
  refine (Cert.ReferenceIdeal.RLayer.layer_eq x a1 a2 _ _ _ _ _ _ (Cert.Spec.Wat a4 l) ?_ ?_ ?_ ?_ hsrc).trans ?_
  · intro k q; exact (W_apply a4 _ hs0 _ l 0 rfl rfl rfl rfl k q).symm
  · intro k q; exact (W_apply a4 _ hs1 _ l 1 rfl rfl rfl rfl k q).symm
  · intro k q; exact (W_apply a4 _ hs2 _ l 2 rfl rfl rfl rfl k q).symm
  · intro k q; exact (W_apply a4 _ hs3 _ l 3 rfl rfl rfl rfl k q).symm
  · rw [root_eq a5 _ hsr _ l rfl rfl rfl, bias_eq a6 _ hsb _ l rfl rfl]

/-- The program's value is the specification's result when node types and source words are in range. -/
theorem value_eq (a0 : IVec S50000 32) (a1 : IVec S2x600000 32) (a2 : IVec S600000 32) (a3 : FVec Ideal S16x128 .f32)
    (a4 : FVec Ideal S3x4x128x128 .f32) (a5 : FVec Ideal S3x128x128 .f32) (a6 : FVec Ideal S3x128 .f32)
    (h : Cert.Spec.InRange a0 a1) :
    Cert.ReferenceIdeal.RDefs.value (F := Ideal) a0 a1 a2 a3 a4 a5 a6 = Cert.Spec.result a0 a1 a2 a3 a4 a5 a6 := by
  obtain ⟨hnt, hsrc⟩ := h
  have e1 : Cert.ReferenceIdeal.RDefs.x1 (F := Ideal) a0 a1 a2 a3 a4 a5 a6
      = Cert.Spec.layer (Cert.Spec.embArr (fun j => a0 (ix1 (j 0))) a3) (Cert.Spec.srcOf a1) (Cert.Spec.dstOf a1) a2
          (Cert.Spec.Wat a4 0) (Cert.Spec.rootAt a5 0) (Cert.Spec.biasAt a6 0) := by
    unfold Cert.ReferenceIdeal.RDefs.x1
    rw [emb_eq a0 a3 hnt]
    exact layer_at _ a1 a2 a4 a5 a6 0 _ _ _ _ _ _ _ _ _ _ _ _ rfl rfl rfl rfl rfl rfl hsrc
  have e2 : Cert.ReferenceIdeal.RDefs.x2 (F := Ideal) a0 a1 a2 a3 a4 a5 a6
      = Cert.Spec.layer
          (Cert.Spec.layer (Cert.Spec.embArr (fun j => a0 (ix1 (j 0))) a3) (Cert.Spec.srcOf a1) (Cert.Spec.dstOf a1) a2
            (Cert.Spec.Wat a4 0) (Cert.Spec.rootAt a5 0) (Cert.Spec.biasAt a6 0))
          (Cert.Spec.srcOf a1) (Cert.Spec.dstOf a1) a2 (Cert.Spec.Wat a4 1) (Cert.Spec.rootAt a5 1) (Cert.Spec.biasAt a6 1) := by
    unfold Cert.ReferenceIdeal.RDefs.x2
    rw [e1]
    exact layer_at _ a1 a2 a4 a5 a6 1 _ _ _ _ _ _ _ _ _ _ _ _ rfl rfl rfl rfl rfl rfl hsrc
  unfold Cert.ReferenceIdeal.RDefs.value
  rw [e2]
  exact layer_at _ a1 a2 a4 a5 a6 2 _ _ _ _ _ _ _ _ _ _ _ _ rfl rfl rfl rfl rfl rfl hsrc

end Cert.ReferenceIdeal.RMath

end
-- ==== Proof.lean ====
/-
  A relational graph network of three layers: node features start as rows of a 16-row table picked by each node's
  type; in every layer each edge carries its source node's row, masked by the edge's relation (one of four) and
  multiplied by that relation's 128×128 matrix; the messages are summed at the edges' destinations; and every node's
  row becomes leaky (sum + row · root matrix + bias).

  The kernel program computes the table lookup as a one-hot product, sums the four relations' products per edge
  BEFORE summing over edges, and takes source rows with an out-of-range fill; the reference sums over edges per
  relation and then over relations, and clamps. Over the extended reals, with node types in [0, 16) and source
  words in [0, 50000), both are the one function Cert.Spec.result of the argument arrays: the two orders of
  summation agree because addition of extended reals is commutative and associative (no finiteness is used), the
  one-hot sum has one nonzero term, an in-range word is neither filled nor clamped, and the two forms of leaky
  differ only in which branch takes y = 0, where both give 0.

  The three frames: the kernel programs' are the generated frame certificates; the reference's is its run with the
  result dropped. The idealization rewrote no operation, so the preservation claim is trivial.
-/
import proofs.«411858_j26792005992743_1_alg».proof.Defs
import proofs.«411858_j26792005992743_1_alg».proof.Proof.Gen.Kernel
import proofs.«411858_j26792005992743_1_alg».proof.Proof.Gen.Kernel.Skeleton
import proofs.«411858_j26792005992743_1_alg».proof.Proof.Gen.Kernel.Launch
import proofs.«411858_j26792005992743_1_alg».proof.Proof.Gen.Kernel.Points
import proofs.«411858_j26792005992743_1_alg».proof.Proof.Gen.Kernel.Frame
import proofs.«411858_j26792005992743_1_alg».proof.Proof.Gen.KernelIdeal
import proofs.«411858_j26792005992743_1_alg».proof.Proof.Gen.KernelIdeal.Skeleton
import proofs.«411858_j26792005992743_1_alg».proof.Proof.Gen.KernelIdeal.Launch
import proofs.«411858_j26792005992743_1_alg».proof.Proof.Gen.KernelIdeal.Points
import proofs.«411858_j26792005992743_1_alg».proof.Proof.Gen.KernelIdeal.Frame
import proofs.«411858_j26792005992743_1_alg».proof.Proof.Gen.ReferenceIdeal
import proofs.«411858_j26792005992743_1_alg».proof.Proof.Gen.Pre_finite_inputs
import proofs.«411858_j26792005992743_1_alg».proof.Proof.PreDecode
import proofs.«411858_j26792005992743_1_alg».proof.Proof.KRun
import proofs.«411858_j26792005992743_1_alg».proof.Proof.KFold
import proofs.«411858_j26792005992743_1_alg».proof.Proof.KMath
import proofs.«411858_j26792005992743_1_alg».proof.Proof.RRead
import proofs.«411858_j26792005992743_1_alg».proof.Proof.RMath
import Idealize.ShloMosaic.Adequacy
import Idealize.ShloMosaic.Init

noncomputable section

namespace Cert.Proof

open Idealize.ShloMosaic Idealize.SL.Sem

/-- Under the precondition the node types name a table row and the source words name a node. -/
theorem inRange_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Spec.InRange (m ((c.tc : Thread Cert.KernelIdeal.nD Cert.KernelIdeal.τ).loc Cert.KernelIdeal.main_arg0)) (m ((c.tc : Thread Cert.KernelIdeal.nD Cert.KernelIdeal.τ).loc Cert.KernelIdeal.main_arg1)) :=
  Cert.PreDecode.inRange (F := Ideal) _ _ _ _ _ _ _ (h c)

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.RRun.run_value (F := Ideal) m ρ)

/-- Both programs end with the specification's function of the kernel memory's argument arrays. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ?_) (Cert.KernelIdeal.KRun.run (F := Ideal) m ρ)
    obtain ⟨hv, hargs⟩ := h c
    refine ⟨?_, hargs⟩
    rw [hv, Cert.KernelIdeal.KFold.value_fold m ρ c]
    exact Cert.KernelIdeal.KMath.value_eq _ _ _ _ _ _ _ (inRange_of_pre m hpre c)
  · refine (θ_run Cert.ReferenceIdeal.defs _ _).mono (fun r h c => ?_) (Cert.ReferenceIdeal.RRun.run_value (F := Ideal) m' ρ')
    obtain ⟨hv, hargs⟩ := h c
    refine ⟨?_, hargs⟩
    rw [hv]
    obtain ⟨e0, e1, e2, e3, e4, e5, e6⟩ := hagree c
    rw [e0, e1, e2, e3, e4, e5, e6]
    exact Cert.ReferenceIdeal.RMath.value_eq _ _ _ _ _ _ _ (inRange_of_pre m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
